-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x2048x2048 : Shape := ⟨4, ![8, 2, 2048, 2048]⟩
abbrev S8x1x2048x2048 : Shape := ⟨4, ![8, 1, 2048, 2048]⟩
abbrev S2048x2048 : Shape := ⟨2, ![2048, 2048]⟩
abbrev S_ : Shape := ⟨0, ![]⟩

class Facts : Prop where
  bcast_S_S8x2x2048x2048 : S_.BroadcastsInDim S8x2x2048x2048 (![] : Fin 0 → Fin S8x2x2048x2048.rank)
  reducesTo_S8x2x2048x2048_S_d0_1_2_3 : S8x2x2048x2048.ReducesTo [0, 1, 2, 3] S_
  h_S_ : 0 < S_.numel
  bcast_S_S8x1x2048x2048 : S_.BroadcastsInDim S8x1x2048x2048 (![] : Fin 0 → Fin S8x1x2048x2048.rank)
  reducesTo_S8x1x2048x2048_S_d0_1_2_3 : S8x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8x2x2048x2048 .f32) (main_arg1 : FVec F S8x1x2048x2048 .f32) (main_arg2 : FVec F S2048x2048 .f32) : IVec S_ 1 :=
  let main_v0 : FVec F S8x2x2048x2048 .f32 := Host.absf main_arg0
  let main_cst : FVec F S_ .f32 := constant S_ .f32 0x7F800000#32
  let main_v1 : FVec F S8x2x2048x2048 .f32 := broadcastInDim S8x2x2048x2048 ![] bcast_S_S8x2x2048x2048 main_cst
  let main_v2 : IVec S8x2x2048x2048 1 := cmpf .olt main_v0 main_v1
  let main_c : IVec S_ 1 := constantI S_ 1 1#1
  let main_v3 : IVec S_ 1 := (fun x v => Host.reduce IntOp.andi x v reducesTo_S8x2x2048x2048_S_d0_1_2_3 h_S_) main_v2 main_c
  let main_v4 : FVec F S8x1x2048x2048 .f32 := Host.absf main_arg1
  let main_cst_0 : FVec F S_ .f32 := constant S_ .f32 0x7F800000#32
  let main_v5 : FVec F S8x1x2048x2048 .f32 := broadcastInDim S8x1x2048x2048 ![] bcast_S_S8x1x2048x2048 main_cst_0
  let main_v6 : IVec S8x1x2048x2048 1 := cmpf .olt main_v4 main_v5
  let main_c_1 : IVec S_ 1 := constantI S_ 1 1#1
  let main_v7 : IVec S_ 1 := (fun x v => Host.reduce IntOp.andi x v reducesTo_S8x1x2048x2048_S_d0_1_2_3 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S8x2x2048x2048 : Shape := ⟨4, ![8, 2, 2048, 2048]⟩
abbrev S8x1x2048x2048 : Shape := ⟨4, ![8, 1, 2048, 2048]⟩
abbrev S2048x2048 : Shape := ⟨2, ![2048, 2048]⟩
abbrev S8x8x8x128 : Shape := ⟨4, ![8, 8, 8, 128]⟩
abbrev S1x1x256x2048 : Shape := ⟨4, ![1, 1, 256, 2048]⟩
abbrev S1x1x8x2048 : Shape := ⟨4, ![1, 1, 8, 2048]⟩
abbrev S256x2048 : Shape := ⟨2, ![256, 2048]⟩
abbrev S1x2x256x2048 : Shape := ⟨4, ![1, 2, 256, 2048]⟩
abbrev S1x1x8x128 : Shape := ⟨4, ![1, 1, 8, 128]⟩
abbrev S8x2048 : Shape := ⟨2, ![8, 2048]⟩
abbrev S1x2048 : Shape := ⟨2, ![1, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S8x128 : Shape := ⟨2, ![8, 128]⟩
abbrev S8x8x1x1 : Shape := ⟨4, ![8, 8, 1, 1]⟩
abbrev S8x8 : Shape := ⟨2, ![8, 8]⟩
abbrev S_ : Shape := ⟨0, ![]⟩
abbrev S8 : Shape := ⟨1, ![8]⟩
abbrev S1x8 : Shape := ⟨2, ![1, 8]⟩
abbrev S4x8 : Shape := ⟨2, ![4, 8]⟩

abbrev nBuf : Space → Nat
  | .hbm => 24
  | .vmem => 16
  | .smem => 0
  | _ => 0

abbrev bufTy : (tb : Table) → Fin (tcTables nBuf tb) → BufTy
  | .hbm, ⟨0, _⟩ => ⟨S8x2x2048x2048, .f32⟩
  | .hbm, ⟨1, _⟩ => ⟨S8x1x2048x2048, .f32⟩
  | .hbm, ⟨2, _⟩ => ⟨S2048x2048, .f32⟩
  | .hbm, ⟨3, _⟩ => ⟨S8x2x2048x2048, .f32⟩
  | .hbm, ⟨4, _⟩ => ⟨S8x8x8x128, .f32⟩
  | .hbm, ⟨5, _⟩ => ⟨S8x8x1x1, .f32⟩
  | .hbm, ⟨6, _⟩ => ⟨S8x8, .f32⟩
  | .hbm, ⟨7, _⟩ => ⟨S_, .f32⟩
  | .hbm, ⟨8, _⟩ => ⟨S8, .f32⟩
  | .hbm, ⟨9, _⟩ => ⟨S8x8x1x1, .f32⟩
  | .hbm, ⟨10, _⟩ => ⟨S8x8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S1x8, .f32⟩
  | .hbm, ⟨20, _⟩ => ⟨S1x8, .f32⟩
  | .hbm, ⟨21, _⟩ => ⟨S1x8, .f32⟩
  | .hbm, ⟨22, _⟩ => ⟨S1x8, .f32⟩
  | .hbm, ⟨23, _⟩ => ⟨S4x8, .f32⟩
  | .local _ .vmem, ⟨0, _⟩ => ⟨S1x1x256x2048, .f32⟩
  | .local _ .vmem, ⟨1, _⟩ => ⟨S1x1x256x2048, .f32⟩
  | .local _ .vmem, ⟨2, _⟩ => ⟨S1x1x256x2048, .f32⟩
  | .local _ .vmem, ⟨3, _⟩ => ⟨S1x1x256x2048, .f32⟩
  | .local _ .vmem, ⟨4, _⟩ => ⟨S1x1x8x2048, .f32⟩
  | .local _ .vmem, ⟨5, _⟩ => ⟨S1x1x8x2048, .f32⟩
  | .local _ .vmem, ⟨6, _⟩ => ⟨S1x1x8x2048, .f32⟩
  | .local _ .vmem, ⟨7, _⟩ => ⟨S1x1x8x2048, .f32⟩
  | .local _ .vmem, ⟨8, _⟩ => ⟨S1x1x256x2048, .f32⟩
  | .local _ .vmem, ⟨9, _⟩ => ⟨S1x1x256x2048, .f32⟩
  | .local _ .vmem, ⟨10, _⟩ => ⟨S256x2048, .f32⟩
  | .local _ .vmem, ⟨11, _⟩ => ⟨S256x2048, .f32⟩
  | .local _ .vmem, ⟨12, _⟩ => ⟨S1x2x256x2048, .f32⟩
  | .local _ .vmem, ⟨13, _⟩ => ⟨S1x2x256x2048, .f32⟩
  | .local _ .vmem, ⟨14, _⟩ => ⟨S1x1x8x128, .f32⟩
  | .local _ .vmem, ⟨15, _⟩ => ⟨S1x1x8x128, .f32⟩
  | _, _ => ⟨S8x2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg1.toNat, c0_i32_4.toNat, v11.toNat, c0_i32_5.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg1.toNat, c0_i32_4.toNat, v11.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  inb_S1x1x8x2048_S1x1x8x2048_0_0_0_0 : ∀ a, (![0, 0, 0, 0] : Fin 4 → Nat) a + S1x1x8x2048.size a ≤ S1x1x8x2048.size a
  h_S1x1x8x2048 : 0 < S1x1x8x2048.numel
  shapeCasts_S1x1x8x2048_S8x2048 : S1x1x8x2048.ShapeCasts S8x2048
  inb_S256x2048_S256x2048_0_0 : ∀ a, (![0, 0] : Fin 2 → Nat) a + S256x2048.size a ≤ S256x2048.size a
  h_S256x2048 : 0 < S256x2048.numel
  rotates_S256x2048_d0 : S256x2048.Rotates 0 none
  rotates_S256x2048_d1 : S256x2048.Rotates 1 none
  iota_S256x2048_d0_w32 : S256x2048.Iotas .tc 32 [0]
  slices_S8x2048_o7_0_S1x2048 : S8x2048.Slices ![7, 0] S1x2048
  slices_S8x2048_o0_0_S1x2048 : S8x2048.Slices ![0, 0] S1x2048
  slices_S256x2048_o255_0_S1x2048 : S256x2048.Slices ![255, 0] S1x2048
  slices_S256x2048_o0_0_S1x2048 : S256x2048.Slices ![0, 0] S1x2048
  shapeCasts_S1x2048_S1x2048 : S1x2048.ShapeCasts S1x2048
  broadcasts_S1x2048_S256x2048 : S1x2048.Broadcasts S256x2048
  inb_S1x2x256x2048_S1x1x256x2048_0_0_0_0 : ∀ a, (![0, 0, 0, 0] : Fin 4 → Nat) a + S1x1x256x2048.size a ≤ S1x2x256x2048.size a
  shapeCasts_S256x2048_S1x1x256x2048 : S256x2048.ShapeCasts S1x1x256x2048
  inb_S1x2x256x2048_S1x1x256x2048_0_1_0_0 : ∀ a, (![0, 1, 0, 0] : Fin 4 → Nat) a + S1x1x256x2048.size a ≤ S1x2x256x2048.size a
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  inpos_S1x1_p0_0 : ∀ a, (![0, 0] : Fin 2 → Nat) a < S1x1.size a
  iota_S8x128_d1_w32 : S8x128.Iotas .tc 32 [1]
  iota_S8x128_d0_w32 : S8x128.Iotas .tc 32 [0]
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  slices_S8x8x8x128_S8x8x1x1_0_0_0_0 : S8x8x8x128.Slices ![0, 0, 0, 0] S8x8x1x1
  shapeCasts_S8x8x1x1_S8x8 : S8x8x1x1.ShapeCasts S8x8
  reducesTo_S8x8_S8_d0 : S8x8.ReducesTo [0] S8
  h_S_ : 0 < S_.numel
  slices_S8x8x8x128_S8x8x1x1_0_0_0_1 : S8x8x8x128.Slices ![0, 0, 0, 1] S8x8x1x1
  bcast_S_S8 : S_.BroadcastsInDim S8 (![] : Fin 0 → Fin S8.rank)
  bcast_S8_S1x8_1 : S8.BroadcastsInDim S1x8 (![1] : Fin 1 → Fin S1x8.rank)
  concatenates_S1x8_S1x8_S1x8_S1x8_S4x8_d0 : Shape.Concatenates [S1x8, S1x8, S1x8, S1x8] S4x8 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x2048.size a ≤ S8x2x2048x2048.size a
  hwx0_0 : ∀ i : grid0.Coords, EltTy.bits .f32 = 32 ∨ (Rect.block (s := S8x2x2048x2048) S1x1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x2048.size a ≤ S8x2x2048x2048.size a
  hwx0_1 : ∀ i : grid0.Coords, EltTy.bits .f32 = 32 ∨ (Rect.block (s := S8x2x2048x2048) S1x1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x2048.size a ≤ S8x2x2048x2048.size a
  hwx0_2 : ∀ i : grid0.Coords, EltTy.bits .f32 = 32 ∨ (Rect.block (s := S8x2x2048x2048) S1x1x8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x2048.size a ≤ S8x2x2048x2048.size a
  hwx0_3 : ∀ i : grid0.Coords, EltTy.bits .f32 = 32 ∨ (Rect.block (s := S8x2x2048x2048) S1x1x8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S8x1x2048x2048.size a
  hwx0_4 : ∀ i : grid0.Coords, EltTy.bits .f32 = 32 ∨ (Rect.block (s := S8x1x2048x2048) S1x1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x256x2048.size a ≤ S8x2x2048x2048.size a
  hwx0_6 : ∀ i : grid0.Coords, EltTy.bits .f32 = 32 ∨ (Rect.block (s := S8x2x2048x2048) S1x2x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x8x128.size a ≤ S8x8x8x128.size a
  hwx0_7 : ∀ i : grid0.Coords, EltTy.bits .f32 = 32 ∨ (Rect.block (s := S8x8x8x128) S1x1x8x128.size (cc0_transform_7 i) (hinb0_7 i)).WholeWords (EltTy.packing .f32)

variable [Facts₀]

abbrev win0_0 : Pipeline.Window sig grid0 :=
  Pipeline.Window.ofSpec (Memref.whole main_arg0) S1x1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1x8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x2x256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2x2048x2048 : Shape := ⟨4, ![8, 2, 2048, 2048]⟩
abbrev S8x1x2048x2048 : Shape := ⟨4, ![8, 1, 2048, 2048]⟩
abbrev S2048x2048 : Shape := ⟨2, ![2048, 2048]⟩
abbrev S_ : Shape := ⟨0, ![]⟩
abbrev S8x1x1x2048 : Shape := ⟨4, ![8, 1, 1, 2048]⟩
abbrev S8x1x2047x2048 : Shape := ⟨4, ![8, 1, 2047, 2048]⟩
abbrev S8x1x2048x1 : Shape := ⟨4, ![8, 1, 2048, 1]⟩
abbrev S8x1x2048x2047 : Shape := ⟨4, ![8, 1, 2048, 2047]⟩
abbrev S8 : Shape := ⟨1, ![8]⟩
abbrev S1x8 : Shape := ⟨2, ![1, 8]⟩
abbrev S4x8 : Shape := ⟨2, ![4, 8]⟩
abbrev S1x1x2048x2048 : Shape := ⟨4, ![1, 1, 2048, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2x2048x2048, .f32⟩
  | .hbm, ⟨1, _⟩ => ⟨S8x1x2048x2048, .f32⟩
  | .hbm, ⟨2, _⟩ => ⟨S2048x2048, .f32⟩
  | .hbm, ⟨3, _⟩ => ⟨S8x1x2048x2048, .f32⟩
  | .hbm, ⟨4, _⟩ => ⟨S8x1x2048x2048, .f32⟩
  | .hbm, ⟨5, _⟩ => ⟨S_, .f32⟩
  | .hbm, ⟨6, _⟩ => ⟨S8x1x2048x2048, .f32⟩
  | .hbm, ⟨7, _⟩ => ⟨S8x1x2048x2048, .f32⟩
  | .hbm, ⟨8, _⟩ => ⟨S8x1x1x2048, .f32⟩
  | .hbm, ⟨9, _⟩ => ⟨S8x1x2047x2048, .f32⟩
  | .hbm, ⟨10, _⟩ => ⟨S8x1x2048x2048, .f32⟩
  | .hbm, ⟨11, _⟩ => ⟨S8x1x2047x2048, .f32⟩
  | .hbm, ⟨12, _⟩ => ⟨S8x1x1x2048, .f32⟩
  | .hbm, ⟨13, _⟩ => ⟨S8x1x2048x2048, .f32⟩
  | .hbm, ⟨14, _⟩ => ⟨S8x1x2048x2048, .f32⟩
  | .hbm, ⟨15, _⟩ => ⟨S8x1x2048x1, .f32⟩
  | .hbm, ⟨16, _⟩ => ⟨S8x1x2048x2047, .f32⟩
  | .hbm, ⟨17, _⟩ => ⟨S8x1x2048x2048, .f32⟩
  | .hbm, ⟨18, _⟩ => ⟨S8x1x2048x2048, .f32⟩
  | .hbm, ⟨19, _⟩ => ⟨S8x1x2048x2047, .f32⟩
  | .hbm, ⟨20, _⟩ => ⟨S8x1x2048x1, .f32⟩
  | .hbm, ⟨21, _⟩ => ⟨S8x1x2048x2048, .f32⟩
  | .hbm, ⟨22, _⟩ => ⟨S8x1x2048x2048, .f32⟩
  | .hbm, ⟨23, _⟩ => ⟨S8x1x2048x2048, .f32⟩
  | .hbm, ⟨24, _⟩ => ⟨S_, .f32⟩
  | .hbm, ⟨25, _⟩ => ⟨S8x1x2048x2048, .f32⟩
  | .hbm, ⟨26, _⟩ => ⟨S8x1x2048x2048, .f32⟩
  | .hbm, ⟨27, _⟩ => ⟨S_, .f32⟩
  | .hbm, ⟨28, _⟩ => ⟨S8x1x2048x2048, .f32⟩
  | .hbm, ⟨29, _⟩ => ⟨S8x1x2048x2048, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S1x8, .f32⟩
  | .hbm, ⟨42, _⟩ => ⟨S1x8, .f32⟩
  | .hbm, ⟨43, _⟩ => ⟨S1x8, .f32⟩
  | .hbm, ⟨44, _⟩ => ⟨S4x8, .f32⟩
  | .hbm, ⟨45, _⟩ => ⟨S_, .f32⟩
  | .hbm, ⟨46, _⟩ => ⟨S8x1x2048x2048, .f32⟩
  | .hbm, ⟨47, _⟩ => ⟨S8x1x2048x2048, .i1⟩
  | .hbm, ⟨48, _⟩ => ⟨S_, .f32⟩
  | .hbm, ⟨49, _⟩ => ⟨S8x1x2048x2048, .f32⟩
  | .hbm, ⟨50, _⟩ => ⟨S8x1x2048x2048, .f32⟩
  | .hbm, ⟨51, _⟩ => ⟨S8x1x2048x2048, .f32⟩
  | .hbm, ⟨52, _⟩ => ⟨S8x1x2048x2048, .f32⟩
  | .hbm, ⟨53, _⟩ => ⟨S8x1x2048x2048, .f32⟩
  | .hbm, ⟨54, _⟩ => ⟨S_, .f32⟩
  | .hbm, ⟨55, _⟩ => ⟨S2048x2048, .f32⟩
  | .hbm, ⟨56, _⟩ => ⟨S2048x2048, .i1⟩
  | .hbm, ⟨57, _⟩ => ⟨S1x1x2048x2048, .i1⟩
  | .hbm, ⟨58, _⟩ => ⟨S8x1x2048x2048, .i1⟩
  | .hbm, ⟨59, _⟩ => ⟨S8x1x2048x2048, .i1⟩
  | .hbm, ⟨60, _⟩ => ⟨S8x1x2048x2048, .i1⟩
  | .hbm, ⟨61, _⟩ => ⟨S8x1x2048x2048, .f32⟩
  | .hbm, ⟨62, _⟩ => ⟨S_, .f32⟩
  | .hbm, ⟨63, _⟩ => ⟨S8x1x2048x2048, .f32⟩
  | .hbm, ⟨64, _⟩ => ⟨S8x1x2048x2048, .f32⟩
  | .hbm, ⟨65, _⟩ => ⟨S_, .f32⟩
  | .hbm, ⟨66, _⟩ => ⟨S8x1x2048x2048, .f32⟩
  | .hbm, ⟨67, _⟩ => ⟨S8x1x2048x2048, .f32⟩
  | .hbm, ⟨68, _⟩ => ⟨S8x1x2048x2048, .f32⟩
  | .hbm, ⟨69, _⟩ => ⟨S8x2x2048x2048, .f32⟩
  | _, _ => ⟨S8x2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_call1_v0 : Ref sig .tc := ⟨.hbm, 11, rfl⟩
abbrev main_call1_v1 : Ref sig .tc := ⟨.hbm, 12, rfl⟩
abbrev main_v5 : Ref sig .tc := ⟨.hbm, 13, rfl⟩
abbrev main_v6 : Ref sig .tc := ⟨.hbm, 14, rfl⟩
abbrev main_call2_v0 : Ref sig .tc := ⟨.hbm, 15, rfl⟩
abbrev main_call2_v1 : Ref sig .tc := ⟨.hbm, 16, rfl⟩
abbrev main_v7 : Ref sig .tc := ⟨.hbm, 17, rfl⟩
abbrev main_v8 : Ref sig .tc := ⟨.hbm, 18, rfl⟩
abbrev main_call3_v0 : Ref sig .tc := ⟨.hbm, 19, rfl⟩
abbrev main_call3_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  slices_S8x2x2048x2048_S8x1x2048x2048_0_0_0_0 : S8x2x2048x2048.Slices ![0, 0, 0, 0] S8x1x2048x2048
  slices_S8x2x2048x2048_S8x1x2048x2048_0_1_0_0 : S8x2x2048x2048.Slices ![0, 1, 0, 0] S8x1x2048x2048
  bcast_S_S8x1x2048x2048 : S_.BroadcastsInDim S8x1x2048x2048 (![] : Fin 0 → Fin S8x1x2048x2048.rank)
  slices_S8x1x2048x2048_S8x1x1x2048_0_0_2047_0 : S8x1x2048x2048.Slices ![0, 0, 2047, 0] S8x1x1x2048
  slices_S8x1x2048x2048_S8x1x2047x2048_0_0_0_0 : S8x1x2048x2048.Slices ![0, 0, 0, 0] S8x1x2047x2048
  concatenates_S8x1x1x2048_S8x1x2047x2048_S8x1x2048x2048_d2 : Shape.Concatenates [S8x1x1x2048, S8x1x2047x2048] S8x1x2048x2048 2
  slices_S8x1x2048x2048_S8x1x2047x2048_0_0_1_0 : S8x1x2048x2048.Slices ![0, 0, 1, 0] S8x1x2047x2048
  slices_S8x1x2048x2048_S8x1x1x2048_0_0_0_0 : S8x1x2048x2048.Slices ![0, 0, 0, 0] S8x1x1x2048
  concatenates_S8x1x2047x2048_S8x1x1x2048_S8x1x2048x2048_d2 : Shape.Concatenates [S8x1x2047x2048, S8x1x1x2048] S8x1x2048x2048 2
  slices_S8x1x2048x2048_S8x1x2048x1_0_0_0_2047 : S8x1x2048x2048.Slices ![0, 0, 0, 2047] S8x1x2048x1
  slices_S8x1x2048x2048_S8x1x2048x2047_0_0_0_0 : S8x1x2048x2048.Slices ![0, 0, 0, 0] S8x1x2048x2047
  concatenates_S8x1x2048x1_S8x1x2048x2047_S8x1x2048x2048_d3 : Shape.Concatenates [S8x1x2048x1, S8x1x2048x2047] S8x1x2048x2048 3
  slices_S8x1x2048x2048_S8x1x2048x2047_0_0_0_1 : S8x1x2048x2048.Slices ![0, 0, 0, 1] S8x1x2048x2047
  slices_S8x1x2048x2048_S8x1x2048x1_0_0_0_0 : S8x1x2048x2048.Slices ![0, 0, 0, 0] S8x1x2048x1
  concatenates_S8x1x2048x2047_S8x1x2048x1_S8x1x2048x2048_d3 : Shape.Concatenates [S8x1x2048x2047, S8x1x2048x1] S8x1x2048x2048 3
  reducesTo_S8x1x2048x2048_S8_d1_2_3 : S8x1x2048x2048.ReducesTo [1, 2, 3] S8
  h_S_ : 0 < S_.numel
  bcast_S_S8 : S_.BroadcastsInDim S8 (![] : Fin 0 → Fin S8.rank)
  bcast_S8_S1x8_1 : S8.BroadcastsInDim S1x8 (![1] : Fin 1 → Fin S1x8.rank)
  concatenates_S1x8_S1x8_S1x8_S1x8_S4x8_d0 : Shape.Concatenates [S1x8, S1x8, S1x8, S1x8] S4x8 0
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S8x1x2048x2048_0_1_2_3 : S1x1x2048x2048.BroadcastsInDim S8x1x2048x2048 (![0, 1, 2, 3] : Fin 4 → Fin S8x1x2048x2048.rank)
  concatenates_S8x1x2048x2048_S8x1x2048x2048_S8x2x2048x2048_d1 : Shape.Concatenates [S8x1x2048x2048, S8x1x2048x2048] S8x2x2048x2048 1

variable [Facts₀]

class Facts : Prop extends Facts₀ where

variable [Facts]
-- ==== Proof.K.Body.lean ====
/-
  The tile body of the lattice sweep on whole staging buffers.

  The body loads six blocks whole — a tile of spins, the same tile of the field, the eight rows ending just above the
  tile, the eight rows starting just below it, the tile of uniform draws, the tile of mask draws —, computes, and stores
  three times: the new spins into channel 0 of the state block, the field into channel 1, and the 8 × 128 block of
  partial sums. What it leaves in the two output buffers is therefore a function of the six loaded blocks alone: the
  stores' payloads laid over one another (`stateBlk`, `partBlk`). The two stores into the state block are the two
  channel slabs, which tile it; the one store into the partial-sum block is the whole block.
-/
import proofs.«404182_j15599321219396_3_alg».proof.Proof.Gen.Kernel.Launch
import proofs.«404182_j15599321219396_3_alg».proof.Proof.Gen.Kernel.Skeleton
import proofs.«404182_j15599321219396_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rectangles the body reads and writes through -/

/-- A whole tile block (spins, field, uniform draws). -/
abbrev rTile : Rect S1x1x256x2048 := Rect.unit (s := S1x1x256x2048) ![0, 0, 0, 0] S1x1x256x2048.size inb_S1x1x256x2048_S1x1x256x2048_0_0_0_0
/-- A whole block of eight neighbouring rows. -/
abbrev rHalo : Rect S1x1x8x2048 := Rect.unit (s := S1x1x8x2048) ![0, 0, 0, 0] S1x1x8x2048.size inb_S1x1x8x2048_S1x1x8x2048_0_0_0_0
/-- The whole tile of mask draws. -/
abbrev rMask : Rect S256x2048 := Rect.unit (s := S256x2048) ![0, 0] S256x2048.size inb_S256x2048_S256x2048_0_0
/-- Channel 0 and channel 1 of the state block. -/
abbrev rCh0 : Rect S1x2x256x2048 := Rect.unit (s := S1x2x256x2048) ![0, 0, 0, 0] S1x1x256x2048.size inb_S1x2x256x2048_S1x1x256x2048_0_0_0_0
abbrev rCh1 : Rect S1x2x256x2048 := Rect.unit (s := S1x2x256x2048) ![0, 1, 0, 0] S1x1x256x2048.size inb_S1x2x256x2048_S1x1x256x2048_0_1_0_0
/-- The whole block of partial sums. -/
abbrev rPart : Rect S1x1x8x128 := Rect.unit (s := S1x1x8x128) ![0, 0, 0, 0] S1x1x8x128.size inb_S1x1x8x128_S1x1x8x128_0_0_0_0

/-! ## What the body leaves in each output buffer -/

/-- The energy change over the tile, from the spins and the two neighbouring row blocks. -/
def dEBlk (xs : Vec F S1x1x256x2048 .f32) (xt xb : Vec F S1x1x8x2048 .f32) : FVec F S256x2048 .f32 :=
  k0_pay10 (k0_pay2 (View.ld xs rTile)) (iota .tc S256x2048 32 [0] iota_S256x2048_d0_w32) (k0_pay5 (View.ld xs rTile) (View.ld xb rHalo))
    (k0_pay6 (View.ld xs rTile)) k0_pay7 (k0_pay8 (View.ld xs rTile) (View.ld xt rHalo)) k0_pay9

/-- The new spins of the tile: the first store's payload. -/
def spinsOut (xs xf : Vec F S1x1x256x2048 .f32) (xt xb : Vec F S1x1x8x2048 .f32) (xu : Vec F S1x1x256x2048 .f32) (xm : Vec F S256x2048 .f32) :
    FVec F S1x1x256x2048 .f32 :=
  k0_pay11 (k0_pay2 (View.ld xs rTile)) (k0_pay3 (View.ld xf rTile)) (k0_pay4 (View.ld xu rTile)) (View.ld xm rMask)
    (iota .tc S256x2048 32 [0] iota_S256x2048_d0_w32) (k0_pay5 (View.ld xs rTile) (View.ld xb rHalo))
    (k0_pay6 (View.ld xs rTile)) k0_pay7 (k0_pay8 (View.ld xs rTile) (View.ld xt rHalo)) k0_pay9

/-- The state block after the body: channel 1 (stored last) over channel 0. -/
def stateBlk (xs xf : Vec F S1x1x256x2048 .f32) (xt xb : Vec F S1x1x8x2048 .f32) (xu : Vec F S1x1x256x2048 .f32) (xm : Vec F S256x2048 .f32) :
    Vec F S1x2x256x2048 .f32 :=
  View.canon [⟨rCh1, k0_pay12 (k0_pay3 (View.ld xf rTile))⟩, ⟨rCh0, spinsOut xs xf xt xb xu xm⟩]

/-- The block of partial sums after the body. -/
def partBlk (xs : Vec F S1x1x256x2048 .f32) (xt xb : Vec F S1x1x8x2048 .f32) : Vec F S1x1x8x128 .f32 :=
  View.canon [⟨rPart, k0_pay1 (k0_pay2 (View.ld xs rTile))
    (k0_pay13 (k0_pay2 (View.ld xs rTile)) (iota .tc S256x2048 32 [0] iota_S256x2048_d0_w32) (k0_pay5 (View.ld xs rTile) (View.ld xb rHalo))
      (k0_pay6 (View.ld xs rTile)) k0_pay7 (k0_pay8 (View.ld xs rTile) (View.ld xt rHalo)) k0_pay9)⟩]

/-- The two channel slabs tile the state block. -/
theorem cover_state (p1 p0 : Vec F S1x1x256x2048 .f32) (y : S1x2x256x2048.Idx) :
    ∃ pc ∈ ([⟨rCh1, p1⟩, ⟨rCh0, p0⟩] : List (View.Piece (Elt F) S1x2x256x2048 .f32)), y ∈ pc.1.set :=
  View.cover_of_tiled [⟨rCh1, p1⟩, ⟨rCh0, p0⟩] S1x1x256x2048.size (by rfl) y

/-- The one store covers the partial-sum block. -/
theorem cover_part (p0 : Vec F S1x1x8x128 .f32) (y : S1x1x8x128.Idx) :
    ∃ pc ∈ ([⟨rPart, p0⟩] : List (View.Piece (Elt F) S1x1x8x128 .f32)), y ∈ pc.1.set :=
  View.cover_of_tiled [⟨rPart, p0⟩] S1x1x8x128.size (by rfl) y

/-! ## The body's triple -/

set_option maxHeartbeats 4000000 in
/-- The body on whole staging buffers — the six inputs' at read contents, the two outputs' at anything — runs to its
    return holding the inputs' as they were and the outputs' at `stateBlk` and `partBlk` of the inputs'. -/
theorem sound_kernel (c : Dev nD) (E : Set ℕ) (i : grid0.Coords)
    (arg2 : Memref sig .tc .vmem S1x1x256x2048 .f32) (harg2 : arg2.IsWhole) (arg3 : Memref sig .tc .vmem S1x1x256x2048 .f32) (harg3 : arg3.IsWhole)
    (arg4 : Memref sig .tc .vmem S1x1x8x2048 .f32) (harg4 : arg4.IsWhole) (arg5 : Memref sig .tc .vmem S1x1x8x2048 .f32) (harg5 : arg5.IsWhole)
    (arg6 : Memref sig .tc .vmem S1x1x256x2048 .f32) (harg6 : arg6.IsWhole) (arg7 : Memref sig .tc .vmem S256x2048 .f32) (harg7 : arg7.IsWhole)
    (arg8 : Memref sig .tc .vmem S1x2x256x2048 .f32) (harg8 : arg8.IsWhole) (arg9 : Memref sig .tc .vmem S1x1x8x128 .f32) (harg9 : arg9.IsWhole)
    (xs xf : Vec F S1x1x256x2048 .f32) (xt xb : Vec F S1x1x8x2048 .f32) (xu : Vec F S1x1x256x2048 .f32) (xm : Vec F S256x2048 .f32)
    (K : PUnit → sProp 𝕄) :
    iprop(owns (c : Thread nD τ) arg2 fullShare xs ∗ owns (c : Thread nD τ) arg3 fullShare xf
        ∗ owns (c : Thread nD τ) arg4 fullShare xt ∗ owns (c : Thread nD τ) arg5 fullShare xb
        ∗ owns (c : Thread nD τ) arg6 fullShare xu ∗ owns (c : Thread nD τ) arg7 fullShare xm
        ∗ (∃ d, owns (c : Thread nD τ) arg8 fullShare d) ∗ (∃ d, owns (c : Thread nD τ) arg9 fullShare d)
        ∗ (iprop(owns (c : Thread nD τ) arg2 fullShare xs ∗ owns (c : Thread nD τ) arg3 fullShare xf
            ∗ owns (c : Thread nD τ) arg4 fullShare xt ∗ owns (c : Thread nD τ) arg5 fullShare xb
            ∗ owns (c : Thread nD τ) arg6 fullShare xu ∗ owns (c : Thread nD τ) arg7 fullShare xm
            ∗ owns (c : Thread nD τ) arg8 fullShare (stateBlk xs xf xt xb xu xm)
            ∗ owns (c : Thread nD τ) arg9 fullShare (partBlk xs xt xb)) -∗ K ⟨⟩))
      ⊢ wp frame (wpE (defs₀ (F := F)) Variants.none c none) E
          (cc0__ising_kernel i arg2 harg2 arg3 harg3 arg4 harg4 arg5 harg5 arg6 harg6 arg7 harg7 arg8 harg8 arg9 harg9) K := by
  simp only [cc0__ising_kernel_eq_skeleton]; unfold cc0__ising_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_state _ _)
  iexists _; isplitr
  swap; · iexact H7
  ipureintro
  exact View.read_writes_eq_canon _ _ _ (cover_part _)

end Cert.Kernel.Hand

end
-- ==== Proof.K.Dat.lean ====
/-
  The proof data of the tile pipeline, and the body at every grid point.

  The pipeline has eight windows over five arrays: four input windows read the SAME array `x` (a tile of spins,
  the same tile of the field, the eight rows above the tile, the eight rows below it), one reads the uniform draws,
  one the mask draws (its block depends on the tile only, so it is fetched once per eight points), and two outputs
  write the new state and the partial sums. Each of the four windows on `x` holds a quarter of that array's share;
  every input's staging buffer holds its window's block when the body runs, fetched at that point or kept from the
  point before, and the body leaves the inputs in place and the outputs at `stateBlk` / `partBlk` of the blocks.
-/
import proofs.«404182_j15599321219396_3_alg».proof.Proof.K.Body
import Idealize.ShloMosaic.Lib.Pipeline.RegionsLoop
import Idealize.ShloMosaic.Lib.Pipeline.FrameSuffix

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before_in0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (Pipeline.UD sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (Pipeline.UD sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share each input window holds of its array: the four windows on `x` a quarter each, the others all. -/
def shareOf : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The tile's state block and block of partial sums at point `t`, from the six input blocks there. -/
def stateAt (c : Dev nD) (t : Fin cfg0.N) : Vec F S1x2x256x2048 .f32 :=
  stateBlk (iblk V c 0 t) (iblk V c 1 t) (iblk V c 2 t) (iblk V c 3 t) (iblk V c 4 t) (iblk V c 5 t)
def partAt (c : Dev nD) (t : Fin cfg0.N) : Vec F S1x1x8x128 .f32 :=
  partBlk (iblk V c 0 t) (iblk V c 2 t) (iblk V c 3 t)

/-- The proof data on core `c`: the arrays as the region finds them; after the body at point `t` each input's buffer
    at its block and the outputs' at `stateAt` / `partAt`; the invariant keeps only what the body does not touch;
    nothing owed. -/
def dat0 (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => stateAt V c t
    | ⟨7, _⟩ => partAt V c t
  Φ _ := Pipeline.ΦA spec0 c
  q := shareOf
  owed _ := 0

theorem A_eq (c : Dev nD) (w : Fin cfg0.W) : (dat0 V c).A w = V c (Pipeline.arrRef spec0 w) := by
  dsimp only [dat0]

theorem after_in0 (c : Dev nD) (t : Fin cfg0.N) : (dat0 V c).after 0 t = iblk V c 0 t := by dsimp only [dat0]
theorem after_in1 (c : Dev nD) (t : Fin cfg0.N) : (dat0 V c).after 1 t = iblk V c 1 t := by dsimp only [dat0]
theorem after_in2 (c : Dev nD) (t : Fin cfg0.N) : (dat0 V c).after 2 t = iblk V c 2 t := by dsimp only [dat0]
theorem after_in3 (c : Dev nD) (t : Fin cfg0.N) : (dat0 V c).after 3 t = iblk V c 3 t := by dsimp only [dat0]
theorem after_in4 (c : Dev nD) (t : Fin cfg0.N) : (dat0 V c).after 4 t = iblk V c 4 t := by dsimp only [dat0]
theorem after_in5 (c : Dev nD) (t : Fin cfg0.N) : (dat0 V c).after 5 t = iblk V c 5 t := by dsimp only [dat0]
theorem after_state (c : Dev nD) (t : Fin cfg0.N) : (dat0 V c).after 6 t = stateAt V c t := by dsimp only [dat0]
theorem after_part (c : Dev nD) (t : Fin cfg0.N) : (dat0 V c).after 7 t = partAt V c t := by dsimp only [dat0]

theorem before_in0 (c : Dev nD) (t : Fin cfg0.N) (d) : (dat0 V c).before 0 t d = iblk V c 0 t :=
  before_in0_of V (dat0 V c) (A_eq V c 0) (after_in0 V c) t d
theorem before_in1 (c : Dev nD) (t : Fin cfg0.N) (d) : (dat0 V c).before 1 t d = iblk V c 1 t :=
  before_in1_of V (dat0 V c) (A_eq V c 1) (after_in1 V c) t d
theorem before_in2 (c : Dev nD) (t : Fin cfg0.N) (d) : (dat0 V c).before 2 t d = iblk V c 2 t :=
  before_in2_of V (dat0 V c) (A_eq V c 2) (after_in2 V c) t d
theorem before_in3 (c : Dev nD) (t : Fin cfg0.N) (d) : (dat0 V c).before 3 t d = iblk V c 3 t :=
  before_in3_of V (dat0 V c) (A_eq V c 3) (after_in3 V c) t d
theorem before_in4 (c : Dev nD) (t : Fin cfg0.N) (d) : (dat0 V c).before 4 t d = iblk V c 4 t :=
  before_in4_of V (dat0 V c) (A_eq V c 4) (after_in4 V c) t d
theorem before_in5 (c : Dev nD) (t : Fin cfg0.N) (d) : (dat0 V c).before 5 t d = iblk V c 5 t :=
  before_in5_of V (dat0 V c) (A_eq V c 5) (after_in5 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4, before_in5]
  rw [show (dat0 V c).Φ t.succ = (dat0 V c).Φ t.castSucc from rfl,
    show (dat0 V c).owesAt () t.succ = (dat0 V c).owesAt () t.castSucc from rfl,
    after_in0, after_in1, after_in2, after_in3, after_in4, after_in5, after_state, after_part]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.TailKeeps.lean ====
/-
  The closing host operations write their own nineteen results and nothing else: the three arguments and the region's
  two result arrays keep their contents through them.
-/
import proofs.«404182_j15599321219396_3_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe Idealize.SL.Sem

/-- The references the closing operations write: their nineteen results. -/
abbrev tailW : List (Ref sig .tc) :=
  [main_v1, main_v2, main_cst, main_v3, main_v4, main_v5, main_cst_0, main_v6, main_cst_1, main_v7, main_v8, main_v9,
   main_v10, main_v11, main_v12, main_v13, main_v14, main_v15, main_v16]

/-- Each closing operation writes its own result only, and that result is in the list. -/
theorem tail_writes {F : FTy → Type} [FloatOps F] :
    (hostOps1 (F := F) : List (HloOp τ sig (Elt F))).Forall
      fun op => op.writes ⊆ (tailW.map (Proc.devRef (τ := τ) .tc)).toFinset := by
  simp only [List.Forall, StableHlo.nullary_writes, StableHlo.unary_writes, StableHlo.binary_writes,
    StableHlo.reshape_writes, StableHlo.nary_writes, Finset.singleton_subset_iff, List.mem_toFinset]
  refine ⟨?_, ?_, ?_, ?_, ?_, ?_, ?_, ?_, ?_, ?_, ?_, ?_, ?_, ?_, ?_, ?_, ?_, ?_, ?_⟩ <;>
    exact List.mem_map_of_mem (by decide)

theorem tail_keeps {F : FTy → Type} [FloatOps F] (W : Valuation τ sig (Elt F)) (b : Ref sig .tc)
    (hb : b = main_arg0 ∨ b = main_arg1 ∨ b = main_arg2 ∨ b = main_v0_0 ∨ b = main_v0_1) :
    StableHlo.after (hostOps1 (F := F)) W (Proc.devRef .tc b) = W (Proc.devRef .tc b) := by
  refine StableHlo.after_of_writes_sub (hostOps1 (F := F)) W tail_writes ?_
  rcases hb with h | h | h | h | h <;> subst h <;> decide

end Cert.Kernel.Hand

end
-- ==== Proof.K.Run.lean ====
/-
  The kernel program from launch to return.

  The program is one kernel region followed by the closing host operations. The region's eight windows sit on five
  arrays: the four input windows on `x` each take a quarter of `x`'s share at the region's entry and give it back at
  its exit, where `x` is whole again at the contents it was launched with (no window writes it). The two result arrays
  leave the region at what the grid points' write-backs made of them; every other buffer passes by untouched. The host
  operations then run over all the unscoped buffers at those contents.
-/
import proofs.«404182_j15599321219396_3_alg».proof.Proof.K.Dat
import proofs.«404182_j15599321219396_3_alg».proof.Proof.K.TailKeeps

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at the two boundaries -/

/-- Core `c`'s buffers at launch, which is the region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: the two result arrays at what the write-backs leave, every other buffer as entered. -/
def W1 (c : Dev nD) : Valuation τ sig (Elt F) :=
  Function.update (Function.update (W0 m ρ c) (Proc.devRef .tc main_v0_0) ((dat0 (V0 m ρ) c).arrAt 6 cfg0.N))
    (Proc.devRef .tc main_v0_1) ((dat0 (V0 m ρ) c).arrAt 7 cfg0.N)
abbrev V1 : (c : Dev nD) → (b : Ref sig .tc) → Buf (Elt F) ((c : Thread nD τ).loc b) := fun c b => W1 m ρ c b

theorem W1_part (c : Dev nD) : W1 m ρ c (Proc.devRef .tc main_v0_1) = (dat0 (V0 m ρ) c).arrAt 7 cfg0.N := by
  unfold W1; exact Function.update_self ..
theorem W1_state (c : Dev nD) : W1 m ρ c (Proc.devRef .tc main_v0_0) = (dat0 (V0 m ρ) c).arrAt 6 cfg0.N := by
  unfold W1
  rw [Function.update_of_ne (by decide)]
  exact Function.update_self ..
theorem W1_of_ne (c : Dev nD) (b : Ref sig .tc) (h0 : b ≠ main_v0_0) (h1 : b ≠ main_v0_1) :
    W1 m ρ c (Proc.devRef .tc b) = W0 m ρ c (Proc.devRef .tc b) := by
  unfold W1
  rw [Function.update_of_ne (fun e => h1 (Proc.devRef_injective _ e)), Function.update_of_ne (fun e => h0 (Proc.devRef_injective _ e))]

/-- After the closing host operations. -/
def W2 (c : Dev nD) : Valuation τ sig (Elt F) := StableHlo.after hostOps1 (W1 m ρ c)

section Split
variable (V : (c : Dev nD) → (b : Ref sig .tc) → Buf (Elt F) ((c : Thread nD τ).loc b))

/-- The shares the proof data holds the eight arrays at: the four windows on `x` a quarter each, everything else all. -/
theorem share_0 (c : Dev nD) : (dat0 V c).share 0 = fullShare.left.left := rfl
theorem share_1 (c : Dev nD) : (dat0 V c).share 1 = fullShare.left.right := rfl
theorem share_2 (c : Dev nD) : (dat0 V c).share 2 = fullShare.right.left := rfl
theorem share_3 (c : Dev nD) : (dat0 V c).share 3 = fullShare.right.right := rfl
theorem share_4 (c : Dev nD) : (dat0 V c).share 4 = fullShare := rfl
theorem share_5 (c : Dev nD) : (dat0 V c).share 5 = fullShare := rfl
theorem share_6 (c : Dev nD) : (dat0 V c).share 6 = fullShare := rfl
theorem share_7 (c : Dev nD) : (dat0 V c).share 7 = fullShare := rfl

/-- The five distinct buffers behind the eight windows, one by one. -/
theorem arrBufs_eq (c : Dev nD) (U : (b : Ref sig .tc) → Buf (Elt F) ((c : Thread nD τ).loc b)) :
    (Pipeline.arrBufs (Ix := Unit) (Name := ℕ) (U := Pipeline.UD sig nD τ) (Lvl := ℕ) spec0 c U : sProp 𝕄)
      = iprop((((c : Thread nD τ).loc main_arg0) ↦{fullShare} U main_arg0) ∗ (((c : Thread nD τ).loc main_arg1) ↦{fullShare} U main_arg1)
          ∗ (((c : Thread nD τ).loc main_arg2) ↦{fullShare} U main_arg2) ∗ (((c : Thread nD τ).loc main_v0_0) ↦{fullShare} U main_v0_0)
          ∗ (((c : Thread nD τ).loc main_v0_1) ↦{fullShare} U main_v0_1)) :=
  bigSep_eq_bigSepL_of_eq [main_arg0, main_arg1, main_arg2, main_v0_0, main_v0_1] (by decide) (by decide) _

/-- ENTRY: the core's unscoped buffers are the pipeline's arrays at their entry contents — `x`'s full share dealt in
    quarters to its four windows — and the buffers no window names. -/
theorem entry_arrays (c : Dev nD) :
    (unscopedBufs c (V c) : sProp 𝕄)
      ⊢ iprop((dat0 V c).arrays ((dat0 V c).arrAt · 0)
          ∗ Pipeline.unscopedRest (Ix := Unit) (Name := ℕ) (U := Pipeline.UD sig nD τ) (Lvl := ℕ) spec0 c (V c)) := by
  rw [Pipeline.unscopedBufs_split₀ cfgs 0 winFacts₀0.arr_unscoped c (V c)]
  refine sep_mono ?_ .rfl
  rw [arrBufs_eq]
  unfold Dat.arrays
  rw [bigSep_W0]
  -- the four windows on `x` name one array: one rewrite turns all four index sets into the whole buffer
  rw [(arr_whole0 0).set_eq_univ, (arr_whole0 4).set_eq_univ, (arr_whole0 5).set_eq_univ, (arr_whole0 6).set_eq_univ, (arr_whole0 7).set_eq_univ,
    share_0, share_1, share_2, share_3, share_4, share_5, share_6, share_7]
  iintro ⟨H0, H1, H2, H3, H4⟩
  ihave H0 := (pointsTo_share (PosShare.mem_left_op_right fullShare)).1 $$ H0
  icases H0 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  isplitl [HRR]; · iexact HRR
  isplitl [H1]; · iexact H1
  isplitl [H2]; · iexact H2
  isplitl [H3]; · iexact H3
  iexact H4
end Split

section Join
variable (V V' : (c : Dev nD) → (b : Ref sig .tc) → Buf (Elt F) ((c : Thread nD τ).loc b))

/-- EXIT: the pipeline's arrays at what the region leaves — the four quarters of `x` joined back, `x` and the two
    draw arrays as they were found, the two results at their write-backs — and the buffers no window names are the
    core's unscoped buffers at any contents that have the two results there and agree with the entry contents elsewhere. -/
theorem exit_arrays (c : Dev nD)
    (hst : V' c main_v0_0 = (dat0 V c).arrAt 6 cfg0.N) (hpt : V' c main_v0_1 = (dat0 V c).arrAt 7 cfg0.N)
    (hrest : ∀ b : Ref sig .tc, b ≠ main_v0_0 → b ≠ main_v0_1 → V' c b = V c b) :
    iprop((dat0 V c).arrays ((dat0 V c).arrAt · cfg0.N)
        ∗ Pipeline.unscopedRest (Ix := Unit) (Name := ℕ) (U := Pipeline.UD sig nD τ) (Lvl := ℕ) spec0 c (V c))
      ⊢ (unscopedBufs c (V' c) : sProp 𝕄) := by
  rw [Pipeline.unscopedBufs_split₀ cfgs 0 winFacts₀0.arr_unscoped c (V' c)]
  refine sep_mono ?_ (Entails.of_eq ?_)
  · rw [arrBufs_eq]
    unfold Dat.arrays
    rw [bigSep_W0]
    rw [(arr_whole0 0).set_eq_univ, (arr_whole0 4).set_eq_univ, (arr_whole0 5).set_eq_univ, (arr_whole0 6).set_eq_univ, (arr_whole0 7).set_eq_univ,
      share_0, share_1, share_2, share_3, share_4, share_5, share_6, share_7]
    beta_reduce
    rw [hrest main_arg0 (by decide) (by decide), hrest main_arg1 (by decide) (by decide), hrest main_arg2 (by decide) (by decide), hst, hpt,
      (dat0 V c).arrAt_in 0 rfl, (dat0 V c).arrAt_in 1 rfl, (dat0 V c).arrAt_in 2 rfl, (dat0 V c).arrAt_in 3 rfl,
      (dat0 V c).arrAt_in 4 rfl, (dat0 V c).arrAt_in 5 rfl]
    iintro ⟨A0, A1, A2, A3, A4, A5, A6, A7⟩
    isplitl [A0 A1 A2 A3]
    · -- the four quarters of `x`, each named through its own window, are `x` whole
      iapply (pointsTo_share (PosShare.mem_left_op_right fullShare)).2
      isplitl [A0 A1]
      · iapply (pointsTo_share (PosShare.mem_left_op_right fullShare.left)).2
        isplitl [A0]; · iexact A0
        iexact A1
      iapply (pointsTo_share (PosShare.mem_left_op_right fullShare.right)).2
      isplitl [A2]; · iexact A2
      iexact A3
    isplitl [A4]; · iexact A4
    isplitl [A5]; · iexact A5
    isplitl [A6]; · iexact A6
    iexact A7
  · unfold Pipeline.unscopedRest
    refine bigSep_congr fun b hb => ?_
    have hb' := (Finset.mem_sdiff.mp hb).2
    rw [hrest b (fun e => hb' (Finset.mem_image.mpr ⟨6, Finset.mem_univ _, e ▸ rfl⟩)) (fun e => hb' (Finset.mem_image.mpr ⟨7, Finset.mem_univ _, e ▸ rfl⟩))]
end Join

/-! ## The region and the closing host operations as segments of the program -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (Pipeline.UD sig nD τ) ℕ (Pipeline.pin (pcfgs (F := F)) adm p) c
  | ⟨0, _⟩ => fun c => dat0 (V0 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both segments: the core's generator register at some state and its debts, none. -/
abbrev R (c : Dev nD) : sProp 𝕄 := iprop((∃ r, prngReg c r) ∗ ∃ W, owes (c : Thread nD τ) (0 : CellTallies nD τ sig Unit) W)

/-- No closing host operation allocates a buffer. -/
theorem hostOps1_fresh : (hostOps1 : List (HloOp τ sig (Elt F))).Forall fun op => op.fresh = ∅ := by
  simp only [List.Forall]; repeat' constructor

/-- The closing host operations as a segment over every unscoped buffer, from the contents the region leaves. -/
abbrev hostSeg : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the contents after the host operations, the generator register. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The kernel region over the thread state "every unscoped buffer at given contents": entered at the launch contents,
    left at `W1`. The generator register goes into the invariant and comes back; nothing is owed; the kernel names no
    semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit : (unscopedBufs c (V0 m ρ c) : sProp 𝕄)
        ⊢ iprop((pdats m ρ 0 c).arrays ((pdats m ρ 0 c).arrAt · 0)
            ∗ Pipeline.unscopedRest (Ix := Unit) (Name := ℕ) (U := Pipeline.UD sig nD τ) (Lvl := ℕ) spec0 c (V0 m ρ c)) :=
      entry_arrays (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := Pipeline.UD sig nD τ) (Lvl := ℕ) spec0 c (V0 m ρ c))
        ⊢ (unscopedBufs c (V1 m ρ c) : sProp 𝕄) :=
      exit_arrays (V0 m ρ) (V1 m ρ) c (W1_state m ρ c) (W1_part m ρ c) (fun b h0 h1 => W1_of_ne m ρ c b h0 h1)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ),
    .host (hostSeg m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final state holds every unscoped buffer at `W2`: the launch contents, the two result arrays at
    their write-backs, the host operations applied. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      show iprop(StableHlo.held (c : Thread nD τ) (Pipeline.ucRefs τ sig) (W2 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-! ## What the final state holds, buffer by buffer -/

/-- The arguments end as launched: no window writes them and no host operation does. -/
theorem W2_arg (c : Dev nD) (b : Ref sig .tc) (hb : b = main_arg0 ∨ b = main_arg1 ∨ b = main_arg2) :
    W2 m ρ c (Proc.devRef .tc b) = m ((c : Thread nD τ).loc b) := by
  unfold W2
  rw [tail_keeps (W1 m ρ c) b (by rcases hb with h | h | h <;> simp [h]),
    W1_of_ne m ρ c b (by rcases hb with h | h | h <;> subst h <;> decide) (by rcases hb with h | h | h <;> subst h <;> decide)]

/-- The state array ends at what the region's write-backs made of it. -/
theorem W2_state (c : Dev nD) : W2 m ρ c (Proc.devRef .tc main_v0_0) = (dat0 (V0 m ρ) c).arrAt 6 cfg0.N := by
  unfold W2; rw [tail_keeps (W1 m ρ c) main_v0_0 (by simp), W1_state]

/-- THE FRAME: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_arg m ρ c main_arg0 (.inl rfl)),
     (h c _ (mem_uc main_arg1 (by decide))).trans (W2_arg m ρ c main_arg1 (.inr (.inl rfl))),
     (h c _ (mem_uc main_arg2 (by decide))).trans (W2_arg m ρ c main_arg2 (.inr (.inr rfl)))⟩) (run_main m ρ)

end Cert.Kernel.Hand

end
-- ==== Proof.KI.Body.lean ====
/-
  The tile body of the lattice sweep on whole staging buffers.

  The body loads six blocks whole — a tile of spins, the same tile of the field, the eight rows ending just above the
  tile, the eight rows starting just below it, the tile of uniform draws, the tile of mask draws —, computes, and stores
  three times: the new spins into channel 0 of the state block, the field into channel 1, and the 8 × 128 block of
  partial sums. What it leaves in the two output buffers is therefore a function of the six loaded blocks alone: the
  stores' payloads laid over one another (`stateBlk`, `partBlk`). The two stores into the state block are the two
  channel slabs, which tile it; the one store into the partial-sum block is the whole block.
-/
import proofs.«404182_j15599321219396_3_alg».proof.Proof.Gen.KernelIdeal.Launch
import proofs.«404182_j15599321219396_3_alg».proof.Proof.Gen.KernelIdeal.Skeleton
import proofs.«404182_j15599321219396_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rectangles the body reads and writes through -/

/-- A whole tile block (spins, field, uniform draws). -/
abbrev rTile : Rect S1x1x256x2048 := Rect.unit (s := S1x1x256x2048) ![0, 0, 0, 0] S1x1x256x2048.size inb_S1x1x256x2048_S1x1x256x2048_0_0_0_0
/-- A whole block of eight neighbouring rows. -/
abbrev rHalo : Rect S1x1x8x2048 := Rect.unit (s := S1x1x8x2048) ![0, 0, 0, 0] S1x1x8x2048.size inb_S1x1x8x2048_S1x1x8x2048_0_0_0_0
/-- The whole tile of mask draws. -/
abbrev rMask : Rect S256x2048 := Rect.unit (s := S256x2048) ![0, 0] S256x2048.size inb_S256x2048_S256x2048_0_0
/-- Channel 0 and channel 1 of the state block. -/
abbrev rCh0 : Rect S1x2x256x2048 := Rect.unit (s := S1x2x256x2048) ![0, 0, 0, 0] S1x1x256x2048.size inb_S1x2x256x2048_S1x1x256x2048_0_0_0_0
abbrev rCh1 : Rect S1x2x256x2048 := Rect.unit (s := S1x2x256x2048) ![0, 1, 0, 0] S1x1x256x2048.size inb_S1x2x256x2048_S1x1x256x2048_0_1_0_0
/-- The whole block of partial sums. -/
abbrev rPart : Rect S1x1x8x128 := Rect.unit (s := S1x1x8x128) ![0, 0, 0, 0] S1x1x8x128.size inb_S1x1x8x128_S1x1x8x128_0_0_0_0

/-! ## What the body leaves in each output buffer -/

/-- The energy change over the tile, from the spins and the two neighbouring row blocks. -/
def dEBlk (xs : Vec F S1x1x256x2048 .f32) (xt xb : Vec F S1x1x8x2048 .f32) : FVec F S256x2048 .f32 :=
  k0_pay10 (k0_pay2 (View.ld xs rTile)) (iota .tc S256x2048 32 [0] iota_S256x2048_d0_w32) (k0_pay5 (View.ld xs rTile) (View.ld xb rHalo))
    (k0_pay6 (View.ld xs rTile)) k0_pay7 (k0_pay8 (View.ld xs rTile) (View.ld xt rHalo)) k0_pay9

/-- The new spins of the tile: the first store's payload. -/
def spinsOut (xs xf : Vec F S1x1x256x2048 .f32) (xt xb : Vec F S1x1x8x2048 .f32) (xu : Vec F S1x1x256x2048 .f32) (xm : Vec F S256x2048 .f32) :
    FVec F S1x1x256x2048 .f32 :=
  k0_pay11 (k0_pay2 (View.ld xs rTile)) (k0_pay3 (View.ld xf rTile)) (k0_pay4 (View.ld xu rTile)) (View.ld xm rMask)
    (iota .tc S256x2048 32 [0] iota_S256x2048_d0_w32) (k0_pay5 (View.ld xs rTile) (View.ld xb rHalo))
    (k0_pay6 (View.ld xs rTile)) k0_pay7 (k0_pay8 (View.ld xs rTile) (View.ld xt rHalo)) k0_pay9

/-- The state block after the body: channel 1 (stored last) over channel 0. -/
def stateBlk (xs xf : Vec F S1x1x256x2048 .f32) (xt xb : Vec F S1x1x8x2048 .f32) (xu : Vec F S1x1x256x2048 .f32) (xm : Vec F S256x2048 .f32) :
    Vec F S1x2x256x2048 .f32 :=
  View.canon [⟨rCh1, k0_pay12 (k0_pay3 (View.ld xf rTile))⟩, ⟨rCh0, spinsOut xs xf xt xb xu xm⟩]

/-- The block of partial sums after the body. -/
def partBlk (xs : Vec F S1x1x256x2048 .f32) (xt xb : Vec F S1x1x8x2048 .f32) : Vec F S1x1x8x128 .f32 :=
  View.canon [⟨rPart, k0_pay1 (k0_pay2 (View.ld xs rTile))
    (k0_pay13 (k0_pay2 (View.ld xs rTile)) (iota .tc S256x2048 32 [0] iota_S256x2048_d0_w32) (k0_pay5 (View.ld xs rTile) (View.ld xb rHalo))
      (k0_pay6 (View.ld xs rTile)) k0_pay7 (k0_pay8 (View.ld xs rTile) (View.ld xt rHalo)) k0_pay9)⟩]

/-- The two channel slabs tile the state block. -/
theorem cover_state (p1 p0 : Vec F S1x1x256x2048 .f32) (y : S1x2x256x2048.Idx) :
    ∃ pc ∈ ([⟨rCh1, p1⟩, ⟨rCh0, p0⟩] : List (View.Piece (Elt F) S1x2x256x2048 .f32)), y ∈ pc.1.set :=
  View.cover_of_tiled [⟨rCh1, p1⟩, ⟨rCh0, p0⟩] S1x1x256x2048.size (by rfl) y

/-- The one store covers the partial-sum block. -/
theorem cover_part (p0 : Vec F S1x1x8x128 .f32) (y : S1x1x8x128.Idx) :
    ∃ pc ∈ ([⟨rPart, p0⟩] : List (View.Piece (Elt F) S1x1x8x128 .f32)), y ∈ pc.1.set :=
  View.cover_of_tiled [⟨rPart, p0⟩] S1x1x8x128.size (by rfl) y

/-! ## The body's triple -/

set_option maxHeartbeats 4000000 in
/-- The body on whole staging buffers — the six inputs' at read contents, the two outputs' at anything — runs to its
    return holding the inputs' as they were and the outputs' at `stateBlk` and `partBlk` of the inputs'. -/
theorem sound_kernel (c : Dev nD) (E : Set ℕ) (i : grid0.Coords)
    (arg2 : Memref sig .tc .vmem S1x1x256x2048 .f32) (harg2 : arg2.IsWhole) (arg3 : Memref sig .tc .vmem S1x1x256x2048 .f32) (harg3 : arg3.IsWhole)
    (arg4 : Memref sig .tc .vmem S1x1x8x2048 .f32) (harg4 : arg4.IsWhole) (arg5 : Memref sig .tc .vmem S1x1x8x2048 .f32) (harg5 : arg5.IsWhole)
    (arg6 : Memref sig .tc .vmem S1x1x256x2048 .f32) (harg6 : arg6.IsWhole) (arg7 : Memref sig .tc .vmem S256x2048 .f32) (harg7 : arg7.IsWhole)
    (arg8 : Memref sig .tc .vmem S1x2x256x2048 .f32) (harg8 : arg8.IsWhole) (arg9 : Memref sig .tc .vmem S1x1x8x128 .f32) (harg9 : arg9.IsWhole)
    (xs xf : Vec F S1x1x256x2048 .f32) (xt xb : Vec F S1x1x8x2048 .f32) (xu : Vec F S1x1x256x2048 .f32) (xm : Vec F S256x2048 .f32)
    (K : PUnit → sProp 𝕄) :
    iprop(owns (c : Thread nD τ) arg2 fullShare xs ∗ owns (c : Thread nD τ) arg3 fullShare xf
        ∗ owns (c : Thread nD τ) arg4 fullShare xt ∗ owns (c : Thread nD τ) arg5 fullShare xb
        ∗ owns (c : Thread nD τ) arg6 fullShare xu ∗ owns (c : Thread nD τ) arg7 fullShare xm
        ∗ (∃ d, owns (c : Thread nD τ) arg8 fullShare d) ∗ (∃ d, owns (c : Thread nD τ) arg9 fullShare d)
        ∗ (iprop(owns (c : Thread nD τ) arg2 fullShare xs ∗ owns (c : Thread nD τ) arg3 fullShare xf
            ∗ owns (c : Thread nD τ) arg4 fullShare xt ∗ owns (c : Thread nD τ) arg5 fullShare xb
            ∗ owns (c : Thread nD τ) arg6 fullShare xu ∗ owns (c : Thread nD τ) arg7 fullShare xm
            ∗ owns (c : Thread nD τ) arg8 fullShare (stateBlk xs xf xt xb xu xm)
            ∗ owns (c : Thread nD τ) arg9 fullShare (partBlk xs xt xb)) -∗ K ⟨⟩))
      ⊢ wp frame (wpE (defs₀ (F := F)) Variants.none c none) E
          (cc0__ising_kernel i arg2 harg2 arg3 harg3 arg4 harg4 arg5 harg5 arg6 harg6 arg7 harg7 arg8 harg8 arg9 harg9) K := by
  simp only [cc0__ising_kernel_eq_skeleton]; unfold cc0__ising_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_state _ _)
  iexists _; isplitr
  swap; · iexact H7
  ipureintro
  exact View.read_writes_eq_canon _ _ _ (cover_part _)

end Cert.KernelIdeal.Hand

end
-- ==== Proof.KI.Dat.lean ====
/-
  The proof data of the tile pipeline, and the body at every grid point.

  The pipeline has eight windows over five arrays: four input windows read the SAME array `x` (a tile of spins,
  the same tile of the field, the eight rows above the tile, the eight rows below it), one reads the uniform draws,
  one the mask draws (its block depends on the tile only, so it is fetched once per eight points), and two outputs
  write the new state and the partial sums. Each of the four windows on `x` holds a quarter of that array's share;
  every input's staging buffer holds its window's block when the body runs, fetched at that point or kept from the
  point before, and the body leaves the inputs in place and the outputs at `stateBlk` / `partBlk` of the blocks.
-/
import proofs.«404182_j15599321219396_3_alg».proof.Proof.KI.Body
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before_in0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (Pipeline.UD sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (Pipeline.UD sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share each input window holds of its array: the four windows on `x` a quarter each, the others all. -/
def shareOf : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The tile's state block and block of partial sums at point `t`, from the six input blocks there. -/
def stateAt (c : Dev nD) (t : Fin cfg0.N) : Vec F S1x2x256x2048 .f32 :=
  stateBlk (iblk V c 0 t) (iblk V c 1 t) (iblk V c 2 t) (iblk V c 3 t) (iblk V c 4 t) (iblk V c 5 t)
def partAt (c : Dev nD) (t : Fin cfg0.N) : Vec F S1x1x8x128 .f32 :=
  partBlk (iblk V c 0 t) (iblk V c 2 t) (iblk V c 3 t)

/-- The proof data on core `c`: the arrays as the region finds them; after the body at point `t` each input's buffer
    at its block and the outputs' at `stateAt` / `partAt`; the invariant keeps only what the body does not touch;
    nothing owed. -/
def dat0 (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => stateAt V c t
    | ⟨7, _⟩ => partAt V c t
  Φ _ := Pipeline.ΦA spec0 c
  q := shareOf
  owed _ := 0

theorem A_eq (c : Dev nD) (w : Fin cfg0.W) : (dat0 V c).A w = V c (Pipeline.arrRef spec0 w) := by
  dsimp only [dat0]

theorem after_in0 (c : Dev nD) (t : Fin cfg0.N) : (dat0 V c).after 0 t = iblk V c 0 t := by dsimp only [dat0]
theorem after_in1 (c : Dev nD) (t : Fin cfg0.N) : (dat0 V c).after 1 t = iblk V c 1 t := by dsimp only [dat0]
theorem after_in2 (c : Dev nD) (t : Fin cfg0.N) : (dat0 V c).after 2 t = iblk V c 2 t := by dsimp only [dat0]
theorem after_in3 (c : Dev nD) (t : Fin cfg0.N) : (dat0 V c).after 3 t = iblk V c 3 t := by dsimp only [dat0]
theorem after_in4 (c : Dev nD) (t : Fin cfg0.N) : (dat0 V c).after 4 t = iblk V c 4 t := by dsimp only [dat0]
theorem after_in5 (c : Dev nD) (t : Fin cfg0.N) : (dat0 V c).after 5 t = iblk V c 5 t := by dsimp only [dat0]
theorem after_state (c : Dev nD) (t : Fin cfg0.N) : (dat0 V c).after 6 t = stateAt V c t := by dsimp only [dat0]
theorem after_part (c : Dev nD) (t : Fin cfg0.N) : (dat0 V c).after 7 t = partAt V c t := by dsimp only [dat0]

theorem before_in0 (c : Dev nD) (t : Fin cfg0.N) (d) : (dat0 V c).before 0 t d = iblk V c 0 t :=
  before_in0_of V (dat0 V c) (A_eq V c 0) (after_in0 V c) t d
theorem before_in1 (c : Dev nD) (t : Fin cfg0.N) (d) : (dat0 V c).before 1 t d = iblk V c 1 t :=
  before_in1_of V (dat0 V c) (A_eq V c 1) (after_in1 V c) t d
theorem before_in2 (c : Dev nD) (t : Fin cfg0.N) (d) : (dat0 V c).before 2 t d = iblk V c 2 t :=
  before_in2_of V (dat0 V c) (A_eq V c 2) (after_in2 V c) t d
theorem before_in3 (c : Dev nD) (t : Fin cfg0.N) (d) : (dat0 V c).before 3 t d = iblk V c 3 t :=
  before_in3_of V (dat0 V c) (A_eq V c 3) (after_in3 V c) t d
theorem before_in4 (c : Dev nD) (t : Fin cfg0.N) (d) : (dat0 V c).before 4 t d = iblk V c 4 t :=
  before_in4_of V (dat0 V c) (A_eq V c 4) (after_in4 V c) t d
theorem before_in5 (c : Dev nD) (t : Fin cfg0.N) (d) : (dat0 V c).before 5 t d = iblk V c 5 t :=
  before_in5_of V (dat0 V c) (A_eq V c 5) (after_in5 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4, before_in5]
  rw [show (dat0 V c).Φ t.succ = (dat0 V c).Φ t.castSucc from rfl,
    show (dat0 V c).owesAt () t.succ = (dat0 V c).owesAt () t.castSucc from rfl,
    after_in0, after_in1, after_in2, after_in3, after_in4, after_in5, after_state, after_part]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.TailKeeps.lean ====
/-
  The closing host operations write their own nineteen results and nothing else: the three arguments and the region's
  two result arrays keep their contents through them.
-/
import proofs.«404182_j15599321219396_3_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

/-- The references the closing operations write: their nineteen results. -/
abbrev tailW : List (Ref sig .tc) :=
  [main_v1, main_v2, main_cst, main_v3, main_v4, main_v5, main_cst_0, main_v6, main_cst_1, main_v7, main_v8, main_v9,
   main_v10, main_v11, main_v12, main_v13, main_v14, main_v15, main_v16]

/-- Each closing operation writes its own result only, and that result is in the list. -/
theorem tail_writes {F : FTy → Type} [FloatOps F] :
    (hostOps1 (F := F) : List (HloOp τ sig (Elt F))).Forall
      fun op => op.writes ⊆ (tailW.map (Proc.devRef (τ := τ) .tc)).toFinset := by
  simp only [List.Forall, StableHlo.nullary_writes, StableHlo.unary_writes, StableHlo.binary_writes,
    StableHlo.reshape_writes, StableHlo.nary_writes, Finset.singleton_subset_iff, List.mem_toFinset]
  refine ⟨?_, ?_, ?_, ?_, ?_, ?_, ?_, ?_, ?_, ?_, ?_, ?_, ?_, ?_, ?_, ?_, ?_, ?_, ?_⟩ <;>
    exact List.mem_map_of_mem (by decide)

theorem tail_keeps {F : FTy → Type} [FloatOps F] (W : Valuation τ sig (Elt F)) (b : Ref sig .tc)
    (hb : b = main_arg0 ∨ b = main_arg1 ∨ b = main_arg2 ∨ b = main_v0_0 ∨ b = main_v0_1) :
    StableHlo.after (hostOps1 (F := F)) W (Proc.devRef .tc b) = W (Proc.devRef .tc b) := by
  refine StableHlo.after_of_writes_sub (hostOps1 (F := F)) W tail_writes ?_
  rcases hb with h | h | h | h | h <;> subst h <;> decide

end Cert.KernelIdeal.Hand

end
-- ==== Proof.KI.Run.lean ====
/-
  The kernel program from launch to return.

  The program is one kernel region followed by the closing host operations. The region's eight windows sit on five
  arrays: the four input windows on `x` each take a quarter of `x`'s share at the region's entry and give it back at
  its exit, where `x` is whole again at the contents it was launched with (no window writes it). The two result arrays
  leave the region at what the grid points' write-backs made of them; every other buffer passes by untouched. The host
  operations then run over all the unscoped buffers at those contents.
-/
import proofs.«404182_j15599321219396_3_alg».proof.Proof.KI.Dat
import proofs.«404182_j15599321219396_3_alg».proof.Proof.KI.TailKeeps

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at the two boundaries -/

/-- Core `c`'s buffers at launch, which is the region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: the two result arrays at what the write-backs leave, every other buffer as entered. -/
def W1 (c : Dev nD) : Valuation τ sig (Elt F) :=
  Function.update (Function.update (W0 m ρ c) (Proc.devRef .tc main_v0_0) ((dat0 (V0 m ρ) c).arrAt 6 cfg0.N))
    (Proc.devRef .tc main_v0_1) ((dat0 (V0 m ρ) c).arrAt 7 cfg0.N)
abbrev V1 : (c : Dev nD) → (b : Ref sig .tc) → Buf (Elt F) ((c : Thread nD τ).loc b) := fun c b => W1 m ρ c b

theorem W1_part (c : Dev nD) : W1 m ρ c (Proc.devRef .tc main_v0_1) = (dat0 (V0 m ρ) c).arrAt 7 cfg0.N := by
  unfold W1; exact Function.update_self ..
theorem W1_state (c : Dev nD) : W1 m ρ c (Proc.devRef .tc main_v0_0) = (dat0 (V0 m ρ) c).arrAt 6 cfg0.N := by
  unfold W1
  rw [Function.update_of_ne (by decide)]
  exact Function.update_self ..
theorem W1_of_ne (c : Dev nD) (b : Ref sig .tc) (h0 : b ≠ main_v0_0) (h1 : b ≠ main_v0_1) :
    W1 m ρ c (Proc.devRef .tc b) = W0 m ρ c (Proc.devRef .tc b) := by
  unfold W1
  rw [Function.update_of_ne (fun e => h1 (Proc.devRef_injective _ e)), Function.update_of_ne (fun e => h0 (Proc.devRef_injective _ e))]

/-- After the closing host operations. -/
def W2 (c : Dev nD) : Valuation τ sig (Elt F) := StableHlo.after hostOps1 (W1 m ρ c)

section Split
variable (V : (c : Dev nD) → (b : Ref sig .tc) → Buf (Elt F) ((c : Thread nD τ).loc b))

/-- The shares the proof data holds the eight arrays at: the four windows on `x` a quarter each, everything else all. -/
theorem share_0 (c : Dev nD) : (dat0 V c).share 0 = fullShare.left.left := rfl
theorem share_1 (c : Dev nD) : (dat0 V c).share 1 = fullShare.left.right := rfl
theorem share_2 (c : Dev nD) : (dat0 V c).share 2 = fullShare.right.left := rfl
theorem share_3 (c : Dev nD) : (dat0 V c).share 3 = fullShare.right.right := rfl
theorem share_4 (c : Dev nD) : (dat0 V c).share 4 = fullShare := rfl
theorem share_5 (c : Dev nD) : (dat0 V c).share 5 = fullShare := rfl
theorem share_6 (c : Dev nD) : (dat0 V c).share 6 = fullShare := rfl
theorem share_7 (c : Dev nD) : (dat0 V c).share 7 = fullShare := rfl

/-- The five distinct buffers behind the eight windows, one by one. -/
theorem arrBufs_eq (c : Dev nD) (U : (b : Ref sig .tc) → Buf (Elt F) ((c : Thread nD τ).loc b)) :
    (Pipeline.arrBufs (Ix := Unit) (Name := ℕ) (U := Pipeline.UD sig nD τ) (Lvl := ℕ) spec0 c U : sProp 𝕄)
      = iprop((((c : Thread nD τ).loc main_arg0) ↦{fullShare} U main_arg0) ∗ (((c : Thread nD τ).loc main_arg1) ↦{fullShare} U main_arg1)
          ∗ (((c : Thread nD τ).loc main_arg2) ↦{fullShare} U main_arg2) ∗ (((c : Thread nD τ).loc main_v0_0) ↦{fullShare} U main_v0_0)
          ∗ (((c : Thread nD τ).loc main_v0_1) ↦{fullShare} U main_v0_1)) :=
  bigSep_eq_bigSepL_of_eq [main_arg0, main_arg1, main_arg2, main_v0_0, main_v0_1] (by decide) (by decide) _

/-- ENTRY: the core's unscoped buffers are the pipeline's arrays at their entry contents — `x`'s full share dealt in
    quarters to its four windows — and the buffers no window names. -/
theorem entry_arrays (c : Dev nD) :
    (unscopedBufs c (V c) : sProp 𝕄)
      ⊢ iprop((dat0 V c).arrays ((dat0 V c).arrAt · 0)
          ∗ Pipeline.unscopedRest (Ix := Unit) (Name := ℕ) (U := Pipeline.UD sig nD τ) (Lvl := ℕ) spec0 c (V c)) := by
  rw [Pipeline.unscopedBufs_split₀ cfgs 0 winFacts₀0.arr_unscoped c (V c)]
  refine sep_mono ?_ .rfl
  rw [arrBufs_eq]
  unfold Dat.arrays
  rw [bigSep_W0]
  -- the four windows on `x` name one array: one rewrite turns all four index sets into the whole buffer
  rw [(arr_whole0 0).set_eq_univ, (arr_whole0 4).set_eq_univ, (arr_whole0 5).set_eq_univ, (arr_whole0 6).set_eq_univ, (arr_whole0 7).set_eq_univ,
    share_0, share_1, share_2, share_3, share_4, share_5, share_6, share_7]
  iintro ⟨H0, H1, H2, H3, H4⟩
  ihave H0 := (pointsTo_share (PosShare.mem_left_op_right fullShare)).1 $$ H0
  icases H0 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  isplitl [HRR]; · iexact HRR
  isplitl [H1]; · iexact H1
  isplitl [H2]; · iexact H2
  isplitl [H3]; · iexact H3
  iexact H4
end Split

section Join
variable (V V' : (c : Dev nD) → (b : Ref sig .tc) → Buf (Elt F) ((c : Thread nD τ).loc b))

/-- EXIT: the pipeline's arrays at what the region leaves — the four quarters of `x` joined back, `x` and the two
    draw arrays as they were found, the two results at their write-backs — and the buffers no window names are the
    core's unscoped buffers at any contents that have the two results there and agree with the entry contents elsewhere. -/
theorem exit_arrays (c : Dev nD)
    (hst : V' c main_v0_0 = (dat0 V c).arrAt 6 cfg0.N) (hpt : V' c main_v0_1 = (dat0 V c).arrAt 7 cfg0.N)
    (hrest : ∀ b : Ref sig .tc, b ≠ main_v0_0 → b ≠ main_v0_1 → V' c b = V c b) :
    iprop((dat0 V c).arrays ((dat0 V c).arrAt · cfg0.N)
        ∗ Pipeline.unscopedRest (Ix := Unit) (Name := ℕ) (U := Pipeline.UD sig nD τ) (Lvl := ℕ) spec0 c (V c))
      ⊢ (unscopedBufs c (V' c) : sProp 𝕄) := by
  rw [Pipeline.unscopedBufs_split₀ cfgs 0 winFacts₀0.arr_unscoped c (V' c)]
  refine sep_mono ?_ (Entails.of_eq ?_)
  · rw [arrBufs_eq]
    unfold Dat.arrays
    rw [bigSep_W0]
    rw [(arr_whole0 0).set_eq_univ, (arr_whole0 4).set_eq_univ, (arr_whole0 5).set_eq_univ, (arr_whole0 6).set_eq_univ, (arr_whole0 7).set_eq_univ,
      share_0, share_1, share_2, share_3, share_4, share_5, share_6, share_7]
    beta_reduce
    rw [hrest main_arg0 (by decide) (by decide), hrest main_arg1 (by decide) (by decide), hrest main_arg2 (by decide) (by decide), hst, hpt,
      (dat0 V c).arrAt_in 0 rfl, (dat0 V c).arrAt_in 1 rfl, (dat0 V c).arrAt_in 2 rfl, (dat0 V c).arrAt_in 3 rfl,
      (dat0 V c).arrAt_in 4 rfl, (dat0 V c).arrAt_in 5 rfl]
    iintro ⟨A0, A1, A2, A3, A4, A5, A6, A7⟩
    isplitl [A0 A1 A2 A3]
    · -- the four quarters of `x`, each named through its own window, are `x` whole
      iapply (pointsTo_share (PosShare.mem_left_op_right fullShare)).2
      isplitl [A0 A1]
      · iapply (pointsTo_share (PosShare.mem_left_op_right fullShare.left)).2
        isplitl [A0]; · iexact A0
        iexact A1
      iapply (pointsTo_share (PosShare.mem_left_op_right fullShare.right)).2
      isplitl [A2]; · iexact A2
      iexact A3
    isplitl [A4]; · iexact A4
    isplitl [A5]; · iexact A5
    isplitl [A6]; · iexact A6
    iexact A7
  · unfold Pipeline.unscopedRest
    refine bigSep_congr fun b hb => ?_
    have hb' := (Finset.mem_sdiff.mp hb).2
    rw [hrest b (fun e => hb' (Finset.mem_image.mpr ⟨6, Finset.mem_univ _, e ▸ rfl⟩)) (fun e => hb' (Finset.mem_image.mpr ⟨7, Finset.mem_univ _, e ▸ rfl⟩))]
end Join

/-! ## The region and the closing host operations as segments of the program -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (Pipeline.UD sig nD τ) ℕ (Pipeline.pin (pcfgs (F := F)) adm p) c
  | ⟨0, _⟩ => fun c => dat0 (V0 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both segments: the core's generator register at some state and its debts, none. -/
abbrev R (c : Dev nD) : sProp 𝕄 := iprop((∃ r, prngReg c r) ∗ ∃ W, owes (c : Thread nD τ) (0 : CellTallies nD τ sig Unit) W)

/-- No closing host operation allocates a buffer. -/
theorem hostOps1_fresh : (hostOps1 : List (HloOp τ sig (Elt F))).Forall fun op => op.fresh = ∅ := by
  simp only [List.Forall]; repeat' constructor

/-- The closing host operations as a segment over every unscoped buffer, from the contents the region leaves. -/
abbrev hostSeg : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the contents after the host operations, the generator register. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The kernel region over the thread state "every unscoped buffer at given contents": entered at the launch contents,
    left at `W1`. The generator register goes into the invariant and comes back; nothing is owed; the kernel names no
    semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit : (unscopedBufs c (V0 m ρ c) : sProp 𝕄)
        ⊢ iprop((pdats m ρ 0 c).arrays ((pdats m ρ 0 c).arrAt · 0)
            ∗ Pipeline.unscopedRest (Ix := Unit) (Name := ℕ) (U := Pipeline.UD sig nD τ) (Lvl := ℕ) spec0 c (V0 m ρ c)) :=
      entry_arrays (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := Pipeline.UD sig nD τ) (Lvl := ℕ) spec0 c (V0 m ρ c))
        ⊢ (unscopedBufs c (V1 m ρ c) : sProp 𝕄) :=
      exit_arrays (V0 m ρ) (V1 m ρ) c (W1_state m ρ c) (W1_part m ρ c) (fun b h0 h1 => W1_of_ne m ρ c b h0 h1)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's two segments in order. -/
abbrev segs : List (Pipeline.Seg (pcfgs (F := F)) adm (pdats m ρ) () defs₀ 𝒱₀ L lv) :=
  [ .region (reg0 m ρ),
    .host (hostSeg m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final state holds every unscoped buffer at `W2`: the launch contents, the two result arrays at
    their write-backs, the host operations applied. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      show iprop(StableHlo.held (c : Thread nD τ) (Pipeline.ucRefs τ sig) (W2 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-! ## What the final state holds, buffer by buffer -/

/-- The arguments end as launched: no window writes them and no host operation does. -/
theorem W2_arg (c : Dev nD) (b : Ref sig .tc) (hb : b = main_arg0 ∨ b = main_arg1 ∨ b = main_arg2) :
    W2 m ρ c (Proc.devRef .tc b) = m ((c : Thread nD τ).loc b) := by
  unfold W2
  rw [tail_keeps (W1 m ρ c) b (by rcases hb with h | h | h <;> simp [h]),
    W1_of_ne m ρ c b (by rcases hb with h | h | h <;> subst h <;> decide) (by rcases hb with h | h | h <;> subst h <;> decide)]

/-- The state array ends at what the region's write-backs made of it. -/
theorem W2_state (c : Dev nD) : W2 m ρ c (Proc.devRef .tc main_v0_0) = (dat0 (V0 m ρ) c).arrAt 6 cfg0.N := by
  unfold W2; rw [tail_keeps (W1 m ρ c) main_v0_0 (by simp), W1_state]

/-- THE FRAME: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_arg m ρ c main_arg0 (.inl rfl)),
     (h c _ (mem_uc main_arg1 (by decide))).trans (W2_arg m ρ c main_arg1 (.inr (.inl rfl))),
     (h c _ (mem_uc main_arg2 (by decide))).trans (W2_arg m ρ c main_arg2 (.inr (.inr rfl)))⟩) (run_main m ρ)

end Cert.KernelIdeal.Hand

end
-- ==== Proof.Spec.lean ====
/-
  One Metropolis sweep of a periodic 2048 × 2048 spin lattice, eight lattices at a time, written as functions of the
  three argument arrays over the extended reals.

  The argument `x` holds, per lattice `b`, the spins (channel 0) and an inverse-temperature field (channel 1).
  `nsum` is the sum of a site's four nearest neighbours with wrap-around in both directions, `dE = (2 · s) · nsum` the
  energy change of flipping the site, `pAcc` the acceptance probability (1 where `dE ≤ 0`, else `exp (-dE · β)`).
  A site flips when its uniform draw is below `pAcc` AND the site-wise mask draw exceeds the threshold; the new state
  keeps the field channel. The observables per lattice are the energy `eTot = Σ -dE / 8`, its square, the absolute
  mean spin and its square.

  The second half states the same quantities per TILE of 256 lattice rows: a tile sees its own rows, the row above
  its first row and the row below its last row. Inside a tile the row neighbours are taken cyclically WITHIN the tile
  and then corrected at the two edge rows; on finite entries the correction cancels exactly (`nsumT_eq`).
-/
import Idealize.ShloMosaic.PureOps.Ideal
import Idealize.ShloMosaic.Lib.ValueIdx

noncomputable section

open scoped BigOperators

namespace Cert.Ising

open Idealize.ShloMosaic Idealize.ShloMosaic.ValueIdx

abbrev ShX : Shape := ⟨4, ![8, 2, 2048, 2048]⟩
abbrev ShR : Shape := ⟨4, ![8, 1, 2048, 2048]⟩
abbrev ShD : Shape := ⟨2, ![2048, 2048]⟩
abbrev ShP : Shape := ⟨4, ![8, 8, 8, 128]⟩
abbrev ShO : Shape := ⟨2, ![4, 8]⟩
abbrev ShT : Shape := ⟨2, ![256, 2048]⟩
abbrev ShH : Shape := ⟨2, ![8, 2048]⟩

/-- The literals both programs share, as the words they print. -/
abbrev cTwo : EReal := Ideal.ofBits .f32 0x40000000#32
abbrev cZero : EReal := Ideal.ofBits .f32 0x00000000#32
abbrev cOne : EReal := Ideal.ofBits .f32 0x3F800000#32
abbrev cNegOne : EReal := Ideal.ofBits .f32 0xBF800000#32
abbrev cThresh : EReal := Ideal.ofBits .f32 0x3F666666#32
abbrev cNegEighth : EReal := Ideal.ofBits .f32 0xBE000000#32
abbrev cCount : EReal := Ideal.ofBits .f32 0x4A800000#32

/-- Cyclic predecessor and successor of a lattice coordinate. -/
def prev (i : Fin 2048) : Fin 2048 := ⟨(i.val + 2047) % 2048, Nat.mod_lt _ (by decide)⟩
def next (i : Fin 2048) : Fin 2048 := ⟨(i.val + 1) % 2048, Nat.mod_lt _ (by decide)⟩

section Lattice

variable (x : ShX.Idx → EReal) (r : ShR.Idx → EReal) (d : ShD.Idx → EReal)

def spin (b : Fin 8) (i j : Fin 2048) : EReal := x (ix4 b (0 : Fin 2) i j)
def beta (b : Fin 8) (i j : Fin 2048) : EReal := x (ix4 b (1 : Fin 2) i j)

/-- The four nearest neighbours, rows first, wrap-around in both directions. -/
def nsum (b : Fin 8) (i j : Fin 2048) : EReal :=
  ((spin x b (prev i) j + spin x b (next i) j) + spin x b i (prev j)) + spin x b i (next j)

def dE (b : Fin 8) (i j : Fin 2048) : EReal := (cTwo * spin x b i j) * nsum x b i j

/-- The acceptance probability from an energy change and the field. -/
def accept (e β : EReal) : EReal :=
  Scalar.select (FloatOps.cmpf (F := Ideal) (φ := .f32) .ole e cZero) cOne (Ideal.exp (-e * β))

def pAcc (b : Fin 8) (i j : Fin 2048) : EReal := accept (dE x b i j) (beta x b i j)

/-- The flip decision from the acceptance probability, the uniform draw and the mask draw. -/
def flipOf (p u v : EReal) : EReal :=
  Scalar.select (IntOp.andi (FloatOps.cmpf (F := Ideal) (φ := .f32) .olt u p) (FloatOps.cmpf (F := Ideal) (φ := .f32) .ogt v cThresh))
    cNegOne cOne

def flip (b : Fin 8) (i j : Fin 2048) : EReal := flipOf (pAcc x b i j) (r (ix4 b (0 : Fin 1) i j)) (d (ix2 i j))

/-- The new state by coordinates: channel 0 the spins times their flips, channel 1 the field unchanged. -/
def state4 (b : Fin 8) (ch : Fin 2) (i j : Fin 2048) : EReal :=
  if ch.val = 0 then spin x b i j * flip x r d b i j else beta x b i j

def Gstate : ShX.Idx → EReal := fun q => state4 x r d (q 0) (q 1) (q 2) (q 3)

def eTot (b : Fin 8) : EReal := ∑ i : Fin 2048, ∑ j : Fin 2048, cNegEighth * dE x b i j
def sTot (b : Fin 8) : EReal := ∑ i : Fin 2048, ∑ j : Fin 2048, spin x b i j
def mMean (b : Fin 8) : EReal := Ideal.div (sTot x b) cCount

/-- The observables by coordinates: energy, its square, |mean spin|, its square. -/
def obvs4 (k : Fin 4) (b : Fin 8) : EReal :=
  if k.val = 0 then eTot x b else if k.val = 1 then eTot x b * eTot x b
  else if k.val = 2 then max (mMean x b) (-(mMean x b)) else mMean x b * mMean x b

def Gobvs : ShO.Idx → EReal := fun q => obvs4 x (q 0) (q 1)

/-! ## Per tile of 256 rows -/

/-- Lattice row `rr` of tile `ii`. -/
def rowOf (ii : Fin 8) (rr : Fin 256) : Fin 2048 := ⟨ii.val * 256 + rr.val, by have := ii.isLt; have := rr.isLt; omega⟩

def ePart (ii b : Fin 8) : EReal := ∑ rr : Fin 256, ∑ j : Fin 2048, cNegEighth * dE x b (rowOf ii rr) j
def sPart (ii b : Fin 8) : EReal := ∑ rr : Fin 256, ∑ j : Fin 2048, spin x b (rowOf ii rr) j

/-- The partial-sum array: per (tile, lattice) a block of 8 × 128 whose entry (0, 0) is the tile's energy part,
    entry (0, 1) its spin part, every other entry zero. -/
def part4 (ii b : Fin 8) (u : Fin 8) (l : Fin 128) : EReal :=
  if u.val = 0 then (if l.val = 0 then ePart x ii b else if l.val = 1 then sPart x ii b else 0) else 0

def Gpart : ShP.Idx → EReal := fun q => part4 x (q 0) (q 1) (q 2) (q 3)

/-- The observables from the partial-sum array alone: what the closing host operations compute. -/
def eOfPart (P : ShP.Idx → EReal) (b : Fin 8) : EReal := ∑ ii : Fin 8, P (ix4 ii b (0 : Fin 8) (0 : Fin 128))
def sOfPart (P : ShP.Idx → EReal) (b : Fin 8) : EReal := ∑ ii : Fin 8, P (ix4 ii b (0 : Fin 8) (1 : Fin 128))
def obvsOfPart4 (P : ShP.Idx → EReal) (k : Fin 4) (b : Fin 8) : EReal :=
  if k.val = 0 then eOfPart P b else if k.val = 1 then eOfPart P b * eOfPart P b
  else if k.val = 2 then max (Ideal.div (sOfPart P b) cCount) (-(Ideal.div (sOfPart P b) cCount))
  else Ideal.div (sOfPart P b) cCount * Ideal.div (sOfPart P b) cCount
def obvsOfPart (P : ShP.Idx → EReal) : ShO.Idx → EReal := fun q => obvsOfPart4 P (q 0) (q 1)

end Lattice

/-! ## Inside one tile -/

def prevR (u : Fin 256) : Fin 256 := ⟨(u.val + 255) % 256, Nat.mod_lt _ (by decide)⟩
def nextR (u : Fin 256) : Fin 256 := ⟨(u.val + 1) % 256, Nat.mod_lt _ (by decide)⟩

section Tile

/- `s`: the tile's spins; `top`: the eight rows that end just above the tile (its last row is the neighbour of the
   tile's first row); `bot`: the eight rows that start just below it (its first row is the neighbour of the tile's last row). -/
variable (s : ShT.Idx → EReal) (top bot : ShH.Idx → EReal)

/-- The neighbour sum as a tile computes it: cyclic within the tile, then the two edge rows corrected. -/
def nsumT (u : Fin 256) (j : Fin 2048) : EReal :=
  ((((s (ix2 (prevR u) j) + s (ix2 (nextR u) j)) + s (ix2 u (prev j))) + s (ix2 u (next j)))
      + (if u.val = 0 then top (ix2 (7 : Fin 8) j) - s (ix2 (255 : Fin 256) j) else cZero))
    + (if u.val = 255 then bot (ix2 (0 : Fin 8) j) - s (ix2 (0 : Fin 256) j) else cZero)

def dET (u : Fin 256) (j : Fin 2048) : EReal := (cTwo * s (ix2 u j)) * nsumT s top bot u j

end Tile

/-! ## Which lattice rows a tile's blocks hold -/

/-- Row `k` of the eight-row block number `blk` (the lattice's 2048 rows are 256 such blocks). -/
def haloRow (blk : Fin 256) (k : Fin 8) : Fin 2048 := ⟨blk.val * 8 + k.val, by have := blk.isLt; have := k.isLt; omega⟩
/-- The eight-row block that ends just above tile `ii`, and the one that starts just below it, both with wrap-around. -/
def topBlk (ii : Fin 8) : Fin 256 := ⟨(ii.val * 32 + 255) % 256, Nat.mod_lt _ (by decide)⟩
def botBlk (ii : Fin 8) : Fin 256 := ⟨((ii.val + 1) * 32) % 256, Nat.mod_lt _ (by decide)⟩

section Blocks

variable (x : ShX.Idx → EReal)

/-- Lattice `b`'s spins on tile `ii`, on the rows above it and on the rows below it. -/
def tileOf (b ii : Fin 8) : ShT.Idx → EReal := fun q => spin x b (rowOf ii (q 0)) (q 1)
def topOf (b ii : Fin 8) : ShH.Idx → EReal := fun q => spin x b (haloRow (topBlk ii) (q 0)) (q 1)
def botOf (b ii : Fin 8) : ShH.Idx → EReal := fun q => spin x b (haloRow (botBlk ii) (q 0)) (q 1)

/-- Lattice `b`'s field on tile `ii`. -/
def fieldOf (b ii : Fin 8) : ShT.Idx → EReal := fun q => beta x b (rowOf ii (q 0)) (q 1)

end Blocks

/-- Lattice `b`'s uniform draws on tile `ii`, and the mask draws on tile `ii` (shared by all lattices). -/
def drawOf (r : ShR.Idx → EReal) (b ii : Fin 8) : ShT.Idx → EReal := fun q => r (ix4 b (0 : Fin 1) (rowOf ii (q 0)) (q 1))
def maskOf (d : ShD.Idx → EReal) (ii : Fin 8) : ShT.Idx → EReal := fun q => d (ix2 (rowOf ii (q 0)) (q 1))

/-! ## Staging blocks seen as tiles -/

abbrev ShB : Shape := ⟨4, ![1, 1, 256, 2048]⟩
abbrev ShHB : Shape := ⟨4, ![1, 1, 8, 2048]⟩
abbrev ShSB : Shape := ⟨4, ![1, 2, 256, 2048]⟩
abbrev ShPB : Shape := ⟨4, ![1, 1, 8, 128]⟩

/-- A block with two leading unit axes, read as the matrix of its last two. -/
def asTile (v : ShB.Idx → EReal) : ShT.Idx → EReal := fun q => v (ix4 (0 : Fin 1) (0 : Fin 1) (q 0) (q 1))
def asHalo (v : ShHB.Idx → EReal) : ShH.Idx → EReal := fun q => v (ix4 (0 : Fin 1) (0 : Fin 1) (q 0) (q 1))

/-- What a tile leaves in its state block and in its block of partial sums, by coordinates, from its six blocks. -/
def stateT (s f : ShT.Idx → EReal) (top bot : ShH.Idx → EReal) (u m : ShT.Idx → EReal) (ch : Fin 2) (a : Fin 256) (j : Fin 2048) : EReal :=
  if ch.val = 0 then s (ix2 a j) * flipOf (accept (dET s top bot a j) (f (ix2 a j))) (u (ix2 a j)) (m (ix2 a j)) else f (ix2 a j)

def partT (s : ShT.Idx → EReal) (top bot : ShH.Idx → EReal) (k : Fin 8) (l : Fin 128) : EReal :=
  if k.val = 0 then (if l.val = 0 then ∑ a : Fin 256, ∑ j : Fin 2048, cNegEighth * dET s top bot a j
    else if l.val = 1 then ∑ a : Fin 256, ∑ j : Fin 2048, s (ix2 a j) else 0) else 0

end Cert.Ising

end
-- ==== Proof.KI.TileEnergy.lean ====
/-
  The energy change a tile's body computes, read at one site of the tile.

  The body's value is a chain of vector operations on the tile of spins `s` (256 × 2048) and on two blocks of eight
  neighbouring rows. Read at the site (a, j):
    * a block with two leading unit axes, reshaped to a matrix, reads the block at (0, 0, a, j);
    * a rotation by 1 along an axis of extent n reads the coordinate (c + n - 1) mod n, the cyclic predecessor, and a
      rotation by n - 1 reads (c + n - (n - 1)) mod n = (c + 1) mod n, the cyclic successor;
    * one row cut out of a matrix and copied down all the rows reads that row at column j;
    * the row number, as a 32-bit word, equals the word of a number c < 256 exactly when a = c, since both are
      below 2 ^ 32.
  Put together these give, term by term and in the same order and association, the tile's neighbour sum with its two
  edge-row corrections, times twice the spin.
-/
import proofs.«404182_j15599321219396_3_alg».proof.Proof.KI.Body
import proofs.«404182_j15599321219396_3_alg».proof.Proof.Spec
import Idealize.ShloMosaic.Lib.ValueIdx
import Idealize.ShloMosaic.Lib.ValueLayout
import Idealize.ShloMosaic.Lib.KernelVsHost
import Idealize.ShloMosaic.Lib.Pipeline.Value

noncomputable section

open scoped BigOperators

namespace Cert.KernelIdeal.Hand

open Cert.KernelIdeal Cert.KernelIdeal.Gen Cert.Ising
open Idealize.ShloMosaic Idealize.ShloMosaic.ValueIdx Idealize.ShloMosaic.TcCoe Idealize.SL.Sem

/-! ## The loads: a whole-block rectangle at offset zero reads the block as it is -/

theorem ld_tile (xs : Vec Ideal S1x1x256x2048 .f32) : View.ld xs rTile = xs :=
  View.ld_unit_zero (funext fun a => by fin_cases a <;> rfl) _ xs

theorem ld_halo (xh : Vec Ideal S1x1x8x2048 .f32) : View.ld xh rHalo = xh :=
  View.ld_unit_zero (funext fun a => by fin_cases a <;> rfl) _ xh

/-! ## One lemma per operation that is not pointwise -/

section Ops
variable {α : Type}

/-- A block with two leading unit axes, reshaped to the matrix of its last two, reads (0, 0, a, j) at (a, j):
    both indices have row-major position a · B + j. -/
theorem cast_11ab_apply {A B : ℕ} (x : (⟨4, ![1, 1, A, B]⟩ : Shape).Idx → α)
    (h : (⟨4, ![1, 1, A, B]⟩ : Shape).ShapeCasts ⟨2, ![A, B]⟩) (a : Fin A) (j : Fin B) :
    shapeCast ⟨2, ![A, B]⟩ x h (ix2 a j) = x (ix4 (0 : Fin 1) (0 : Fin 1) a j) := by
  unfold shapeCast
  exact congrArg x (reshapeEquiv_ix2_11ab _ a j)

/-- A reshape to the same shape reads the same index. -/
theorem cast_same_apply {s : Shape} (x : s.Idx → α) (h : s.ShapeCasts s) (i : s.Idx) : shapeCast s x h i = x i :=
  shapeCast_apply x h i i rfl

/-- A rotation along the rows by the word `sb` reads, at row a, the row (a + A - sb mod A) mod A. -/
theorem rot_rows_apply {A B : ℕ} (sb : BitVec 32) (x : (⟨2, ![A, B]⟩ : Shape).Idx → α)
    (h : (⟨2, ![A, B]⟩ : Shape).Rotates 0 none) (a k : Fin A) (j : Fin B)
    (hk : k.val = (a.val + A - sb.toNat % A) % A) :
    dynamicRotate 0 sb none x h (ix2 a j) = x (ix2 k j) := by
  refine dynamicRotate_apply 0 sb x h (ix2 a j) (ix2 k j) fun b => ?_
  match b with
  | ⟨0, _⟩ => exact hk
  | ⟨1, _⟩ => rfl

/-- A rotation along the columns by the word `sb` reads, at column j, the column (j + B - sb mod B) mod B. -/
theorem rot_cols_apply {A B : ℕ} (sb : BitVec 32) (x : (⟨2, ![A, B]⟩ : Shape).Idx → α)
    (h : (⟨2, ![A, B]⟩ : Shape).Rotates 1 none) (a : Fin A) (j k : Fin B)
    (hk : k.val = (j.val + B - sb.toNat % B) % B) :
    dynamicRotate 1 sb none x h (ix2 a j) = x (ix2 a k) := by
  refine dynamicRotate_apply 1 sb x h (ix2 a j) (ix2 a k) fun b => ?_
  match b with
  | ⟨0, _⟩ => rfl
  | ⟨1, _⟩ => exact hk

/-- A comparison of two vectors of words, read at an index, compares the two words there. -/
theorem cmpi_apply {s : Shape} {w : ℕ} (p : CmpIPredicate) (x y : IVec s w) (i : s.Idx) :
    cmpi p x y i = IntOp.cmpi p (x i) (y i) := rfl

/-- The row test: the word of a row number a < 256 equals the word of c < 256 exactly when a = c. -/
theorem select_row {β : Type} (a : Fin 256) (c : ℕ) (hc : c < 256) (X Y : β) :
    Scalar.select (IntOp.cmpi .eq (BitVec.ofNat 32 a.val) (BitVec.ofNat 32 c)) X Y = if a.val = c then X else Y := by
  have ha := a.isLt
  show (if BitVec.ofBool (BitVec.ofNat 32 a.val == BitVec.ofNat 32 c) = 1#1 then X else Y) = _
  by_cases hac : a.val = c
  · rw [if_pos hac, hac]; simp
  · rw [if_neg hac]
    have hne : BitVec.ofNat 32 a.val ≠ BitVec.ofNat 32 c := by
      intro e
      have e' := congrArg BitVec.toNat e
      rw [BitVec.toNat_ofNat, BitVec.toNat_ofNat] at e'
      omega
    have hb : (BitVec.ofNat 32 a.val == BitVec.ofNat 32 c) = false := beq_eq_false_iff_ne.mpr hne
    rw [hb]
    exact if_neg (by decide)

end Ops

/-! ## The payloads at a site -/

section Payloads
variable (xs : Vec Ideal S1x1x256x2048 .f32) (xt xb : Vec Ideal S1x1x8x2048 .f32) (a : Fin 256) (j : Fin 2048)

/-- The tile block as a matrix. -/
theorem pay2_apply : k0_pay2 (F := Ideal) xs (ix2 a j) = asTile xs (ix2 a j) := by
  unfold k0_pay2
  exact cast_11ab_apply xs _ a j

/-- The four cyclic neighbours within the tile: rows first (above, below), then columns (left, right). -/
theorem pay6_apply :
    k0_pay6 (F := Ideal) xs (ix2 a j)
      = ((asTile xs (ix2 (prevR a) j) + asTile xs (ix2 (nextR a) j)) + asTile xs (ix2 a (prev j)))
          + asTile xs (ix2 a (next j)) := by
  unfold k0_pay6
  simp only [addf_apply]
  rw [rot_rows_apply 1#32 _ _ a (prevR a) j (by show (a.val + 255) % 256 = (a.val + 256 - 1 % 256) % 256; omega),
    rot_rows_apply 255#32 _ _ a (nextR a) j (by show (a.val + 1) % 256 = (a.val + 256 - 255 % 256) % 256; omega),
    rot_cols_apply 1#32 _ _ a j (prev j) (by show (j.val + 2047) % 2048 = (j.val + 2048 - 1 % 2048) % 2048; omega),
    rot_cols_apply 2047#32 _ _ a j (next j) (by show (j.val + 1) % 2048 = (j.val + 2048 - 2047 % 2048) % 2048; omega)]
  simp only [pay2_apply]

/-- The first-row test. -/
theorem pay7_apply {β : Type} (X Y : β) :
    Scalar.select (k0_pay7 (ix2 a j)) X Y = if a.val = 0 then X else Y := by
  unfold k0_pay7
  show Scalar.select (IntOp.cmpi .eq (iota .tc S256x2048 32 [0] iota_S256x2048_d0_w32 (ix2 a j)) (BitVec.ofNat 32 0)) X Y = _
  rw [iota_single_apply]
  exact select_row a 0 (by decide) X Y

/-- The correction of the first row: the last of the eight rows above, less the tile's last row (on every row). -/
theorem pay8_apply :
    k0_pay8 (F := Ideal) xs xt (ix2 a j) = asHalo xt (ix2 (7 : Fin 8) j) - asTile xs (ix2 (255 : Fin 256) j) := by
  unfold k0_pay8
  rw [broadcastTo_1b_ab_apply, cast_same_apply]
  simp only [subf_apply]
  rw [slice2_axis0_apply 7 _ _ (0 : Fin 1) j (7 : Fin 8) rfl, slice2_axis0_apply 255 _ _ (0 : Fin 1) j (255 : Fin 256) rfl,
    pay2_apply, cast_11ab_apply]
  rfl

/-- The correction of the last row, as the one row it is: the first of the eight rows below, less the tile's first row. -/
theorem pay5_apply :
    k0_pay5 (F := Ideal) xs xb (ix2 (0 : Fin 1) j) = asHalo xb (ix2 (0 : Fin 8) j) - asTile xs (ix2 (0 : Fin 256) j) := by
  unfold k0_pay5
  simp only [subf_apply]
  rw [slice2_axis0_apply 0 _ _ (0 : Fin 1) j (0 : Fin 8) rfl, slice2_axis0_apply 0 _ _ (0 : Fin 1) j (0 : Fin 256) rfl,
    pay2_apply, cast_11ab_apply]
  rfl

end Payloads

theorem dEBlk_apply (xs : Vec Ideal S1x1x256x2048 .f32) (xt xb : Vec Ideal S1x1x8x2048 .f32) (a : Fin 256) (j : Fin 2048) :
    dEBlk (F := Ideal) xs xt xb (ix2 a j) = dET (asTile xs) (asHalo xt) (asHalo xb) a j := by
  unfold dEBlk k0_pay10
  simp only [ld_tile, ld_halo, mulf_apply, addf_apply, select_apply, cmpi_apply, broadcast_apply]
  rw [pay2_apply, pay6_apply, pay7_apply, pay8_apply, iota_single_apply, select_row a 255 (by decide),
    broadcastTo_1b_ab_apply, cast_same_apply, pay5_apply]
  rfl

end Cert.KernelIdeal.Hand

end
-- ==== Proof.KI.TileValue.lean ====
/-
  What a tile's body leaves in its state block and in its block of partial sums, read at one entry.
-/
import proofs.«404182_j15599321219396_3_alg».proof.Proof.KI.TileEnergy
import Idealize.ShloMosaic.PureOps.Ideal.Laws
import Idealize.ShloMosaic.Lib.Affine
import Idealize.ShloMosaic.Lib.ValueIdx
import Idealize.ShloMosaic.Lib.ValueLayout
import Idealize.ShloMosaic.Lib.Pipeline.FrameBody
import Idealize.ShloMosaic.Lib.Pipeline.Value

noncomputable section

open scoped BigOperators

namespace Cert.KernelIdeal.Hand

open Cert.KernelIdeal Cert.KernelIdeal.Gen Cert.Ising
open Idealize.ShloMosaic Idealize.ShloMosaic.ValueIdx Idealize.ShloMosaic.TcCoe Idealize.SL.Sem

/-! ## The state block

The two stores into the state block are its two channel slabs: an entry of channel 1 reads the field's payload, which
is the loaded field through two shape casts; an entry of channel 0 reads the new spins' payload, which at a site is the
spin times the flip decided from the acceptance probability of the site's energy change, the uniform draw and the mask
draw. -/

namespace TV

theorem off4_zero : (![0, 0, 0, 0] : Fin 4 → Nat) = fun _ => 0 := by
  funext a; fin_cases a <;> rfl
theorem off2_zero : (![0, 0] : Fin 2 → Nat) = fun _ => 0 := by
  funext a; fin_cases a <;> rfl

/-- A load through the whole-block rectangle reads the block. -/
theorem ld_rTile (x : Vec Ideal S1x1x256x2048 .f32) : View.ld x rTile = x :=
  View.ld_unit_zero off4_zero _ x

theorem ld_rMask (x : Vec Ideal S256x2048 .f32) : View.ld x rMask = x :=
  View.ld_unit_zero off2_zero _ x

/-- A block with two leading unit axes cast to the matrix of its last two reads, at (a, j), the block at (0, 0, a, j). -/
theorem cast_down_apply {m n : Nat} {α : Type} (x : (⟨4, ![1, 1, m, n]⟩ : Shape).Idx → α)
    (h : (⟨4, ![1, 1, m, n]⟩ : Shape).ShapeCasts ⟨2, ![m, n]⟩) (a : Fin m) (j : Fin n) :
    shapeCast ⟨2, ![m, n]⟩ x h (ix2 a j) = x (ix4 (0 : Fin 1) (0 : Fin 1) a j) :=
  shapeCast_apply x h _ _ (by
    rw [Shape.rowMajor_val_four, Shape.rowMajor_val_two]
    show ((0 * 1 + 0) * m + a.val) * n + j.val = a.val * n + j.val
    simp only [Nat.zero_mul, Nat.zero_add])

/-- A matrix cast to a block with two leading unit axes reads, at (u, v, a, j), the matrix at (a, j). -/
theorem cast_up_apply {m n : Nat} {α : Type} (x : (⟨2, ![m, n]⟩ : Shape).Idx → α)
    (h : (⟨2, ![m, n]⟩ : Shape).ShapeCasts ⟨4, ![1, 1, m, n]⟩) (u v : Fin 1) (a : Fin m) (j : Fin n) :
    shapeCast ⟨4, ![1, 1, m, n]⟩ x h (ix4 u v a j) = x (ix2 a j) :=
  shapeCast_apply x h _ _ (by
    have hu : u.val = 0 := by omega
    have hv : v.val = 0 := by omega
    rw [Shape.rowMajor_val_four, Shape.rowMajor_val_two]
    show a.val * n + j.val = ((u.val * 1 + v.val) * m + a.val) * n + j.val
    rw [hu, hv]; simp only [Nat.zero_mul, Nat.zero_add])

/-- The three tile payloads (spins, field, uniform draws) at (a, j) are the loaded block at (0, 0, a, j). -/
theorem pay2_apply (x : Vec Ideal S1x1x256x2048 .f32) (a : Fin 256) (j : Fin 2048) :
    k0_pay2 (F := Ideal) (View.ld x rTile) (ix2 a j) = asTile x (ix2 a j) := by
  rw [ld_rTile]
  exact cast_down_apply x _ a j

theorem pay3_apply (x : Vec Ideal S1x1x256x2048 .f32) (a : Fin 256) (j : Fin 2048) :
    k0_pay3 (F := Ideal) (View.ld x rTile) (ix2 a j) = asTile x (ix2 a j) := by
  rw [ld_rTile]
  exact cast_down_apply x _ a j

theorem pay4_apply (x : Vec Ideal S1x1x256x2048 .f32) (a : Fin 256) (j : Fin 2048) :
    k0_pay4 (F := Ideal) (View.ld x rTile) (ix2 a j) = asTile x (ix2 a j) := by
  rw [ld_rTile]
  exact cast_down_apply x _ a j

/-- The energy-change payload inside the later payloads is the one the tile-energy lemma reads. -/
theorem pay10_eq (xs : Vec Ideal S1x1x256x2048 .f32) (xt xb : Vec Ideal S1x1x8x2048 .f32) :
    k0_pay10 (F := Ideal) (k0_pay2 (View.ld xs rTile)) (iota .tc S256x2048 32 [0] iota_S256x2048_d0_w32) (k0_pay5 (View.ld xs rTile) (View.ld xb rHalo))
      (k0_pay6 (View.ld xs rTile)) k0_pay7 (k0_pay8 (View.ld xs rTile) (View.ld xt rHalo)) k0_pay9 = dEBlk xs xt xb := rfl

/-- The first store's payload at one entry: the spin times its flip. -/
theorem spinsOut_apply (xs xf : Vec Ideal S1x1x256x2048 .f32) (xt xb : Vec Ideal S1x1x8x2048 .f32) (xu : Vec Ideal S1x1x256x2048 .f32)
    (xm : Vec Ideal S256x2048 .f32) (u v : Fin 1) (a : Fin 256) (j : Fin 2048) :
    spinsOut (F := Ideal) xs xf xt xb xu xm (ix4 u v a j)
      = asTile xs (ix2 a j) * flipOf (accept (dET (asTile xs) (asHalo xt) (asHalo xb) a j) (asTile xf (ix2 a j))) (asTile xu (ix2 a j)) (xm (ix2 a j)) := by
  unfold spinsOut k0_pay11
  rw [pay10_eq]
  refine (cast_up_apply _ _ u v a j).trans ?_
  show k0_pay2 (F := Ideal) (View.ld xs rTile) (ix2 a j)
      * Scalar.select (IntOp.andi (FloatOps.cmpf (F := Ideal) (φ := .f32) .olt (k0_pay4 (F := Ideal) (View.ld xu rTile) (ix2 a j))
            (Scalar.select (FloatOps.cmpf (F := Ideal) (φ := .f32) .ole (dEBlk xs xt xb (ix2 a j)) cZero) cOne
              (Ideal.exp ((cZero - dEBlk xs xt xb (ix2 a j)) * k0_pay3 (F := Ideal) (View.ld xf rTile) (ix2 a j)))))
          (FloatOps.cmpf (F := Ideal) (φ := .f32) .ogt (View.ld xm rMask (ix2 a j)) cThresh)) cNegOne cOne = _
  rw [pay2_apply, pay3_apply, pay4_apply, ld_rMask, dEBlk_apply]
  unfold flipOf accept
  rw [show (cZero - dET (asTile xs) (asHalo xt) (asHalo xb) a j) = -dET (asTile xs) (asHalo xt) (asHalo xb) a j from by
    rw [show cZero = (0 : EReal) from Ideal.ofBits_zero_f32, zero_sub]]

/-- The field's payload (the second store) at one entry is the field there. -/
theorem fieldOut_apply (xf : Vec Ideal S1x1x256x2048 .f32) (u v : Fin 1) (a : Fin 256) (j : Fin 2048) :
    k0_pay12 (F := Ideal) (k0_pay3 (View.ld xf rTile)) (ix4 u v a j) = asTile xf (ix2 a j) := by
  unfold k0_pay12
  refine (cast_up_apply _ _ u v a j).trans ?_
  exact pay3_apply xf a j

/-- Entry (0, 1, a, j) of the state block is entry (0, 0, a, j) of the channel-1 slab. -/
theorem emb_rCh1 (a : Fin 256) (j : Fin 2048) :
    rCh1.emb (ix4 (0 : Fin 1) (0 : Fin 1) a j) = ix4 (0 : Fin 1) (1 : Fin 2) a j := by
  funext d
  refine Fin.ext ?_
  rw [Rect.emb_apply]
  match d with
  | ⟨0, _⟩ => rfl
  | ⟨1, _⟩ => rfl
  | ⟨2, _⟩ => show 0 + 1 * a.val = a.val; omega
  | ⟨3, _⟩ => show 0 + 1 * j.val = j.val; omega

/-- Entry (0, 0, a, j) of the state block is entry (0, 0, a, j) of the channel-0 slab. -/
theorem emb_rCh0 (a : Fin 256) (j : Fin 2048) :
    rCh0.emb (ix4 (0 : Fin 1) (0 : Fin 1) a j) = ix4 (0 : Fin 1) (0 : Fin 2) a j := by
  funext d
  refine Fin.ext ?_
  rw [Rect.emb_apply]
  match d with
  | ⟨0, _⟩ => rfl
  | ⟨1, _⟩ => rfl
  | ⟨2, _⟩ => show 0 + 1 * a.val = a.val; omega
  | ⟨3, _⟩ => show 0 + 1 * j.val = j.val; omega

/-- An entry of channel 0 lies outside the channel-1 slab. -/
theorem not_mem_rCh1 (a : Fin 256) (j : Fin 2048) : ix4 (0 : Fin 1) (0 : Fin 2) a j ∉ rCh1.set := by
  intro h
  have h1 : (1 : Nat) ≤ 0 := (Rect.mem_set_unit.mp h (1 : Fin 4)).1
  omega

/-- Two slabs laid over one another, channel 1 last: an entry of channel 0 reads the channel-0 slab's payload. -/
theorem canon_state_ch0 (p1 p0 : Vec Ideal S1x1x256x2048 .f32) (a : Fin 256) (j : Fin 2048) :
    View.canon (Val := Elt Ideal) [⟨rCh1, p1⟩, ⟨rCh0, p0⟩] (ix4 (0 : Fin 1) (0 : Fin 2) a j) = p0 (ix4 (0 : Fin 1) (0 : Fin 1) a j) :=
  (View.canon_cons_of_not_mem (Val := Elt Ideal) ⟨rCh1, p1⟩ [⟨rCh0, p0⟩] (not_mem_rCh1 a j)).trans
    ((congrArg (View.canon (Val := Elt Ideal) [⟨rCh0, p0⟩]) (emb_rCh0 a j).symm).trans
      (View.canon_cons_emb (Val := Elt Ideal) rCh0 p0 [] (ix4 (0 : Fin 1) (0 : Fin 1) a j)))

/-- … and an entry of channel 1 reads the channel-1 slab's payload. -/
theorem canon_state_ch1 (p1 p0 : Vec Ideal S1x1x256x2048 .f32) (a : Fin 256) (j : Fin 2048) :
    View.canon (Val := Elt Ideal) [⟨rCh1, p1⟩, ⟨rCh0, p0⟩] (ix4 (0 : Fin 1) (1 : Fin 2) a j) = p1 (ix4 (0 : Fin 1) (0 : Fin 1) a j) :=
  (congrArg (View.canon (Val := Elt Ideal) [⟨rCh1, p1⟩, ⟨rCh0, p0⟩]) (emb_rCh1 a j).symm).trans
    (View.canon_cons_emb (Val := Elt Ideal) rCh1 p1 [⟨rCh0, p0⟩] (ix4 (0 : Fin 1) (0 : Fin 1) a j))

theorem fin2_cases (ch : Fin 2) : ch = 0 ∨ ch = 1 := by
  rcases ch with ⟨_ | _ | n, h⟩
  · exact Or.inl rfl
  · exact Or.inr rfl
  · omega

end TV

theorem stateBlk_apply (xs xf : Vec Ideal S1x1x256x2048 .f32) (xt xb : Vec Ideal S1x1x8x2048 .f32) (xu : Vec Ideal S1x1x256x2048 .f32)
    (xm : Vec Ideal S256x2048 .f32) (ch : Fin 2) (a : Fin 256) (j : Fin 2048) :
    stateBlk (F := Ideal) xs xf xt xb xu xm (ix4 (0 : Fin 1) ch a j)
      = stateT (asTile xs) (asTile xf) (asHalo xt) (asHalo xb) (asTile xu) xm ch a j := by
  unfold stateBlk
  rcases TV.fin2_cases ch with rfl | rfl
  · refine (TV.canon_state_ch0 _ _ a j).trans ?_
    refine (TV.spinsOut_apply xs xf xt xb xu xm 0 0 a j).trans ?_
    exact (if_pos rfl).symm
  · refine (TV.canon_state_ch1 _ _ a j).trans ?_
    refine (TV.fieldOut_apply xf 0 0 a j).trans ?_
    exact (if_neg (by decide)).symm

/-! ## The block of partial sums

The one store covers the block. Its payload is a cascade of selects on the entry's row and lane numbers over two
scalars: the sum over the rows of the column of row sums of the energy terms, and the same two-stage sum of the spins. -/

namespace TV

/-- A select on the equality of two words is the `if` on it. -/
theorem select_cmpi_eq {β : Type} {w : Nat} (x y : BitVec w) (A B : β) :
    Scalar.select (IntOp.cmpi .eq x y) A B = if x = y then A else B := by
  by_cases h : x = y
  · rw [if_pos h, IntOp.cmpi_eq.mpr h]; exact select_one A B
  · rw [if_neg h, eq_zero_of_ne_one (fun h1 => h (IntOp.cmpi_eq.mp h1))]; exact select_zero A B

/-- Two small numbers are equal as 32-bit words exactly when they are equal. -/
theorem ofNat_eq_iff (n c : Nat) (hn : n < 2 ^ 32) (hc : c < 2 ^ 32) : BitVec.ofNat 32 n = BitVec.ofNat 32 c ↔ n = c := by
  constructor
  · intro h
    have e := congrArg BitVec.toNat h
    rw [BitVec.toNat_ofNat, BitVec.toNat_ofNat, Nat.mod_eq_of_lt hn, Nat.mod_eq_of_lt hc] at e
    exact e
  · rintro rfl; rfl

/-- A select on "coordinate `n` is `c`", both small, is the `if` on it. -/
theorem select_coord_eq {β : Type} (n c : Nat) (hn : n < 2 ^ 32) (hc : c < 2 ^ 32) (A B : β) :
    Scalar.select (IntOp.cmpi .eq (BitVec.ofNat 32 n) (BitVec.ofNat 32 c)) A B = if n = c then A else B := by
  rw [select_cmpi_eq]
  exact if_congr (ofNat_eq_iff n c hn hc) rfl rfl

/-- The nested selects on the row and lane numbers of an 8 × 128 block, at entry (k, l). -/
theorem cascade_apply {β : Type} (k : Fin 8) (l : Fin 128) (X Y Z : β) :
    Scalar.select (IntOp.cmpi .eq (iota .tc S8x128 32 [0] iota_S8x128_d0_w32 (ix2 k l)) 0#32)
        (Scalar.select (IntOp.cmpi .eq (iota .tc S8x128 32 [1] iota_S8x128_d1_w32 (ix2 k l)) 0#32) X
          (Scalar.select (IntOp.cmpi .eq (iota .tc S8x128 32 [1] iota_S8x128_d1_w32 (ix2 k l)) 1#32) Y Z)) Z
      = if k.val = 0 then (if l.val = 0 then X else if l.val = 1 then Y else Z) else Z := by
  rw [iota_single_apply, iota_single_apply]
  show Scalar.select (IntOp.cmpi .eq (BitVec.ofNat 32 k.val) (BitVec.ofNat 32 0))
        (Scalar.select (IntOp.cmpi .eq (BitVec.ofNat 32 l.val) (BitVec.ofNat 32 0)) X
          (Scalar.select (IntOp.cmpi .eq (BitVec.ofNat 32 l.val) (BitVec.ofNat 32 1)) Y Z)) Z = _
  have hk := k.isLt
  have hl := l.isLt
  rw [select_coord_eq k.val 0 (by omega) (by omega), select_coord_eq l.val 0 (by omega) (by omega),
    select_coord_eq l.val 1 (by omega) (by omega)]

/-- The sum over axis 1 of a 256 × 2048 value, kept as a column, reads at row `a` the sum of that row. -/
theorem rowSum_apply (w : FVec Ideal S256x2048 .f32) (hφ : FKind.Formats .f32)
    (hacc : (0x00000000#32 : BitVec 32) = FKind.add.neutral .f32 hφ) (a : Fin 256) (z : Fin 1) :
    shapeCast S256x1 (multiReduction .add [1] S256 w 0x00000000#32 reduces_S256x2048_S256 hφ hacc) shapeCasts_S256_S256x1 (ix2 a z)
      = ∑ j : Fin 2048, w (ix2 a j) := by
  refine (shapeCast_apply _ _ (ix2 a z) (ix1 a) ?_).trans ?_
  · rw [Shape.rowMajor_val_one, Shape.rowMajor_val_two]
    show a.val = a.val * 1 + z.val
    omega
  · refine (Ideal.multiReduction_add_single w _ reduces_S256x2048_S256 hφ hacc (ix1 a)).trans ?_
    refine Finset.sum_congr rfl fun j _ => congrArg w ?_
    funext c
    match c with
    | ⟨0, _⟩ => rfl
    | ⟨1, _⟩ => rfl

/-- The sum over axis 0 of a 256 × 1 column, its one entry extracted: the sum of the column. -/
theorem colSum_apply (v : FVec Ideal S256x1 .f32) (hφ : FKind.Formats .f32)
    (hacc : (0x00000000#32 : BitVec 32) = FKind.add.neutral .f32 hφ) :
    extractAt ![0, 0] (shapeCast S1x1 (multiReduction .add [0] S1 v 0x00000000#32 reduces_S256x1_S1 hφ hacc) shapeCasts_S1_S1x1) inpos_S1x1_p0_0
      = ∑ a : Fin 256, v (ix2 a (0 : Fin 1)) := by
  unfold extractAt
  refine (shapeCast_apply _ _ _ (ix1 (0 : Fin 1)) ?_).trans ?_
  · rw [Shape.rowMajor_val_one, Shape.rowMajor_val_two]
    rfl
  · refine (Ideal.multiReduction_add_single v _ reduces_S256x1_S1 hφ hacc (ix1 (0 : Fin 1))).trans ?_
    refine Finset.sum_congr rfl fun a _ => congrArg v ?_
    funext c
    match c with
    | ⟨0, _⟩ => rfl
    | ⟨1, _⟩ => rfl

end TV

namespace TV

/-- The third store's payload at one entry, over any tile value and any column of row sums. -/
theorem pay1_apply (v1 : FVec Ideal S256x2048 .f32) (v67 : FVec Ideal S256x1 .f32) (u v : Fin 1) (k : Fin 8) (l : Fin 128) :
    k0_pay1 (F := Ideal) v1 v67 (ix4 u v k l)
      = if k.val = 0 then (if l.val = 0 then ∑ a : Fin 256, v67 (ix2 a (0 : Fin 1))
          else if l.val = 1 then ∑ a : Fin 256, ∑ j : Fin 2048, v1 (ix2 a j) else 0) else 0 := by
  unfold k0_pay1
  refine (cast_up_apply _ _ u v k l).trans ?_
  show Scalar.select (IntOp.cmpi .eq (iota .tc S8x128 32 [0] iota_S8x128_d0_w32 (ix2 k l)) 0#32)
        (Scalar.select (IntOp.cmpi .eq (iota .tc S8x128 32 [1] iota_S8x128_d1_w32 (ix2 k l)) 0#32)
          (extractAt ![0, 0] (shapeCast S1x1 (multiReduction .add [0] S1 v67 0x00000000#32 reduces_S256x1_S1 (.inl rfl) rfl) shapeCasts_S1_S1x1) inpos_S1x1_p0_0)
          (Scalar.select (IntOp.cmpi .eq (iota .tc S8x128 32 [1] iota_S8x128_d1_w32 (ix2 k l)) 1#32)
            (extractAt ![0, 0] (shapeCast S1x1 (multiReduction .add [0] S1
              (shapeCast S256x1 (multiReduction .add [1] S256 v1 0x00000000#32 reduces_S256x2048_S256 (.inl rfl) rfl) shapeCasts_S256_S256x1)
              0x00000000#32 reduces_S256x1_S1 (.inl rfl) rfl) shapeCasts_S1_S1x1) inpos_S1x1_p0_0)
            cZero))
        cZero = _
  refine (cascade_apply k l _ _ _).trans ?_
  have e1 := colSum_apply v67 (.inl rfl) rfl
  have e2 := colSum_apply (shapeCast S256x1 (multiReduction .add [1] S256 v1 0x00000000#32 reduces_S256x2048_S256 (.inl rfl) rfl) shapeCasts_S256_S256x1) (.inl rfl) rfl
  have e3 : ∀ a : Fin 256, shapeCast S256x1 (multiReduction .add [1] S256 v1 0x00000000#32 reduces_S256x2048_S256 (.inl rfl) rfl) shapeCasts_S256_S256x1 (ix2 a (0 : Fin 1))
      = ∑ j : Fin 2048, v1 (ix2 a j) := fun a => rowSum_apply v1 (.inl rfl) rfl a 0
  have hz : cZero = (0 : EReal) := Ideal.ofBits_zero_f32
  rw [e1, e2, hz]
  simp only [e3]

/-- The column of row sums of the energy terms, at row `a`. -/
theorem pay13_apply (xs : Vec Ideal S1x1x256x2048 .f32) (xt xb : Vec Ideal S1x1x8x2048 .f32) (a : Fin 256) (z : Fin 1) :
    k0_pay13 (F := Ideal) (k0_pay2 (View.ld xs rTile)) (iota .tc S256x2048 32 [0] iota_S256x2048_d0_w32) (k0_pay5 (View.ld xs rTile) (View.ld xb rHalo))
        (k0_pay6 (View.ld xs rTile)) k0_pay7 (k0_pay8 (View.ld xs rTile) (View.ld xt rHalo)) k0_pay9 (ix2 a z)
      = ∑ j : Fin 2048, cNegEighth * dET (asTile xs) (asHalo xt) (asHalo xb) a j := by
  unfold k0_pay13
  rw [pay10_eq]
  show shapeCast S256x1 (multiReduction .add [1] S256 (mulf (broadcast S256x2048 cNegEighth) (dEBlk xs xt xb)) 0x00000000#32
      reduces_S256x2048_S256 (.inl rfl) rfl) shapeCasts_S256_S256x1 (ix2 a z) = _
  refine (rowSum_apply _ (.inl rfl) rfl a z).trans ?_
  refine Finset.sum_congr rfl fun j _ => ?_
  show cNegEighth * dEBlk xs xt xb (ix2 a j) = _
  rw [dEBlk_apply]

end TV

theorem partBlk_apply (xs : Vec Ideal S1x1x256x2048 .f32) (xt xb : Vec Ideal S1x1x8x2048 .f32) (k : Fin 8) (l : Fin 128) :
    partBlk (F := Ideal) xs xt xb (ix4 (0 : Fin 1) (0 : Fin 1) k l) = partT (asTile xs) (asHalo xt) (asHalo xb) k l := by
  unfold partBlk partT
  rw [View.canon_unit_zero TV.off4_zero]
  refine (TV.pay1_apply _ _ 0 0 k l).trans ?_
  rw [Finset.sum_congr rfl fun a _ => TV.pay13_apply xs xt xb a 0,
    Finset.sum_congr rfl fun a _ => Finset.sum_congr rfl fun j _ => TV.pay2_apply xs a j]

end Cert.KernelIdeal.Hand

end
-- ==== Proof.TileAlgebra.lean ====
/-
  From one tile to the lattice: on finite entries the tile's corrected neighbour sum is the lattice's wrap-around
  neighbour sum, so everything a tile computes from it is the lattice quantity on the tile's rows; and the lattice
  sums are the sums of the tiles' parts.
-/
import proofs.«404182_j15599321219396_3_alg».proof.Proof.Spec
import Idealize.ShloMosaic.PureOps.Ideal.Laws

noncomputable section

open scoped BigOperators

namespace Cert.Ising

open Idealize.ShloMosaic Idealize.ShloMosaic.ValueIdx

/-! ## Row arithmetic -/

/-- Away from the tile's first row, the cyclic predecessor within the tile is the lattice's predecessor. -/
theorem rowOf_prevR (ii : Fin 8) (a : Fin 256) (h : a.val ≠ 0) : rowOf ii (prevR a) = prev (rowOf ii a) := by
  apply Fin.ext
  simp only [rowOf, prevR, prev]
  have := ii.isLt; have := a.isLt; omega

/-- Away from the tile's last row, the cyclic successor within the tile is the lattice's successor. -/
theorem rowOf_nextR (ii : Fin 8) (a : Fin 256) (h : a.val ≠ 255) : rowOf ii (nextR a) = next (rowOf ii a) := by
  apply Fin.ext
  simp only [rowOf, nextR, next]
  have := ii.isLt; have := a.isLt; omega

/-- The last row of the block above a tile is the lattice predecessor of the tile's first row. -/
theorem haloRow_top (ii : Fin 8) : haloRow (topBlk ii) (7 : Fin 8) = prev (rowOf ii (0 : Fin 256)) := by
  apply Fin.ext
  show (ii.val * 32 + 255) % 256 * 8 + 7 = (ii.val * 256 + 0 + 2047) % 2048
  have := ii.isLt; omega

/-- The first row of the block below a tile is the lattice successor of the tile's last row. -/
theorem haloRow_bot (ii : Fin 8) : haloRow (botBlk ii) (0 : Fin 8) = next (rowOf ii (255 : Fin 256)) := by
  apply Fin.ext
  show ((ii.val + 1) * 32) % 256 * 8 + 0 = (ii.val * 256 + 255 + 1) % 2048
  have := ii.isLt; omega

/-! ## The corrected neighbour sum -/

/-- The cancellation at an edge row, over the reals: the tile's own far row `w`, taken cyclically, is replaced by
    the halo row `t`. -/
theorem edge_top_real (w dn l r t : ℝ) :
    (((((w : EReal) + dn) + l) + r) + ((t : EReal) - w)) = ((((t : EReal) + dn) + l) + r) := by
  rw [← EReal.coe_add, ← EReal.coe_add, ← EReal.coe_add, ← EReal.coe_sub, ← EReal.coe_add,
    ← EReal.coe_add, ← EReal.coe_add, ← EReal.coe_add]
  congr 1; ring

theorem edge_bot_real (up w l r t : ℝ) :
    (((((up : EReal) + w) + l) + r) + ((t : EReal) - w)) = ((((up : EReal) + t) + l) + r) := by
  rw [← EReal.coe_add, ← EReal.coe_add, ← EReal.coe_add, ← EReal.coe_sub, ← EReal.coe_add,
    ← EReal.coe_add, ← EReal.coe_add, ← EReal.coe_add]
  congr 1; ring

/-- On finite spins the tile's corrected neighbour sum is the lattice's wrap-around neighbour sum. -/
theorem nsumT_eq (x : ShX.Idx → EReal) (hx : ∀ q, ∃ v : ℝ, x q = (v : EReal)) (b ii : Fin 8) (a : Fin 256) (j : Fin 2048) :
    nsumT (tileOf x b ii) (topOf x b ii) (botOf x b ii) a j = nsum x b (rowOf ii a) j := by
  have hz : cZero = 0 := Ideal.ofBits_zero_f32
  have hs : ∀ i j', ∃ v : ℝ, spin x b i j' = (v : EReal) := fun i j' => hx _
  show ((((spin x b (rowOf ii (prevR a)) j + spin x b (rowOf ii (nextR a)) j) + spin x b (rowOf ii a) (prev j))
        + spin x b (rowOf ii a) (next j))
      + (if a.val = 0 then spin x b (haloRow (topBlk ii) (7 : Fin 8)) j - spin x b (rowOf ii (255 : Fin 256)) j else cZero))
    + (if a.val = 255 then spin x b (haloRow (botBlk ii) (0 : Fin 8)) j - spin x b (rowOf ii (0 : Fin 256)) j else cZero)
    = ((spin x b (prev (rowOf ii a)) j + spin x b (next (rowOf ii a)) j) + spin x b (rowOf ii a) (prev j))
        + spin x b (rowOf ii a) (next j)
  by_cases h0 : a.val = 0
  · -- the tile's first row: the cyclic predecessor is the tile's own last row, corrected by the row above
    have h255 : a.val ≠ 255 := by omega
    have ha : a = (0 : Fin 256) := Fin.ext h0
    subst ha
    have hp : prevR (0 : Fin 256) = (255 : Fin 256) := rfl
    rw [if_pos h0, if_neg h255, hz, add_zero, rowOf_nextR _ _ h255, haloRow_top, hp]
    obtain ⟨w, hw⟩ := hs (rowOf ii (255 : Fin 256)) j
    obtain ⟨dn, hdn⟩ := hs (next (rowOf ii (0 : Fin 256))) j
    obtain ⟨l, hl⟩ := hs (rowOf ii (0 : Fin 256)) (prev j)
    obtain ⟨r, hr⟩ := hs (rowOf ii (0 : Fin 256)) (next j)
    obtain ⟨t, ht⟩ := hs (prev (rowOf ii (0 : Fin 256))) j
    rw [hw, hdn, hl, hr, ht]
    exact edge_top_real w dn l r t
  · by_cases h255 : a.val = 255
    · -- the tile's last row: the cyclic successor is the tile's own first row, corrected by the row below
      have ha : a = (255 : Fin 256) := Fin.ext h255
      subst ha
      have hn : nextR (255 : Fin 256) = (0 : Fin 256) := rfl
      rw [if_neg h0, if_pos h255, hz, add_zero, rowOf_prevR _ _ h0, haloRow_bot, hn]
      obtain ⟨up, hup⟩ := hs (prev (rowOf ii (255 : Fin 256))) j
      obtain ⟨w, hw⟩ := hs (rowOf ii (0 : Fin 256)) j
      obtain ⟨l, hl⟩ := hs (rowOf ii (255 : Fin 256)) (prev j)
      obtain ⟨r, hr⟩ := hs (rowOf ii (255 : Fin 256)) (next j)
      obtain ⟨t, ht⟩ := hs (next (rowOf ii (255 : Fin 256))) j
      rw [hup, hw, hl, hr, ht]
      exact edge_bot_real up w l r t
    · -- an inner row: the cyclic neighbours within the tile are the lattice's, and both corrections are zero
      rw [if_neg h0, if_neg h255, hz, add_zero, add_zero, rowOf_prevR _ _ h0, rowOf_nextR _ _ h255]

theorem dET_eq (x : ShX.Idx → EReal) (hx : ∀ q, ∃ v : ℝ, x q = (v : EReal)) (b ii : Fin 8) (a : Fin 256) (j : Fin 2048) :
    dET (tileOf x b ii) (topOf x b ii) (botOf x b ii) a j = dE x b (rowOf ii a) j := by
  show (cTwo * spin x b (rowOf ii a) j) * nsumT (tileOf x b ii) (topOf x b ii) (botOf x b ii) a j
    = (cTwo * spin x b (rowOf ii a) j) * nsum x b (rowOf ii a) j
  rw [nsumT_eq x hx]

theorem stateT_eq (x : ShX.Idx → EReal) (r : ShR.Idx → EReal) (d : ShD.Idx → EReal) (hx : ∀ q, ∃ v : ℝ, x q = (v : EReal))
    (b ii : Fin 8) (ch : Fin 2) (a : Fin 256) (j : Fin 2048) :
    stateT (tileOf x b ii) (fieldOf x b ii) (topOf x b ii) (botOf x b ii) (drawOf r b ii) (maskOf d ii) ch a j
      = state4 x r d b ch (rowOf ii a) j := by
  unfold stateT state4 flip pAcc
  rw [dET_eq x hx]
  rfl

theorem partT_eq (x : ShX.Idx → EReal) (hx : ∀ q, ∃ v : ℝ, x q = (v : EReal)) (b ii : Fin 8) (k : Fin 8) (l : Fin 128) :
    partT (tileOf x b ii) (topOf x b ii) (botOf x b ii) k l = part4 x ii b k l := by
  unfold partT part4 ePart sPart
  simp only [dET_eq x hx]
  rfl

/-! ## The lattice sums from the tiles' parts -/

/-- The lattice's 2048 rows are the 256 rows of each of the 8 tiles. -/
def rowEquiv : Fin 8 × Fin 256 ≃ Fin 2048 where
  toFun p := rowOf p.1 p.2
  invFun i := (⟨i.val / 256, by have := i.isLt; omega⟩, ⟨i.val % 256, Nat.mod_lt _ (by decide)⟩)
  left_inv p := by
    obtain ⟨ii, a⟩ := p
    have := ii.isLt; have := a.isLt
    apply Prod.ext
    · apply Fin.ext; show (ii.val * 256 + a.val) / 256 = ii.val; omega
    · apply Fin.ext; show (ii.val * 256 + a.val) % 256 = a.val; omega
  right_inv i := by
    apply Fin.ext; show i.val / 256 * 256 + i.val % 256 = i.val; omega

/-- A sum over the lattice rows is the sum over the tiles of the sums over each tile's rows. -/
theorem sum_rows {M : Type*} [AddCommMonoid M] (f : Fin 2048 → M) :
    ∑ i, f i = ∑ ii : Fin 8, ∑ a : Fin 256, f (rowOf ii a) := by
  rw [← Equiv.sum_comp rowEquiv f, Fintype.sum_prod_type]
  rfl

/-- Entry (0, 0) of a tile's block of partial sums is its energy part, entry (0, 1) its spin part. -/
theorem Gpart_e (x : ShX.Idx → EReal) (ii b : Fin 8) :
    Gpart x (ix4 ii b (0 : Fin 8) (0 : Fin 128)) = ePart x ii b := by
  show (if (0 : Fin 8).val = 0 then (if (0 : Fin 128).val = 0 then ePart x ii b
    else if (0 : Fin 128).val = 1 then sPart x ii b else 0) else 0) = _
  rw [if_pos (show (0 : Fin 8).val = 0 from rfl), if_pos (show (0 : Fin 128).val = 0 from rfl)]

theorem Gpart_s (x : ShX.Idx → EReal) (ii b : Fin 8) :
    Gpart x (ix4 ii b (0 : Fin 8) (1 : Fin 128)) = sPart x ii b := by
  show (if (0 : Fin 8).val = 0 then (if (1 : Fin 128).val = 0 then ePart x ii b
    else if (1 : Fin 128).val = 1 then sPart x ii b else 0) else 0) = _
  rw [if_pos (show (0 : Fin 8).val = 0 from rfl), if_neg (show ¬ (1 : Fin 128).val = 0 by decide),
    if_pos (show (1 : Fin 128).val = 1 from rfl)]

theorem eOfPart_Gpart (x : ShX.Idx → EReal) (b : Fin 8) : eOfPart (Gpart x) b = eTot x b := by
  unfold eOfPart eTot
  rw [sum_rows (fun i => ∑ j : Fin 2048, cNegEighth * dE x b i j)]
  exact Finset.sum_congr rfl (fun ii _ => Gpart_e x ii b)

theorem sOfPart_Gpart (x : ShX.Idx → EReal) (b : Fin 8) : sOfPart (Gpart x) b = sTot x b := by
  unfold sOfPart sTot
  rw [sum_rows (fun i => ∑ j : Fin 2048, spin x b i j)]
  exact Finset.sum_congr rfl (fun ii _ => Gpart_s x ii b)

theorem obvsOfPart_Gpart (x : ShX.Idx → EReal) : obvsOfPart (Gpart x) = Gobvs x := by
  funext q
  obtain ⟨k, b, rfl⟩ : ∃ (k : Fin 4) (b : Fin 8), q = ix2 k b := ⟨q 0, q 1, eq_ix2 q⟩
  show obvsOfPart4 (Gpart x) k b = obvs4 x k b
  unfold obvsOfPart4 obvs4 mMean
  rw [eOfPart_Gpart, sOfPart_Gpart]

end Cert.Ising

end
-- ==== Proof.KI.Arrays.lean ====
/-
  From the tiles' blocks to the two result arrays: every grid point writes its own block of each result, the blocks
  fill the arrays, and on finite spins each block is the lattice quantity on that tile's rows.
-/
import proofs.«404182_j15599321219396_3_alg».proof.Proof.KI.Dat
import proofs.«404182_j15599321219396_3_alg».proof.Proof.KI.TileValue
import proofs.«404182_j15599321219396_3_alg».proof.Proof.TileAlgebra
import Idealize.ShloMosaic.Lib.Pipeline.Value

noncomputable section

open scoped BigOperators

namespace Cert.KernelIdeal.Hand

open Cert.KernelIdeal Cert.KernelIdeal.Gen Cert.Ising
open Idealize.ShloMosaic Idealize.ShloMosaic.ValueIdx Idealize.ShloMosaic.TcCoe Idealize.SL.Sem

open Idealize.ShloMosaic.Pipeline (Dat)

variable (V : (c : Dev nD) → (b : Ref sig .tc) → Buf (Elt Ideal) ((c : Thread nD τ).loc b))

/-! ## The index maps over the grid

Grid point `t` has a tile number (grid coordinate 0) and a lattice number (grid coordinate 1). The state window's block
index at `t` is (lattice, 0, tile, 0); every other window's block index is stated against it, once, over the 64 points. -/

/-- The state window's block index stays in range: lattice and tile below 8, the two other axes at block 0. -/
theorem idx_state : ∀ t : Fin cfg0.N,
    win0_6.index t (0 : Fin 4) ≤ 7 ∧ win0_6.index t (1 : Fin 4) = 0 ∧ win0_6.index t (2 : Fin 4) ≤ 7 ∧ win0_6.index t (3 : Fin 4) = 0 :=
  (by decide +kernel : ∀ t : Fin grid0.N, _)

/-- The spin tile, the field tile and the draws' tile sit where the state block sits (the field on channel 1). -/
theorem idx_tiles : ∀ t : Fin cfg0.N,
    win0_0.index t (0 : Fin 4) = win0_6.index t (0 : Fin 4) ∧ win0_0.index t (1 : Fin 4) = 0
    ∧ win0_0.index t (2 : Fin 4) = win0_6.index t (2 : Fin 4) ∧ win0_0.index t (3 : Fin 4) = 0
    ∧ win0_1.index t (0 : Fin 4) = win0_6.index t (0 : Fin 4) ∧ win0_1.index t (1 : Fin 4) = 1
    ∧ win0_1.index t (2 : Fin 4) = win0_6.index t (2 : Fin 4) ∧ win0_1.index t (3 : Fin 4) = 0
    ∧ win0_4.index t (0 : Fin 4) = win0_6.index t (0 : Fin 4) ∧ win0_4.index t (1 : Fin 4) = 0
    ∧ win0_4.index t (2 : Fin 4) = win0_6.index t (2 : Fin 4) ∧ win0_4.index t (3 : Fin 4) = 0 :=
  (by decide +kernel : ∀ t : Fin grid0.N, _)

/-- The two eight-row blocks: the one that ends just above the tile and the one that starts just below it, cyclically. -/
theorem idx_halos : ∀ t : Fin cfg0.N,
    win0_2.index t (0 : Fin 4) = win0_6.index t (0 : Fin 4) ∧ win0_2.index t (1 : Fin 4) = 0
    ∧ win0_2.index t (2 : Fin 4) = (win0_6.index t (2 : Fin 4) * 32 + 255) % 256 ∧ win0_2.index t (3 : Fin 4) = 0
    ∧ win0_3.index t (0 : Fin 4) = win0_6.index t (0 : Fin 4) ∧ win0_3.index t (1 : Fin 4) = 0
    ∧ win0_3.index t (2 : Fin 4) = ((win0_6.index t (2 : Fin 4) + 1) * 32) % 256 ∧ win0_3.index t (3 : Fin 4) = 0 :=
  (by decide +kernel : ∀ t : Fin grid0.N, _)

/-- The mask draws' block follows the tile only; the block of partial sums is numbered (tile, lattice). -/
theorem idx_mask_part : ∀ t : Fin cfg0.N,
    win0_5.index t (0 : Fin 2) = win0_6.index t (2 : Fin 4) ∧ win0_5.index t (1 : Fin 2) = 0
    ∧ win0_7.index t (0 : Fin 4) = win0_6.index t (2 : Fin 4) ∧ win0_7.index t (1 : Fin 4) = win0_6.index t (0 : Fin 4)
    ∧ win0_7.index t (2 : Fin 4) = 0 ∧ win0_7.index t (3 : Fin 4) = 0 :=
  (by decide +kernel : ∀ t : Fin grid0.N, _)

/-- Every (lattice, tile) pair is some grid point's. -/
theorem idx_onto : ∀ (b ii : Fin 8), ∃ t : Fin cfg0.N, win0_6.index t (0 : Fin 4) = b.val ∧ win0_6.index t (2 : Fin 4) = ii.val :=
  (by decide +kernel : ∀ (b ii : Fin 8), ∃ t : Fin grid0.N, win0_6.index t (0 : Fin 4) = b.val ∧ win0_6.index t (2 : Fin 4) = ii.val)

/-- The lattice and the tile of grid point `t`. -/
def latOf (t : Fin cfg0.N) : Fin 8 := ⟨win0_6.index t (0 : Fin 4), Nat.lt_succ_of_le (idx_state t).1⟩
def tileNo (t : Fin cfg0.N) : Fin 8 := ⟨win0_6.index t (2 : Fin 4), Nat.lt_succ_of_le (idx_state t).2.2.1⟩

theorem latOf_val (t : Fin cfg0.N) : (latOf t).val = win0_6.index t (0 : Fin 4) := rfl
theorem tileNo_val (t : Fin cfg0.N) : (tileNo t).val = win0_6.index t (2 : Fin 4) := rfl

/-! ## Each input block, read off its array where the point's rectangle says

A block's coordinate in its array is always block index × block size + the coordinate inside the block. -/

/-- The spin tile: lattice `latOf t`, channel 0, the tile's rows. -/
theorem spinBlk_apply (c : Dev nD) (t : Fin cfg0.N) (a : Fin 256) (j : Fin 2048) :
    (iblk V c 0 t : ShB.Idx → EReal) (ix4 (0 : Fin 1) (0 : Fin 1) a j)
      = (V c main_arg0 : ShX.Idx → EReal) (ix4 (latOf t) (0 : Fin 2) (rowOf (tileNo t) a) j) := by
  obtain ⟨e0, e1, e2, e3, -⟩ := idx_tiles t
  unfold iblk
  rw [View.read_apply]
  show V c main_arg0 _ = V c main_arg0 _
  congr 1
  funext k
  apply Fin.ext
  match k with
  | ⟨0, _⟩ => show win0_0.index t (0 : Fin 4) * 1 + 1 * 0 = win0_6.index t (0 : Fin 4); omega
  | ⟨1, _⟩ => show win0_0.index t (1 : Fin 4) * 1 + 1 * 0 = 0; omega
  | ⟨2, _⟩ => show win0_0.index t (2 : Fin 4) * 256 + 1 * a.val = win0_6.index t (2 : Fin 4) * 256 + a.val; omega
  | ⟨3, _⟩ => show win0_0.index t (3 : Fin 4) * 2048 + 1 * j.val = j.val; omega

/-- The field tile: the same rows on channel 1. -/
theorem fieldBlk_apply (c : Dev nD) (t : Fin cfg0.N) (a : Fin 256) (j : Fin 2048) :
    (iblk V c 1 t : ShB.Idx → EReal) (ix4 (0 : Fin 1) (0 : Fin 1) a j)
      = (V c main_arg0 : ShX.Idx → EReal) (ix4 (latOf t) (1 : Fin 2) (rowOf (tileNo t) a) j) := by
  obtain ⟨-, -, -, -, e0, e1, e2, e3, -⟩ := idx_tiles t
  unfold iblk
  rw [View.read_apply]
  show V c main_arg0 _ = V c main_arg0 _
  congr 1
  funext k
  apply Fin.ext
  match k with
  | ⟨0, _⟩ => show win0_1.index t (0 : Fin 4) * 1 + 1 * 0 = win0_6.index t (0 : Fin 4); omega
  | ⟨1, _⟩ => show win0_1.index t (1 : Fin 4) * 1 + 1 * 0 = 1; omega
  | ⟨2, _⟩ => show win0_1.index t (2 : Fin 4) * 256 + 1 * a.val = win0_6.index t (2 : Fin 4) * 256 + a.val; omega
  | ⟨3, _⟩ => show win0_1.index t (3 : Fin 4) * 2048 + 1 * j.val = j.val; omega

/-- The eight rows that end just above the tile. -/
theorem topBlk_apply (c : Dev nD) (t : Fin cfg0.N) (k : Fin 8) (j : Fin 2048) :
    (iblk V c 2 t : ShHB.Idx → EReal) (ix4 (0 : Fin 1) (0 : Fin 1) k j)
      = (V c main_arg0 : ShX.Idx → EReal) (ix4 (latOf t) (0 : Fin 2) (haloRow (topBlk (tileNo t)) k) j) := by
  obtain ⟨e0, e1, e2, e3, -⟩ := idx_halos t
  unfold iblk
  rw [View.read_apply]
  show V c main_arg0 _ = V c main_arg0 _
  congr 1
  funext d
  apply Fin.ext
  match d with
  | ⟨0, _⟩ => show win0_2.index t (0 : Fin 4) * 1 + 1 * 0 = win0_6.index t (0 : Fin 4); omega
  | ⟨1, _⟩ => show win0_2.index t (1 : Fin 4) * 1 + 1 * 0 = 0; omega
  | ⟨2, _⟩ => show win0_2.index t (2 : Fin 4) * 8 + 1 * k.val = (win0_6.index t (2 : Fin 4) * 32 + 255) % 256 * 8 + k.val; omega
  | ⟨3, _⟩ => show win0_2.index t (3 : Fin 4) * 2048 + 1 * j.val = j.val; omega

/-- The eight rows that start just below the tile. -/
theorem botBlk_apply (c : Dev nD) (t : Fin cfg0.N) (k : Fin 8) (j : Fin 2048) :
    (iblk V c 3 t : ShHB.Idx → EReal) (ix4 (0 : Fin 1) (0 : Fin 1) k j)
      = (V c main_arg0 : ShX.Idx → EReal) (ix4 (latOf t) (0 : Fin 2) (haloRow (botBlk (tileNo t)) k) j) := by
  obtain ⟨-, -, -, -, e0, e1, e2, e3⟩ := idx_halos t
  unfold iblk
  rw [View.read_apply]
  show V c main_arg0 _ = V c main_arg0 _
  congr 1
  funext d
  apply Fin.ext
  match d with
  | ⟨0, _⟩ => show win0_3.index t (0 : Fin 4) * 1 + 1 * 0 = win0_6.index t (0 : Fin 4); omega
  | ⟨1, _⟩ => show win0_3.index t (1 : Fin 4) * 1 + 1 * 0 = 0; omega
  | ⟨2, _⟩ => show win0_3.index t (2 : Fin 4) * 8 + 1 * k.val = (win0_6.index t (2 : Fin 4) + 1) * 32 % 256 * 8 + k.val; omega
  | ⟨3, _⟩ => show win0_3.index t (3 : Fin 4) * 2048 + 1 * j.val = j.val; omega

/-- The uniform draws on the tile's rows. -/
theorem drawBlk_apply (c : Dev nD) (t : Fin cfg0.N) (a : Fin 256) (j : Fin 2048) :
    (iblk V c 4 t : ShB.Idx → EReal) (ix4 (0 : Fin 1) (0 : Fin 1) a j)
      = (V c main_arg1 : ShR.Idx → EReal) (ix4 (latOf t) (0 : Fin 1) (rowOf (tileNo t) a) j) := by
  obtain ⟨-, -, -, -, -, -, -, -, e0, e1, e2, e3⟩ := idx_tiles t
  unfold iblk
  rw [View.read_apply]
  show V c main_arg1 _ = V c main_arg1 _
  congr 1
  funext k
  apply Fin.ext
  match k with
  | ⟨0, _⟩ => show win0_4.index t (0 : Fin 4) * 1 + 1 * 0 = win0_6.index t (0 : Fin 4); omega
  | ⟨1, _⟩ => show win0_4.index t (1 : Fin 4) * 1 + 1 * 0 = 0; omega
  | ⟨2, _⟩ => show win0_4.index t (2 : Fin 4) * 256 + 1 * a.val = win0_6.index t (2 : Fin 4) * 256 + a.val; omega
  | ⟨3, _⟩ => show win0_4.index t (3 : Fin 4) * 2048 + 1 * j.val = j.val; omega

/-- The mask draws on the tile's rows. -/
theorem maskBlk_apply (c : Dev nD) (t : Fin cfg0.N) (a : Fin 256) (j : Fin 2048) :
    (iblk V c 5 t : ShT.Idx → EReal) (ix2 a j) = (V c main_arg2 : ShD.Idx → EReal) (ix2 (rowOf (tileNo t) a) j) := by
  obtain ⟨e0, e1, -⟩ := idx_mask_part t
  unfold iblk
  rw [View.read_apply]
  show V c main_arg2 _ = V c main_arg2 _
  congr 1
  funext k
  apply Fin.ext
  match k with
  | ⟨0, _⟩ => show win0_5.index t (0 : Fin 2) * 256 + 1 * a.val = win0_6.index t (2 : Fin 4) * 256 + a.val; omega
  | ⟨1, _⟩ => show win0_5.index t (1 : Fin 2) * 2048 + 1 * j.val = j.val; omega

/-- So the six blocks at point `t` are the lattice's tile, field, upper and lower rows, draws and mask of `t`'s
    lattice and tile. -/
theorem spinBlk_eq (c : Dev nD) (t : Fin cfg0.N) : asTile (iblk V c 0 t) = tileOf (V c main_arg0) (latOf t) (tileNo t) :=
  funext fun q => spinBlk_apply V c t (q 0) (q 1)
theorem fieldBlk_eq (c : Dev nD) (t : Fin cfg0.N) : asTile (iblk V c 1 t) = fieldOf (V c main_arg0) (latOf t) (tileNo t) :=
  funext fun q => fieldBlk_apply V c t (q 0) (q 1)
theorem topBlk_eq (c : Dev nD) (t : Fin cfg0.N) : asHalo (iblk V c 2 t) = topOf (V c main_arg0) (latOf t) (tileNo t) :=
  funext fun q => topBlk_apply V c t (q 0) (q 1)
theorem botBlk_eq (c : Dev nD) (t : Fin cfg0.N) : asHalo (iblk V c 3 t) = botOf (V c main_arg0) (latOf t) (tileNo t) :=
  funext fun q => botBlk_apply V c t (q 0) (q 1)
theorem drawBlk_eq (c : Dev nD) (t : Fin cfg0.N) : asTile (iblk V c 4 t) = drawOf (V c main_arg1) (latOf t) (tileNo t) :=
  funext fun q => drawBlk_apply V c t (q 0) (q 1)
theorem maskBlk_eq (c : Dev nD) (t : Fin cfg0.N) : (iblk V c 5 t : ShT.Idx → EReal) = maskOf (V c main_arg2) (tileNo t) :=
  funext fun q => (congrArg (iblk V c 5 t : ShT.Idx → EReal) (eq_ix2 q)).trans (maskBlk_apply V c t (q 0) (q 1))

/-! ## What a point writes back, as a block of the whole-array functions

Stated first over blocks and indices of the literal shapes, with the index's coordinates as hypotheses. -/

/-- The state block of a point whose six blocks are lattice `b`'s on tile `ii`, at a block entry `y` that sits in the
    array at `i` = (b, y's channel, tile row, column), is the new state there. -/
theorem stateBlk_at (X : ShX.Idx → EReal) (R : ShR.Idx → EReal) (D : ShD.Idx → EReal) (hX : ∀ q, ∃ v : ℝ, X q = (v : EReal))
    (xs xf : Vec Ideal S1x1x256x2048 .f32) (xt xb : Vec Ideal S1x1x8x2048 .f32) (xu : Vec Ideal S1x1x256x2048 .f32)
    (xm : Vec Ideal S256x2048 .f32) (b ii : Fin 8)
    (hs : asTile xs = tileOf X b ii) (hf : asTile xf = fieldOf X b ii) (ht : asHalo xt = topOf X b ii)
    (hb : asHalo xb = botOf X b ii) (hu : asTile xu = drawOf R b ii) (hm : (xm : ShT.Idx → EReal) = maskOf D ii)
    (y : ShSB.Idx) (i : ShX.Idx) (h0 : (i 0).val = b.val) (h1 : (i 1).val = (y 1).val)
    (h2 : (i 2).val = ii.val * 256 + (y 2).val) (h3 : (i 3).val = (y 3).val) :
    stateBlk (F := Ideal) xs xf xt xb xu xm y = Gstate X R D i := by
  obtain ⟨z, ch, a, j, rfl⟩ : ∃ (z : Fin 1) (ch : Fin 2) (a : Fin 256) (j : Fin 2048), y = ix4 z ch a j :=
    ⟨y 0, y 1, y 2, y 3, eq_ix4 y⟩
  obtain rfl : z = 0 := Subsingleton.elim _ _
  have hi : i = ix4 b ch (rowOf ii a) j := by
    rw [eq_ix4 i]
    congr 1
    · exact Fin.ext h0
    · exact Fin.ext h1
    · exact Fin.ext h2
    · exact Fin.ext h3
  rw [stateBlk_apply, hs, hf, ht, hb, hu, hm, stateT_eq X R D hX, hi]
  rfl

/-- The block of partial sums of such a point, at a block entry `y` that sits in the array at `i` = (ii, b, y's last two
    coordinates), is the partial-sum array there. -/
theorem partBlk_at (X : ShX.Idx → EReal) (hX : ∀ q, ∃ v : ℝ, X q = (v : EReal))
    (xs : Vec Ideal S1x1x256x2048 .f32) (xt xb : Vec Ideal S1x1x8x2048 .f32) (b ii : Fin 8)
    (hs : asTile xs = tileOf X b ii) (ht : asHalo xt = topOf X b ii) (hb : asHalo xb = botOf X b ii)
    (y : ShPB.Idx) (i : ShP.Idx) (h0 : (i 0).val = ii.val) (h1 : (i 1).val = b.val)
    (h2 : (i 2).val = (y 2).val) (h3 : (i 3).val = (y 3).val) :
    partBlk (F := Ideal) xs xt xb y = Gpart X i := by
  obtain ⟨z, z', k, l, rfl⟩ : ∃ (z z' : Fin 1) (k : Fin 8) (l : Fin 128), y = ix4 z z' k l :=
    ⟨y 0, y 1, y 2, y 3, eq_ix4 y⟩
  obtain rfl : z = 0 := Subsingleton.elim _ _
  obtain rfl : z' = 0 := Subsingleton.elim _ _
  have hi : i = ix4 ii b k l := by
    rw [eq_ix4 i]
    congr 1
    · exact Fin.ext h0
    · exact Fin.ext h1
    · exact Fin.ext h2
    · exact Fin.ext h3
  rw [partBlk_apply, hs, ht, hb, partT_eq X hX, hi]
  rfl

/-- WHAT POINT `t` WRITES BACK to the state array is block `t` of the new state of the argument arrays. -/
theorem flushed_state (c : Dev nD) (hx : ∀ q, ∃ v : ℝ, (V c main_arg0 : ShX.Idx → EReal) q = (v : EReal)) (t : Fin cfg0.N) :
    (dat0 (F := Ideal) V c).flushed 6 t
      = ((cfg0.win 6).blk t).view.read (Elt Ideal) (Gstate (V c main_arg0) (V c main_arg1) (V c main_arg2)) := by
  show (cfg0.win 6).cut (grid0.coords t) ((dat0 V c).after 6 t) = _
  rw [after_state]
  funext y
  rw [View.read_apply]
  show stateAt V c t y = Gstate (V c main_arg0) (V c main_arg1) (V c main_arg2) (((cfg0.win 6).blk t).view.emb y)
  obtain ⟨s0, s1, s2, s3⟩ := idx_state t
  have y0 : (y 0).val < 1 := (y 0).isLt
  have y1 : (y 1).val < 2 := (y 1).isLt
  unfold stateAt
  refine stateBlk_at _ _ _ hx _ _ _ _ _ _ (latOf t) (tileNo t) (spinBlk_eq V c t) (fieldBlk_eq V c t) (topBlk_eq V c t)
    (botBlk_eq V c t) (drawBlk_eq V c t) (maskBlk_eq V c t) y _ ?_ ?_ ?_ ?_
  · show win0_6.index t (0 : Fin 4) * 1 + 1 * (y 0).val = win0_6.index t (0 : Fin 4); omega
  · show win0_6.index t (1 : Fin 4) * 2 + 1 * (y 1).val = (y 1).val; omega
  · show win0_6.index t (2 : Fin 4) * 256 + 1 * (y 2).val = win0_6.index t (2 : Fin 4) * 256 + (y 2).val; omega
  · show win0_6.index t (3 : Fin 4) * 2048 + 1 * (y 3).val = (y 3).val; omega

/-- WHAT POINT `t` WRITES BACK to the array of partial sums is block `t` of the partial sums of the spins. -/
theorem flushed_part (c : Dev nD) (hx : ∀ q, ∃ v : ℝ, (V c main_arg0 : ShX.Idx → EReal) q = (v : EReal)) (t : Fin cfg0.N) :
    (dat0 (F := Ideal) V c).flushed 7 t = ((cfg0.win 7).blk t).view.read (Elt Ideal) (Gpart (V c main_arg0)) := by
  show (cfg0.win 7).cut (grid0.coords t) ((dat0 V c).after 7 t) = _
  rw [after_part]
  funext y
  rw [View.read_apply]
  show partAt V c t y = Gpart (V c main_arg0) (((cfg0.win 7).blk t).view.emb y)
  obtain ⟨-, -, e0, e1, e2, e3⟩ := idx_mask_part t
  have y0 : (y 0).val < 1 := (y 0).isLt
  have y1 : (y 1).val < 1 := (y 1).isLt
  unfold partAt
  refine partBlk_at _ hx _ _ _ (latOf t) (tileNo t) (spinBlk_eq V c t) (topBlk_eq V c t) (botBlk_eq V c t) y _ ?_ ?_ ?_ ?_
  · show win0_7.index t (0 : Fin 4) * 1 + 1 * (y 0).val = win0_6.index t (2 : Fin 4); omega
  · show win0_7.index t (1 : Fin 4) * 1 + 1 * (y 1).val = win0_6.index t (0 : Fin 4); omega
  · show win0_7.index t (2 : Fin 4) * 8 + 1 * (y 2).val = (y 2).val; omega
  · show win0_7.index t (3 : Fin 4) * 128 + 1 * (y 3).val = (y 3).val; omega

/-! ## The blocks fill the arrays -/

/-- An index of the state array is in point `t`'s block iff each coordinate is in the block's range on its axis. -/
theorem mem_blk_state (t : Fin cfg0.N) (i : ShX.Idx) :
    i ∈ ((cfg0.win 6).blk t).view.set ↔ ∀ a : Fin 4, win0_6.index t a * S1x2x256x2048.size a ≤ (i a).val
      ∧ (i a).val < win0_6.index t a * S1x2x256x2048.size a + S1x2x256x2048.size a := by
  show i ∈ ((View.whole main_v0_0).slice (win0_6.rect t)).set ↔ _
  rw [View.set_slice_whole, Rect.mem_set_unit]
  exact Iff.rfl

theorem mem_blk_part (t : Fin cfg0.N) (i : ShP.Idx) :
    i ∈ ((cfg0.win 7).blk t).view.set ↔ ∀ a : Fin 4, win0_7.index t a * S1x1x8x128.size a ≤ (i a).val
      ∧ (i a).val < win0_7.index t a * S1x1x8x128.size a + S1x1x8x128.size a := by
  show i ∈ ((View.whole main_v0_1).slice (win0_7.rect t)).set ↔ _
  rw [View.set_slice_whole, Rect.mem_set_unit]
  exact Iff.rfl

/-- Entry (b, ch, r, j) of the state array is in the block of the point of lattice `b` and tile `r / 256`. -/
theorem state_blocks_fill (i : ShX.Idx) : ∃ t : Fin cfg0.N, (cfg0.win 6).flush t = true ∧ i ∈ ((cfg0.win 6).blk t).view.set := by
  have h0 : (i 0).val < 8 := (i 0).isLt
  have h1 : (i 1).val < 2 := (i 1).isLt
  have h2 : (i 2).val < 2048 := (i 2).isLt
  have h3 : (i 3).val < 2048 := (i 3).isLt
  obtain ⟨t, ht0, ht2⟩ := idx_onto ⟨(i 0).val, h0⟩ ⟨(i 2).val / 256, by omega⟩
  have ht0' : win0_6.index t (0 : Fin 4) = (i 0).val := ht0
  have ht2' : win0_6.index t (2 : Fin 4) = (i 2).val / 256 := ht2
  obtain ⟨-, s1, -, s3⟩ := idx_state t
  refine ⟨t, flush0_6 t, ?_⟩
  rw [mem_blk_state]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 2 ≤ (i 1).val ∧ (i 1).val < win0_6.index t (1 : Fin 4) * 2 + 2; omega
  | ⟨2, _⟩ => show win0_6.index t (2 : Fin 4) * 256 ≤ (i 2).val ∧ (i 2).val < win0_6.index t (2 : Fin 4) * 256 + 256; omega
  | ⟨3, _⟩ => show win0_6.index t (3 : Fin 4) * 2048 ≤ (i 3).val ∧ (i 3).val < win0_6.index t (3 : Fin 4) * 2048 + 2048; omega

/-- Entry (ii, b, k, l) of the array of partial sums is in the block of the point of tile `ii` and lattice `b`. -/
theorem part_blocks_fill (i : ShP.Idx) : ∃ t : Fin cfg0.N, (cfg0.win 7).flush t = true ∧ i ∈ ((cfg0.win 7).blk t).view.set := by
  have h0 : (i 0).val < 8 := (i 0).isLt
  have h1 : (i 1).val < 8 := (i 1).isLt
  have h2 : (i 2).val < 8 := (i 2).isLt
  have h3 : (i 3).val < 128 := (i 3).isLt
  obtain ⟨t, ht0, ht2⟩ := idx_onto ⟨(i 1).val, h1⟩ ⟨(i 0).val, h0⟩
  have ht0' : win0_6.index t (0 : Fin 4) = (i 1).val := ht0
  have ht2' : win0_6.index t (2 : Fin 4) = (i 0).val := ht2
  obtain ⟨-, -, e0, e1, e2, e3⟩ := idx_mask_part t
  refine ⟨t, flush0_7 t, ?_⟩
  rw [mem_blk_part]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 8 ≤ (i 2).val ∧ (i 2).val < win0_7.index t (2 : Fin 4) * 8 + 8; omega
  | ⟨3, _⟩ => show win0_7.index t (3 : Fin 4) * 128 ≤ (i 3).val ∧ (i 3).val < win0_7.index t (3 : Fin 4) * 128 + 128; omega

/-! ## The two result arrays after the run -/

theorem final_state (c : Dev nD) (hx : ∀ q, ∃ v : ℝ, (V c main_arg0 : ShX.Idx → EReal) q = (v : EReal)) :
    ((dat0 (F := Ideal) V c).arrAt 6 cfg0.N : ShX.Idx → EReal) = Gstate (V c main_arg0) (V c main_arg1) (V c main_arg2) := by
  exact (dat0 (F := Ideal) V c).arrAt_eq_of_cover 6 (Gstate (V c main_arg0) (V c main_arg1) (V c main_arg2))
    (fun t _ => flushed_state V c hx t) state_blocks_fill

theorem final_part (c : Dev nD) (hx : ∀ q, ∃ v : ℝ, (V c main_arg0 : ShX.Idx → EReal) q = (v : EReal)) :
    ((dat0 (F := Ideal) V c).arrAt 7 cfg0.N : ShP.Idx → EReal) = Gpart (V c main_arg0) := by
  exact (dat0 (F := Ideal) V c).arrAt_eq_of_cover 7 (Gpart (V c main_arg0)) (fun t _ => flushed_part V c hx t) part_blocks_fill

end Cert.KernelIdeal.Hand

end
-- ==== Proof.KI.Tail.lean ====
/-
  The closing host operations: they read the array of partial sums, add the tiles' parts per lattice and form the four
  observables (that they write none of the arguments and neither of the region's two result arrays is the imported module's).
-/
import proofs.«404182_j15599321219396_3_alg».proof.Proof.Gen.KernelIdeal.Launch
import proofs.«404182_j15599321219396_3_alg».proof.Proof.Spec
import proofs.«404182_j15599321219396_3_alg».proof.Proof.KI.TailKeeps
import Idealize.ShloMosaic.Lib.StableHlo.Run
import Idealize.ShloMosaic.PureOps.Ideal.Laws
import Idealize.ShloMosaic.Lib.IdealHost
import Idealize.ShloMosaic.Lib.Pipeline.Value

noncomputable section

open scoped BigOperators

namespace Cert.KernelIdeal.Hand

open Cert.KernelIdeal Cert.KernelIdeal.Gen Cert.Ising
open Idealize.ShloMosaic Idealize.ShloMosaic.ValueIdx Idealize.ShloMosaic.TcCoe Idealize.SL.Sem

/-! ## The composed term -/

/-- Lane `off 3` of row 0 of the partial sums, added over the tiles from zero, per lattice. -/
abbrev tailLaneSum (P : FVec Ideal S8x8x8x128 .f32) (off : Fin 4 → Nat) (h : S8x8x8x128.Slices off S8x8x1x1) :
    FVec Ideal S8 .f32 :=
  Host.reduceAdd (shapeCast S8x8 (extractStridedSlice S8x8x1x1 off P h) shapeCasts_S8x8x1x1_S8x8)
    (constant (F := Ideal) S_ .f32 0x00000000#32) reducesTo_S8x8_S8_d0 h_S_

/-- The energy per lattice (lane 0) and the spin sum per lattice (lane 1). -/
abbrev tailE (P : FVec Ideal S8x8x8x128 .f32) : FVec Ideal S8 .f32 :=
  tailLaneSum P ![0, 0, 0, 0] slices_S8x8x8x128_S8x8x1x1_0_0_0_0
abbrev tailS (P : FVec Ideal S8x8x8x128 .f32) : FVec Ideal S8 .f32 :=
  tailLaneSum P ![0, 0, 0, 1] slices_S8x8x8x128_S8x8x1x1_0_0_0_1

/-- The mean spin per lattice: the spin sum over the number of sites. -/
abbrev tailM (P : FVec Ideal S8x8x8x128 .f32) : FVec Ideal S8 .f32 :=
  Host.divf (tailS P) (broadcastInDim S8 ![] bcast_S_S8 (constant (F := Ideal) S_ .f32 0x4A800000#32))

/-- A vector of eight as a one-row matrix. -/
abbrev tailUp (v : FVec Ideal S8 .f32) : FVec Ideal S1x8 .f32 := broadcastInDim S1x8 ![1] bcast_S8_S1x8_1 v

/-- The four rows: energy, its square, |mean spin|, its square. -/
abbrev tailRows (P : FVec Ideal S8x8x8x128 .f32) : List ((s : Shape) × (s.Idx → Ideal .f32)) :=
  [⟨S1x8, tailUp (tailE P)⟩, ⟨S1x8, tailUp (mulf (tailE P) (tailE P))⟩, ⟨S1x8, tailUp (Host.absf (tailM P))⟩,
    ⟨S1x8, tailUp (mulf (tailM P) (tailM P))⟩]

abbrev tailTerm (P : FVec Ideal S8x8x8x128 .f32) : FVec Ideal S4x8 .f32 :=
  concatenate S4x8 0 (tailRows P) concatenates_S1x8_S1x8_S1x8_S1x8_S4x8_d0

/-! ## The term read at an index -/

/-- The sum over the tiles at lattice `b`: the initial value is zero, entry (ii, b) of the reshaped [8,8] array is entry
    (ii, b, 0, 0) of the slice (same row-major position), and that is entry (ii, b, 0, l) of the partial sums. -/
theorem tailLaneSum_apply (P : FVec Ideal S8x8x8x128 .f32) (off : Fin 4 → Nat) (h : S8x8x8x128.Slices off S8x8x1x1)
    (l : Fin 128) (h0 : off 0 = 0) (h1 : off 1 = 0) (h2 : off 2 = 0) (h3 : off 3 = l.val) (b : Fin 8) :
    tailLaneSum P off h (ix1 b) = ∑ ii : Fin 8, P (ix4 ii b (0 : Fin 8) l) := by
  show Host.reduceAdd _ _ reducesTo_S8x8_S8_d0 h_S_ (ix1 b) = _
  rw [hostReduceAdd_apply, Ideal.hostReduceAdd_single reducesTo_S8x8_S8_d0 (by decide : S8x8.Reduces [0] S8)]
  rw [constant_apply, Ideal.ofBits_zero_f32, zero_add]
  refine Finset.sum_congr rfl fun ii _ => ?_
  refine (shapeCast_apply _ _ _ (ix4 ii b (0 : Fin 1) (0 : Fin 1)) ?_).trans ?_
  · rw [Shape.rowMajor_val_two, Shape.rowMajor_val_four]
    show ((ii.val * 8 + b.val) * 1 + 0) * 1 + 0 = ii.val * 8 + b.val
    omega
  · refine extractStridedSlice_apply off P h _ _ fun a => ?_
    match a with
    | ⟨0, _⟩ => show ii.val = off 0 + ii.val; omega
    | ⟨1, _⟩ => show b.val = off 1 + b.val; omega
    | ⟨2, _⟩ => show 0 = off 2 + 0; omega
    | ⟨3, _⟩ => show l.val = off 3 + 0; omega

theorem tailE_apply (P : FVec Ideal S8x8x8x128 .f32) (b : Fin 8) : tailE P (ix1 b) = eOfPart P b :=
  tailLaneSum_apply P _ _ (0 : Fin 128) rfl rfl rfl rfl b

theorem tailS_apply (P : FVec Ideal S8x8x8x128 .f32) (b : Fin 8) : tailS P (ix1 b) = sOfPart P b :=
  tailLaneSum_apply P _ _ (1 : Fin 128) rfl rfl rfl rfl b

/-- The mean spin at lattice `b`: the quotient of the elements, the divisor the broadcast scalar. -/
theorem tailM_apply (P : FVec Ideal S8x8x8x128 .f32) (b : Fin 8) :
    tailM P (ix1 b) = Ideal.div (sOfPart P b) cCount := by
  show Host.divf _ _ (ix1 b) = _
  rw [hostDivf_apply, tailS_apply, broadcastInDim_scalar_apply, constant_apply]

theorem tailUp_apply (v : FVec Ideal S8 .f32) (k : Fin 1) (b : Fin 8) : tailUp v (ix2 k b) = v (ix1 b) :=
  broadcastInDim_apply _ _ v (ix2 k b) (ix1 b) fun a => by
    match a with
    | ⟨0, _⟩ => rfl

/-- Row `k` of the concatenation is the `k`-th of the four one-row pieces (each of extent 1 along axis 0), read at its
    row 0 and the same column. -/
theorem tailTerm_apply (P : FVec Ideal S8x8x8x128 .f32) (k : Fin 4) (b : Fin 8) :
    tailTerm P (ix2 k b) = obvsOfPart4 P k b := by
  match k with
  | ⟨0, _⟩ =>
    refine (concatenate_apply_piece (t := S4x8) (0 : Fin 2) (tailRows P) concatenates_S1x8_S1x8_S1x8_S1x8_S4x8_d0 (ix2 _ b)
      0 (show 0 < 4 by decide) S1x8 _ rfl rfl 0 rfl (ix2 (0 : Fin 1) b) (fun c hc => ?_) rfl).trans ?_
    · match c with
      | ⟨0, _⟩ => exact absurd rfl hc
      | ⟨1, _⟩ => rfl
    · rw [tailUp_apply, tailE_apply]
      rfl
  | ⟨1, _⟩ =>
    refine (concatenate_apply_piece (t := S4x8) (0 : Fin 2) (tailRows P) concatenates_S1x8_S1x8_S1x8_S1x8_S4x8_d0 (ix2 _ b)
      1 (show 1 < 4 by decide) S1x8 _ rfl rfl 1 rfl (ix2 (0 : Fin 1) b) (fun c hc => ?_) rfl).trans ?_
    · match c with
      | ⟨0, _⟩ => exact absurd rfl hc
      | ⟨1, _⟩ => rfl
    · rw [tailUp_apply, mulf_apply, tailE_apply]
      rfl
  | ⟨2, _⟩ =>
    refine (concatenate_apply_piece (t := S4x8) (0 : Fin 2) (tailRows P) concatenates_S1x8_S1x8_S1x8_S1x8_S4x8_d0 (ix2 _ b)
      2 (show 2 < 4 by decide) S1x8 _ rfl rfl 2 rfl (ix2 (0 : Fin 1) b) (fun c hc => ?_) rfl).trans ?_
    · match c with
      | ⟨0, _⟩ => exact absurd rfl hc
      | ⟨1, _⟩ => rfl
    · rw [tailUp_apply]; show max (tailM P (ix1 b)) (-(tailM P (ix1 b))) = _; rw [tailM_apply]
      rfl
  | ⟨3, _⟩ =>
    refine (concatenate_apply_piece (t := S4x8) (0 : Fin 2) (tailRows P) concatenates_S1x8_S1x8_S1x8_S1x8_S4x8_d0 (ix2 _ b)
      3 (show 3 < 4 by decide) S1x8 _ rfl rfl 3 rfl (ix2 (0 : Fin 1) b) (fun c hc => ?_) rfl).trans ?_
    · match c with
      | ⟨0, _⟩ => exact absurd rfl hc
      | ⟨1, _⟩ => rfl
    · rw [tailUp_apply, mulf_apply, tailM_apply]
      rfl

/-! ## The operations' result is that term -/

/-- The result array after the nineteen operations is the composed term of the partial sums: each operation's value at
    its own result, the earlier contents at every other array. -/
theorem tail_term (W : Valuation τ sig (Elt Ideal)) :
    (StableHlo.after (hostOps1 (F := Ideal)) W (Proc.devRef .tc main_v16) : FVec Ideal S4x8 .f32)
      = tailTerm (W (Proc.devRef .tc main_v0_1)) := by
  dsimp only [hostOps1]
  simp only [StableHlo.after_cons, StableHlo.after_nil]
  rw [StableHlo.nary4_result]
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rfl

theorem tail_obvs (W : Valuation τ sig (Elt Ideal)) :
    (StableHlo.after (hostOps1 (F := Ideal)) W (Proc.devRef .tc main_v16) : ShO.Idx → EReal)
      = obvsOfPart (W (Proc.devRef .tc main_v0_1)) := by
  refine (tail_term W).trans ?_
  funext q
  exact (congrArg (tailTerm (W (Proc.devRef .tc main_v0_1))) (eq_ix2 q)).trans
    (tailTerm_apply (W (Proc.devRef .tc main_v0_1)) (q 0) (q 1))

end Cert.KernelIdeal.Hand

end
-- ==== Proof.RefState.lean ====
/-
  The reference's new state is the lattice sweep of Spec.lean, site by site.
-/
import proofs.«404182_j15599321219396_3_alg».proof.Proof.Gen.ReferenceIdeal.Read
import proofs.«404182_j15599321219396_3_alg».proof.Proof.Spec
import Idealize.ShloMosaic.Lib.ValueIdx
import Idealize.ShloMosaic.Lib.Pipeline.Value

noncomputable section

open scoped BigOperators

namespace Cert.RefValue

open Cert.ReferenceIdeal Cert.ReferenceIdeal.Gen Cert.ReferenceIdeal.Read Cert.Ising
open Idealize.ShloMosaic Idealize.ShloMosaic.ValueIdx Idealize.ShloMosaic.TcCoe Idealize.SL.Sem Idealize.ShloMosaic.StableHlo

/-- The spin slice of the argument at a site is the spin of Spec.lean. -/
theorem v0_at (x0 : (⟨S8x2x2048x2048, .f32⟩ : BufTy).Contents (Elt Ideal)) (b : Fin 8) (i j : Fin 2048) :
    val_main_v0 (F := Ideal) x0 (ix4 b (0 : Fin 1) i j) = spin x0 b i j := by
  rw [val_main_v0_apply]
  unfold spin
  congr 1
  funext a
  match a with
  | ⟨0, _⟩ => rfl
  | ⟨1, _⟩ => rfl
  | ⟨2, _⟩ => rfl
  | ⟨3, _⟩ => rfl

/-- The field slice of the argument at a site is the field of Spec.lean. -/
theorem v1_at (x0 : (⟨S8x2x2048x2048, .f32⟩ : BufTy).Contents (Elt Ideal)) (b : Fin 8) (i j : Fin 2048) :
    val_main_v1 (F := Ideal) x0 (ix4 b (0 : Fin 1) i j) = beta x0 b i j := by
  rw [val_main_v1_apply]
  unfold beta
  congr 1
  funext a
  match a with
  | ⟨0, _⟩ => rfl
  | ⟨1, _⟩ => rfl
  | ⟨2, _⟩ => rfl
  | ⟨3, _⟩ => rfl

/-- Rolling the rows forward by one puts the cyclic predecessor's row at each row: row 0 is the last row (the first
    piece), row i ≥ 1 is row i - 1 (the second piece). -/
theorem roll_rows_prev (x0 : (⟨S8x2x2048x2048, .f32⟩ : BufTy).Contents (Elt Ideal)) (b : Fin 8) (i j : Fin 2048) :
    val_main_v4 (F := Ideal) x0 (ix4 b (0 : Fin 1) i j) = spin x0 b (prev i) j := by
  unfold val_main_v4
  have hi := i.isLt
  by_cases h : i.val < 1
  · rw [concatenate_pair_apply_left (t := S8x1x2048x2048) (s₁ := S8x1x1x2048) (s₂ := S8x1x2047x2048) (2 : Fin 4) _ _ _
      (ix4 b (0 : Fin 1) i j) rfl (ix4 b (0 : Fin 1) (0 : Fin 1) j)
      (fun a => match a with
        | ⟨0, _⟩ => rfl
        | ⟨1, _⟩ => rfl
        | ⟨2, _⟩ => by show (0 : Nat) = i.val; omega
        | ⟨3, _⟩ => rfl)]
    have e : idx_main_call0_v0 (ix4 b (0 : Fin 1) (0 : Fin 1) j) = ix4 b (0 : Fin 1) (prev i) j := by
      funext a
      apply Fin.ext
      match a with
      | ⟨0, _⟩ => rfl
      | ⟨1, _⟩ => rfl
      | ⟨2, _⟩ => show 2047 + 0 = (i.val + 2047) % 2048; omega
      | ⟨3, _⟩ => rfl
    rw [val_main_call0_v0_apply, e, v0_at]
  · rw [concatenate_pair_apply_right (t := S8x1x2048x2048) (s₁ := S8x1x1x2048) (s₂ := S8x1x2047x2048) (2 : Fin 4) _ _ _
      (ix4 b (0 : Fin 1) i j) rfl rfl (ix4 b (0 : Fin 1) (⟨i.val - 1, by omega⟩ : Fin 2047) j)
      (fun a ha => match a, ha with
        | ⟨0, _⟩, _ => rfl
        | ⟨1, _⟩, _ => rfl
        | ⟨2, _⟩, ha => absurd rfl ha
        | ⟨3, _⟩, _ => rfl)
      (by show i.val - 1 + 1 = i.val; omega)]
    have e : idx_main_call0_v1 (ix4 b (0 : Fin 1) (⟨i.val - 1, by omega⟩ : Fin 2047) j) = ix4 b (0 : Fin 1) (prev i) j := by
      funext a
      apply Fin.ext
      match a with
      | ⟨0, _⟩ => rfl
      | ⟨1, _⟩ => rfl
      | ⟨2, _⟩ => show i.val - 1 = (i.val + 2047) % 2048; omega
      | ⟨3, _⟩ => rfl
    rw [val_main_call0_v1_apply, e, v0_at]

/-- Rolling the rows back by one puts the cyclic successor's row at each row: row i < 2047 is row i + 1 (the first
    piece), the last row is row 0 (the second piece). -/
theorem roll_rows_next (x0 : (⟨S8x2x2048x2048, .f32⟩ : BufTy).Contents (Elt Ideal)) (b : Fin 8) (i j : Fin 2048) :
    val_main_v5 (F := Ideal) x0 (ix4 b (0 : Fin 1) i j) = spin x0 b (next i) j := by
  unfold val_main_v5
  have hi := i.isLt
  by_cases h : i.val < 2047
  · rw [concatenate_pair_apply_left (t := S8x1x2048x2048) (s₁ := S8x1x2047x2048) (s₂ := S8x1x1x2048) (2 : Fin 4) _ _ _
      (ix4 b (0 : Fin 1) i j) rfl (ix4 b (0 : Fin 1) (⟨i.val, h⟩ : Fin 2047) j)
      (fun a => match a with
        | ⟨0, _⟩ => rfl
        | ⟨1, _⟩ => rfl
        | ⟨2, _⟩ => rfl
        | ⟨3, _⟩ => rfl)]
    have e : idx_main_call1_v0 (ix4 b (0 : Fin 1) (⟨i.val, h⟩ : Fin 2047) j) = ix4 b (0 : Fin 1) (next i) j := by
      funext a
      apply Fin.ext
      match a with
      | ⟨0, _⟩ => rfl
      | ⟨1, _⟩ => rfl
      | ⟨2, _⟩ => show 1 + i.val = (i.val + 1) % 2048; omega
      | ⟨3, _⟩ => rfl
    rw [val_main_call1_v0_apply, e, v0_at]
  · rw [concatenate_pair_apply_right (t := S8x1x2048x2048) (s₁ := S8x1x2047x2048) (s₂ := S8x1x1x2048) (2 : Fin 4) _ _ _
      (ix4 b (0 : Fin 1) i j) rfl rfl (ix4 b (0 : Fin 1) (0 : Fin 1) j)
      (fun a ha => match a, ha with
        | ⟨0, _⟩, _ => rfl
        | ⟨1, _⟩, _ => rfl
        | ⟨2, _⟩, ha => absurd rfl ha
        | ⟨3, _⟩, _ => rfl)
      (by show 0 + 2047 = i.val; omega)]
    have e : idx_main_call1_v1 (ix4 b (0 : Fin 1) (0 : Fin 1) j) = ix4 b (0 : Fin 1) (next i) j := by
      funext a
      apply Fin.ext
      match a with
      | ⟨0, _⟩ => rfl
      | ⟨1, _⟩ => rfl
      | ⟨2, _⟩ => show 0 = (i.val + 1) % 2048; omega
      | ⟨3, _⟩ => rfl
    rw [val_main_call1_v1_apply, e, v0_at]

/-- Rolling the columns forward by one puts the cyclic predecessor's column at each column. -/
theorem roll_cols_prev (x0 : (⟨S8x2x2048x2048, .f32⟩ : BufTy).Contents (Elt Ideal)) (b : Fin 8) (i j : Fin 2048) :
    val_main_v7 (F := Ideal) x0 (ix4 b (0 : Fin 1) i j) = spin x0 b i (prev j) := by
  unfold val_main_v7
  have hj := j.isLt
  by_cases h : j.val < 1
  · rw [concatenate_pair_apply_left (t := S8x1x2048x2048) (s₁ := S8x1x2048x1) (s₂ := S8x1x2048x2047) (3 : Fin 4) _ _ _
      (ix4 b (0 : Fin 1) i j) rfl (ix4 b (0 : Fin 1) i (0 : Fin 1))
      (fun a => match a with
        | ⟨0, _⟩ => rfl
        | ⟨1, _⟩ => rfl
        | ⟨2, _⟩ => rfl
        | ⟨3, _⟩ => by show (0 : Nat) = j.val; omega)]
    have e : idx_main_call2_v0 (ix4 b (0 : Fin 1) i (0 : Fin 1)) = ix4 b (0 : Fin 1) i (prev j) := by
      funext a
      apply Fin.ext
      match a with
      | ⟨0, _⟩ => rfl
      | ⟨1, _⟩ => rfl
      | ⟨2, _⟩ => rfl
      | ⟨3, _⟩ => show 2047 + 0 = (j.val + 2047) % 2048; omega
    rw [val_main_call2_v0_apply, e, v0_at]
  · rw [concatenate_pair_apply_right (t := S8x1x2048x2048) (s₁ := S8x1x2048x1) (s₂ := S8x1x2048x2047) (3 : Fin 4) _ _ _
      (ix4 b (0 : Fin 1) i j) rfl rfl (ix4 b (0 : Fin 1) i (⟨j.val - 1, by omega⟩ : Fin 2047))
      (fun a ha => match a, ha with
        | ⟨0, _⟩, _ => rfl
        | ⟨1, _⟩, _ => rfl
        | ⟨2, _⟩, _ => rfl
        | ⟨3, _⟩, ha => absurd rfl ha)
      (by show j.val - 1 + 1 = j.val; omega)]
    have e : idx_main_call2_v1 (ix4 b (0 : Fin 1) i (⟨j.val - 1, by omega⟩ : Fin 2047)) = ix4 b (0 : Fin 1) i (prev j) := by
      funext a
      apply Fin.ext
      match a with
      | ⟨0, _⟩ => rfl
      | ⟨1, _⟩ => rfl
      | ⟨2, _⟩ => rfl
      | ⟨3, _⟩ => show j.val - 1 = (j.val + 2047) % 2048; omega
    rw [val_main_call2_v1_apply, e, v0_at]

/-- Rolling the columns back by one puts the cyclic successor's column at each column. -/
theorem roll_cols_next (x0 : (⟨S8x2x2048x2048, .f32⟩ : BufTy).Contents (Elt Ideal)) (b : Fin 8) (i j : Fin 2048) :
    val_main_v9 (F := Ideal) x0 (ix4 b (0 : Fin 1) i j) = spin x0 b i (next j) := by
  unfold val_main_v9
  have hj := j.isLt
  by_cases h : j.val < 2047
  · rw [concatenate_pair_apply_left (t := S8x1x2048x2048) (s₁ := S8x1x2048x2047) (s₂ := S8x1x2048x1) (3 : Fin 4) _ _ _
      (ix4 b (0 : Fin 1) i j) rfl (ix4 b (0 : Fin 1) i (⟨j.val, h⟩ : Fin 2047))
      (fun a => match a with
        | ⟨0, _⟩ => rfl
        | ⟨1, _⟩ => rfl
        | ⟨2, _⟩ => rfl
        | ⟨3, _⟩ => rfl)]
    have e : idx_main_call3_v0 (ix4 b (0 : Fin 1) i (⟨j.val, h⟩ : Fin 2047)) = ix4 b (0 : Fin 1) i (next j) := by
      funext a
      apply Fin.ext
      match a with
      | ⟨0, _⟩ => rfl
      | ⟨1, _⟩ => rfl
      | ⟨2, _⟩ => rfl
      | ⟨3, _⟩ => show 1 + j.val = (j.val + 1) % 2048; omega
    rw [val_main_call3_v0_apply, e, v0_at]
  · rw [concatenate_pair_apply_right (t := S8x1x2048x2048) (s₁ := S8x1x2048x2047) (s₂ := S8x1x2048x1) (3 : Fin 4) _ _ _
      (ix4 b (0 : Fin 1) i j) rfl rfl (ix4 b (0 : Fin 1) i (0 : Fin 1))
      (fun a ha => match a, ha with
        | ⟨0, _⟩, _ => rfl
        | ⟨1, _⟩, _ => rfl
        | ⟨2, _⟩, _ => rfl
        | ⟨3, _⟩, ha => absurd rfl ha)
      (by show 0 + 2047 = j.val; omega)]
    have e : idx_main_call3_v1 (ix4 b (0 : Fin 1) i (0 : Fin 1)) = ix4 b (0 : Fin 1) i (next j) := by
      funext a
      apply Fin.ext
      match a with
      | ⟨0, _⟩ => rfl
      | ⟨1, _⟩ => rfl
      | ⟨2, _⟩ => rfl
      | ⟨3, _⟩ => show 0 = (j.val + 1) % 2048; omega
    rw [val_main_call3_v1_apply, e, v0_at]

/-- The reference's energy change at a site: twice the spin times the sum of the four cyclic neighbours. -/
theorem ref_dE (x0 : (⟨S8x2x2048x2048, .f32⟩ : BufTy).Contents (Elt Ideal)) (b : Fin 8) (i j : Fin 2048) :
    val_main_v11 (F := Ideal) x0 (ix4 b (0 : Fin 1) i j) = dE x0 b i j := by
  rw [val_main_v11_apply, val_main_v3_apply, val_main_v2_apply, val_main_cst_apply, val_main_v10_apply, val_main_v8_apply,
    val_main_v6_apply, roll_rows_prev, roll_rows_next, roll_cols_prev, roll_cols_next, v0_at]
  rfl

/-- The three words of the flip as reals: -2, 1 and -1 are exact dyadics. -/
theorem word_negTwo : Ideal.ofBits .f32 0xC0000000#32 = ((-2 : ℝ) : EReal) := by
  simp [Ideal.ofBits, Ideal.ieee, -EReal.coe_mul, -EReal.coe_neg]; norm_num

theorem word_one : Ideal.ofBits .f32 0x3F800000#32 = ((1 : ℝ) : EReal) := by
  simp [Ideal.ofBits, Ideal.ieee, -EReal.coe_mul, -EReal.coe_neg]; norm_num

theorem word_negOne : Ideal.ofBits .f32 0xBF800000#32 = ((-1 : ℝ) : EReal) := by
  simp [Ideal.ofBits, Ideal.ieee, -EReal.coe_mul, -EReal.coe_neg]; norm_num

/-- The reference's flip, (-2) · (the decision bit as a number) + 1, is -1 where the bit is set and 1 where it is not. -/
theorem flip_word (c : BitVec 1) :
    FloatOps.addf (FloatOps.mulf (FloatOps.ofBits (F := Ideal) .f32 0xC0000000#32) (FloatOps.uitofp (F := Ideal) .f32 c))
      (FloatOps.ofBits (F := Ideal) .f32 0x3F800000#32) = Scalar.select c cNegOne cOne := by
  by_cases hc : c = 1#1
  · subst hc
    rw [select_one]
    show Ideal.ofBits .f32 0xC0000000#32 * (((1 : Nat) : ℝ) : EReal) + Ideal.ofBits .f32 0x3F800000#32
      = Ideal.ofBits .f32 0xBF800000#32
    rw [word_negTwo, word_one, word_negOne, ← EReal.coe_mul, ← EReal.coe_add]
    norm_num
  · have h0 := eq_zero_of_ne_one hc
    subst h0
    rw [select_zero]
    show Ideal.ofBits .f32 0xC0000000#32 * (((0 : Nat) : ℝ) : EReal) + Ideal.ofBits .f32 0x3F800000#32
      = Ideal.ofBits .f32 0x3F800000#32
    rw [word_negTwo, word_one, ← EReal.coe_mul, ← EReal.coe_add]
    norm_num

/-- The reference's acceptance probability at a site. -/
theorem ref_pAcc (x0 : (⟨S8x2x2048x2048, .f32⟩ : BufTy).Contents (Elt Ideal)) (b : Fin 8) (i j : Fin 2048) :
    val_main_v34 (F := Ideal) x0 (ix4 b (0 : Fin 1) i j) = pAcc x0 b i j := by
  rw [val_main_v34_apply, val_main_v29_apply, val_main_v28_apply, val_main_cst_5_apply, val_main_v30_apply,
    val_main_cst_6_apply, val_main_v33_apply, val_main_v32_apply, val_main_v31_apply, ref_dE, v1_at]
  rfl

/-- The reference's mask decision at a site: the mask draw against the threshold, the same for every lattice. -/
theorem ref_mask (x2 : (⟨S2048x2048, .f32⟩ : BufTy).Contents (Elt Ideal)) (b : Fin 8) (i j : Fin 2048) :
    val_main_v39 (F := Ideal) x2 (ix4 b (0 : Fin 1) i j)
      = FloatOps.cmpf (F := Ideal) (φ := .f32) .ogt (x2 (ix2 i j)) cThresh := by
  have e : idx_main_v37 (idx_main_v39 (ix4 b (0 : Fin 1) i j)) = ix2 i j := by
    funext a
    apply Fin.ext
    match a with
    | ⟨0, _⟩ => rfl
    | ⟨1, _⟩ => rfl
  rw [val_main_v39_apply, val_main_v37_apply, val_main_v36_apply, val_main_v35_apply, val_main_cst_7_apply, e]
  rfl

/-- The reference's flip at a site. -/
theorem ref_flip (x0 : (⟨S8x2x2048x2048, .f32⟩ : BufTy).Contents (Elt Ideal)) (x1 : (⟨S8x1x2048x2048, .f32⟩ : BufTy).Contents (Elt Ideal))
    (x2 : (⟨S2048x2048, .f32⟩ : BufTy).Contents (Elt Ideal)) (b : Fin 8) (i j : Fin 2048) :
    val_main_v45 (F := Ideal) x0 x1 x2 (ix4 b (0 : Fin 1) i j) = flip x0 x1 x2 b i j := by
  rw [val_main_v45_apply, val_main_v43_apply, val_main_v42_apply, val_main_cst_8_apply, val_main_v41_apply,
    val_main_v40_apply, val_main_v38_apply, val_main_v44_apply, val_main_cst_9_apply, ref_pAcc, ref_mask]
  exact flip_word _

/-- The reference's new state: channel 0 the spins times their flips (the first piece of the closing concatenation),
    channel 1 the field (the second piece). -/
theorem ref_state (x0 : (⟨S8x2x2048x2048, .f32⟩ : BufTy).Contents (Elt Ideal)) (x1 : (⟨S8x1x2048x2048, .f32⟩ : BufTy).Contents (Elt Ideal))
    (x2 : (⟨S2048x2048, .f32⟩ : BufTy).Contents (Elt Ideal)) :
    (val_main_v47 (F := Ideal) x0 x1 x2 : ShX.Idx → EReal) = Gstate x0 x1 x2 := by
  funext q
  obtain ⟨b, ch, i, j, rfl⟩ : ∃ (b : Fin 8) (ch : Fin 2) (i j : Fin 2048), q = ix4 b ch i j :=
    ⟨q 0, q 1, q 2, q 3, eq_ix4 q⟩
  show val_main_v47 (F := Ideal) x0 x1 x2 (ix4 b ch i j) = state4 x0 x1 x2 b ch i j
  unfold val_main_v47 state4
  have hc := ch.isLt
  by_cases hch : ch.val = 0
  · rw [if_pos hch, concatenate_pair_apply_left (t := S8x2x2048x2048) (s₁ := S8x1x2048x2048) (s₂ := S8x1x2048x2048) (1 : Fin 4) _ _ _
      (ix4 b ch i j) rfl (ix4 b (0 : Fin 1) i j)
      (fun a => match a with
        | ⟨0, _⟩ => rfl
        | ⟨1, _⟩ => by show (0 : Nat) = ch.val; omega
        | ⟨2, _⟩ => rfl
        | ⟨3, _⟩ => rfl)]
    rw [val_main_v46_apply, v0_at, ref_flip]
    rfl
  · rw [if_neg hch, concatenate_pair_apply_right (t := S8x2x2048x2048) (s₁ := S8x1x2048x2048) (s₂ := S8x1x2048x2048) (1 : Fin 4) _ _ _
      (ix4 b ch i j) rfl rfl (ix4 b (0 : Fin 1) i j)
      (fun a ha => match a, ha with
        | ⟨0, _⟩, _ => rfl
        | ⟨1, _⟩, ha => absurd rfl ha
        | ⟨2, _⟩, _ => rfl
        | ⟨3, _⟩, _ => rfl)
      (by show 0 + 1 = ch.val; omega)]
    exact v1_at x0 b i j

end Cert.RefValue

end
-- ==== Proof.RefObvs.lean ====
/-
  The reference's four observables are those of Spec.lean, given the energy change site by site.
-/
import proofs.«404182_j15599321219396_3_alg».proof.Proof.Gen.ReferenceIdeal.Read
import proofs.«404182_j15599321219396_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Cert.Ising
open Idealize.ShloMosaic Idealize.ShloMosaic.ValueIdx Idealize.ShloMosaic.TcCoe Idealize.SL.Sem Idealize.ShloMosaic.StableHlo

/-! ## The three scaling words as reals -/

/-- The word of minus one half. -/
theorem word_negHalf : Ideal.ofBits .f32 0xBF000000#32 = ((-(1 / 2) : ℝ) : EReal) := by
  simp [Ideal.ofBits, Ideal.ieee, -EReal.coe_mul, -EReal.coe_neg]; norm_num

/-- The word of four. -/
theorem word_four : Ideal.ofBits .f32 0x40800000#32 = ((4 : ℝ) : EReal) := by
  simp [Ideal.ofBits, Ideal.ieee, -EReal.coe_mul, -EReal.coe_neg]; norm_num

/-- The word of minus one eighth. -/
theorem word_negEighth : Ideal.ofBits .f32 0xBE000000#32 = ((-(1 / 8) : ℝ) : EReal) := by
  simp [Ideal.ofBits, Ideal.ieee, -EReal.coe_mul, -EReal.coe_neg]; norm_num

/-- Minus one half of `e`, divided by four, is minus one eighth of `e`, for every extended real `e`: the quotient by the
    real 4 is the product with 1/4, and (-1/2) · (1/4) = -1/8 among the reals. -/
theorem scale_eq (e : EReal) :
    Ideal.div (Ideal.ofBits .f32 0xBF000000#32 * e) (Ideal.ofBits .f32 0x40800000#32) = cNegEighth * e := by
  show _ = Ideal.ofBits .f32 0xBE000000#32 * e
  rw [word_four, Ideal.div_coe (by norm_num : (4 : ℝ) ≠ 0), word_negHalf, word_negEighth, mul_right_comm, ← EReal.coe_mul]
  norm_num

/-! ## A sum over the channel axis and both lattice axes -/

/-- The sum of an array over axes 1, 2 and 3 from the initial value zero, at lattice `b`, is the double sum over the
    lattice's rows and columns: the channel axis has one coordinate, and the indices that reduce to `b` are exactly
    the `(b, 0, i, j)`. -/
theorem sum_lattice (x : S8x1x2048x2048.Idx → EReal) (b : Fin 8) :
    Ideal.hostReduceAdd reducesTo_S8x1x2048x2048_S8_d1_2_3 x 0 (ix1 b)
      = ∑ i : Fin 2048, ∑ j : Fin 2048, x (ix4 b (0 : Fin 1) i j) := by
  unfold Ideal.hostReduceAdd
  rw [zero_add]
  have hprod : ∑ i : Fin 2048, ∑ j : Fin 2048, x (ix4 b (0 : Fin 1) i j)
      = ∑ p : Fin 2048 × Fin 2048, x (ix4 b (0 : Fin 1) p.1 p.2) :=
    (Fintype.sum_prod_type (fun p : Fin 2048 × Fin 2048 => x (ix4 b (0 : Fin 1) p.1 p.2))).symm
  rw [hprod]
  symm
  refine Finset.sum_bij (fun p _ => ix4 b (0 : Fin 1) p.1 p.2) ?_ ?_ ?_ ?_
  · intro p _
    rw [Finset.mem_filter]
    refine ⟨Finset.mem_univ _, ?_⟩
    funext c
    match c with
    | ⟨0, _⟩ =>
      exact Fin.ext (Shape.ReducesTo.drop_apply_val_of_eq reducesTo_S8x1x2048x2048_S8_d1_2_3
        (ix4 b (0 : Fin 1) p.1 p.2) 0 0)
  · intro p _ q _ hpq
    have h2 : p.1.val = q.1.val := congrArg (fun r : S8x1x2048x2048.Idx => (r ⟨2, by decide⟩).val) hpq
    have h3 : p.2.val = q.2.val := congrArg (fun r : S8x1x2048x2048.Idx => (r ⟨3, by decide⟩).val) hpq
    exact Prod.ext (Fin.ext h2) (Fin.ext h3)
  · intro q hq
    rw [Finset.mem_filter] at hq
    refine ⟨((⟨(q 2).val, (q 2).isLt⟩ : Fin 2048), (⟨(q 3).val, (q 3).isLt⟩ : Fin 2048)), ?_, ?_⟩
    · simp only [Finset.mem_univ]
    have h0 : (q 0).val = b.val := by
      have := congrArg (fun r => (r 0).val) hq.2
      rw [← Shape.ReducesTo.drop_apply_val_of_eq reducesTo_S8x1x2048x2048_S8_d1_2_3 q 0 0]
      exact this
    funext c
    match c with
    | ⟨0, _⟩ => exact Fin.ext h0.symm
    | ⟨1, _⟩ =>
      have h1 : (q 1).val < 1 := (q 1).isLt
      exact Fin.ext (by show 0 = (q 1).val; omega)
    | ⟨2, _⟩ => exact Fin.ext rfl
    | ⟨3, _⟩ => exact Fin.ext rfl
  · intro p _
    rfl

/-! ## The reference's operations at a lattice site and at a lattice -/

/-- The spin slice reads the argument's channel 0. -/
theorem idx_v0_ix4 (b : Fin 8) (i j : Fin 2048) :
    idx_main_v0 (ix4 b (0 : Fin 1) i j) = ix4 b (0 : Fin 2) i j := by
  funext a
  match a with
  | ⟨0, _⟩ => rfl
  | ⟨1, _⟩ => rfl
  | ⟨2, _⟩ => rfl
  | ⟨3, _⟩ => rfl

theorem v0_site (x0 : (⟨S8x2x2048x2048, .f32⟩ : BufTy).Contents (Elt Ideal)) (b : Fin 8) (i j : Fin 2048) :
    val_main_v0 (F := Ideal) x0 (ix4 b (0 : Fin 1) i j) = spin x0 b i j := by
  rw [val_main_v0_apply, idx_v0_ix4]
  rfl

/-- The summand of the energy at a site: minus one half of the energy change, divided by four. -/
theorem v15_site (x0 : (⟨S8x2x2048x2048, .f32⟩ : BufTy).Contents (Elt Ideal))
    (hdE : ∀ (b : Fin 8) (i j : Fin 2048), val_main_v11 (F := Ideal) x0 (ix4 b (0 : Fin 1) i j) = dE x0 b i j)
    (b : Fin 8) (i j : Fin 2048) :
    val_main_v15 (F := Ideal) x0 (ix4 b (0 : Fin 1) i j) = cNegEighth * dE x0 b i j := by
  rw [val_main_v15_apply, val_main_v13_apply, val_main_v12_apply, val_main_v14_apply, val_main_cst_0_apply,
    val_main_cst_1_apply, hdE]
  exact scale_eq _

/-- The energy of lattice `b`. -/
theorem v16_lattice (x0 : (⟨S8x2x2048x2048, .f32⟩ : BufTy).Contents (Elt Ideal))
    (hdE : ∀ (b : Fin 8) (i j : Fin 2048), val_main_v11 (F := Ideal) x0 (ix4 b (0 : Fin 1) i j) = dE x0 b i j)
    (b : Fin 8) : val_main_v16 (F := Ideal) x0 (ix1 b) = eTot x0 b := by
  unfold val_main_v16
  rw [hostReduceAdd_apply]
  have h0 : val_main_cst_2 (F := Ideal) (Shape.Idx.first h_S_) = 0 := Ideal.ofBits_zero_f32
  rw [h0, sum_lattice]
  unfold eTot
  exact Finset.sum_congr rfl fun i _ => Finset.sum_congr rfl fun j _ => v15_site x0 hdE b i j

/-- The total spin of lattice `b`. -/
theorem v18_lattice (x0 : (⟨S8x2x2048x2048, .f32⟩ : BufTy).Contents (Elt Ideal)) (b : Fin 8) :
    val_main_v18 (F := Ideal) x0 (ix1 b) = sTot x0 b := by
  unfold val_main_v18
  rw [hostReduceAdd_apply]
  have h0 : val_main_cst_3 (F := Ideal) (Shape.Idx.first h_S_) = 0 := Ideal.ofBits_zero_f32
  rw [h0, sum_lattice]
  unfold sTot
  exact Finset.sum_congr rfl fun i _ => Finset.sum_congr rfl fun j _ => v0_site x0 b i j

/-- The mean spin of lattice `b`: the total spin divided by the number of sites, 2²², kept as its word. -/
theorem v20_lattice (x0 : (⟨S8x2x2048x2048, .f32⟩ : BufTy).Contents (Elt Ideal)) (b : Fin 8) :
    val_main_v20 (F := Ideal) x0 (ix1 b) = mMean x0 b := by
  rw [val_main_v20_apply, val_main_v19_apply, val_main_cst_4_apply, v18_lattice]
  rfl

/-- A row of the observables, a vector over the lattices laid out as one row, reads the vector at the column
    (once per row: the four index maps are four names for one function). -/
theorem idx_row23 (b : Fin 8) : idx_main_v23 (ix2 (0 : Fin 1) b) = ix1 b := by
  funext a
  match a with
  | ⟨0, _⟩ => rfl
theorem idx_row24 (b : Fin 8) : idx_main_v24 (ix2 (0 : Fin 1) b) = ix1 b := by
  funext a
  match a with
  | ⟨0, _⟩ => rfl
theorem idx_row25 (b : Fin 8) : idx_main_v25 (ix2 (0 : Fin 1) b) = ix1 b := by
  funext a
  match a with
  | ⟨0, _⟩ => rfl
theorem idx_row26 (b : Fin 8) : idx_main_v26 (ix2 (0 : Fin 1) b) = ix1 b := by
  funext a
  match a with
  | ⟨0, _⟩ => rfl

theorem ref_obvs (x0 : (⟨S8x2x2048x2048, .f32⟩ : BufTy).Contents (Elt Ideal))
    (hdE : ∀ (b : Fin 8) (i j : Fin 2048), val_main_v11 (F := Ideal) x0 (ix4 b (0 : Fin 1) i j) = dE x0 b i j) :
    (val_main_v27 (F := Ideal) x0 : ShO.Idx → EReal) = Gobvs x0 := by
  funext q
  obtain ⟨k, b, rfl⟩ : ∃ (k : Fin 4) (b : Fin 8), q = ix2 k b := ⟨q 0, q 1, eq_ix2 q⟩
  show _ = obvs4 x0 k b
  -- off the joined axis a row's index has the result's column
  have hi : ∀ (k : Fin 4) (c : Fin S1x8.rank), c.cast (rfl : S1x8.rank = S4x8.rank) ≠ (0 : Fin S4x8.rank) →
      ((ix2 (0 : Fin 1) b : S1x8.Idx) c).val = ((ix2 k b : S4x8.Idx) (c.cast rfl)).val := by
    intro k c hc
    match c with
    | ⟨0, _⟩ => exact absurd rfl hc
    | ⟨1, _⟩ => rfl
  unfold val_main_v27
  match k with
  | ⟨0, _⟩ =>
    rw [concatenate_apply_piece (0 : Fin S4x8.rank) _ _ (ix2 (⟨0, by decide⟩ : Fin 4) b) 0 (by show (0 : Nat) < 4; decide) S1x8
      (val_main_v23 (F := Ideal) x0) rfl rfl 0 rfl (ix2 (0 : Fin 1) b) (hi _) rfl]
    rw [val_main_v23_apply, idx_row23, v16_lattice x0 hdE]
    rfl
  | ⟨1, _⟩ =>
    rw [concatenate_apply_piece (0 : Fin S4x8.rank) _ _ (ix2 (⟨1, by decide⟩ : Fin 4) b) 1 (by show (1 : Nat) < 4; decide) S1x8
      (val_main_v24 (F := Ideal) x0) rfl rfl 1 rfl (ix2 (0 : Fin 1) b) (hi _) rfl]
    rw [val_main_v24_apply, idx_row24, val_main_v17_apply, v16_lattice x0 hdE]
    rfl
  | ⟨2, _⟩ =>
    rw [concatenate_apply_piece (0 : Fin S4x8.rank) _ _ (ix2 (⟨2, by decide⟩ : Fin 4) b) 2 (by show (2 : Nat) < 4; decide) S1x8
      (val_main_v25 (F := Ideal) x0) rfl rfl 2 rfl (ix2 (0 : Fin 1) b) (hi _) rfl]
    rw [val_main_v25_apply, idx_row25, val_main_v21_apply, v20_lattice]
    rfl
  | ⟨3, _⟩ =>
    rw [concatenate_apply_piece (0 : Fin S4x8.rank) _ _ (ix2 (⟨3, by decide⟩ : Fin 4) b) 3 (by show (3 : Nat) < 4; decide) S1x8
      (val_main_v26 (F := Ideal) x0) rfl rfl 3 rfl (ix2 (0 : Fin 1) b) (hi _) rfl]
    rw [val_main_v26_apply, idx_row26, val_main_v22_apply, v20_lattice]
    rfl

end Cert.RefValue

end
-- ==== Proof.Finite.lean ====
/-
  Under the precondition every entry of the spin-and-field array is a real number: the precondition says that the
  absolute value of every entry is strictly below +∞, and an extended real whose absolute value is below +∞ is
  neither infinity.
-/
import proofs.«404182_j15599321219396_3_alg».proof.Pre_finite_inputs
import Idealize.ShloMosaic.PureOps.Ideal
import Idealize.ShloMosaic.Lib.ValueIdx
import Idealize.ShloMosaic.Lib.ReduceAll

noncomputable section

namespace Cert.Ising

open Idealize.ShloMosaic Idealize.ShloMosaic.ValueIdx

/-- The word 0x7F800000 denotes +∞: sign clear, exponent field all ones, fraction zero. -/
theorem inf_word : Ideal.ofBits .f32 0x7F800000#32 = (⊤ : EReal) := by
  simp [Ideal.ofBits, Ideal.ieee]

/-- An extended real whose absolute value max x (-x) lies strictly below +∞ is a real number: the absolute value of
    either infinity is +∞. -/
theorem real_of_abs_lt_top (x : EReal) (hx : max x (-x) < ⊤) : ∃ v : ℝ, x = (v : EReal) := by
  induction x with
  | bot => simp at hx
  | coe r => exact ⟨r, rfl⟩
  | top => simp at hx

theorem finite_of_pre [Cert.Pre_finite_inputs.Facts]
    (x0 : FVec Ideal Cert.Pre_finite_inputs.S8x2x2048x2048 .f32) (x1 : FVec Ideal Cert.Pre_finite_inputs.S8x1x2048x2048 .f32)
    (x2 : FVec Ideal Cert.Pre_finite_inputs.S2048x2048 .f32)
    (h : Cert.Pre_finite_inputs.fn (F := Ideal) x0 x1 x2 = fun _ => 1#1) :
    ∀ q, ∃ v : ℝ, x0 q = (v : EReal) := by
  intro q
  -- the conjunction of the three tests, read at the one index of the result
  have h0 := congrFun h ValueIdx.ix0
  dsimp only [Cert.Pre_finite_inputs.fn] at h0
  -- keep the first array's conjunct
  have h1 := (IntOp.andi_eq_one.1 h0).1
  have h2 := (IntOp.andi_eq_one.1 h1).1
  -- the shape of rank zero has exactly one index, so every entry of the array is folded into the one result;
  -- a conjunction over all entries that holds, holds at the entry q
  haveI : Subsingleton Cert.Pre_finite_inputs.S_.Idx := ⟨fun a b => funext fun d => d.elim0⟩
  have h3 := Host.reduce_andi_all _ _ _ _ _ h2 q
  have h4 : Ideal.cmp .olt (max (x0 q) (-(x0 q))) (Ideal.ofBits .f32 0x7F800000#32) = 1#1 := h3
  rw [inf_word] at h4
  refine real_of_abs_lt_top (x0 q) ?_
  -- were the inequality false, the comparison's bit would be 0
  by_contra hn
  have h5 : Ideal.cmp .olt (max (x0 q) (-(x0 q))) ⊤ = 0#1 := by
    show BitVec.ofBool (decide (max (x0 q) (-(x0 q)) < ⊤)) = 0#1
    rw [decide_eq_false hn]; rfl
  rw [h5] at h4
  exact absurd h4 (by decide)

end Cert.Ising

end
-- ==== Proof.lean ====
/-
  One Metropolis sweep of eight periodic 2048 × 2048 spin lattices: a tiled kernel against the whole-array reference,
  equal over the extended reals wherever the inputs are finite.

  The kernel works tile by tile (256 lattice rows at a time, 64 grid points): a tile's row neighbours are taken
  cyclically inside the tile and the first and last row are then corrected with the lattice row just above and just
  below, fetched as two small extra blocks of the same spin array; the per-tile energy and spin sums go into a small
  array that a few closing host operations add up and turn into the four observables. The reference rolls the whole
  lattice. The two agree because on finite spins the correction cancels exactly (the one place finiteness is used), the
  acceptance test, the mask and the flip are the same operations on the same values, -e/8 is (-e/2)/4, and a sum over
  2048 rows is the sum of its eight tiles' sums.

  Frames: the kernel program's four input windows on the spin array share it in quarters (Proof/KI/Run.lean, and its
  word-level twin Proof/K/Run.lean); the reference's frame is its generated run with the results dropped.
  Values: the kernel's two result arrays (Proof/KI/Arrays.lean over Proof/KI/TileValue.lean, Proof/TileAlgebra.lean) and
  its observables (Proof/KI/Tail.lean) against the specification Proof/Spec.lean; the reference against the same
  specification (Proof/RefState.lean, Proof/RefObvs.lean); finiteness from the precondition (Proof/Finite.lean).
-/
import proofs.«404182_j15599321219396_3_alg».proof.Defs
import proofs.«404182_j15599321219396_3_alg».proof.Proof.Gen.Kernel
import proofs.«404182_j15599321219396_3_alg».proof.Proof.Gen.KernelIdeal
import proofs.«404182_j15599321219396_3_alg».proof.Proof.Gen.ReferenceIdeal
import proofs.«404182_j15599321219396_3_alg».proof.Proof.Gen.Pre_finite_inputs
import proofs.«404182_j15599321219396_3_alg».proof.Proof.Gen.ReferenceIdeal.Run
import proofs.«404182_j15599321219396_3_alg».proof.Proof.Gen.ReferenceIdeal.Read
import proofs.«404182_j15599321219396_3_alg».proof.Proof.K.Run
import proofs.«404182_j15599321219396_3_alg».proof.Proof.KI.Run
import proofs.«404182_j15599321219396_3_alg».proof.Proof.KI.Arrays
import proofs.«404182_j15599321219396_3_alg».proof.Proof.KI.Tail
import proofs.«404182_j15599321219396_3_alg».proof.Proof.TileAlgebra
import proofs.«404182_j15599321219396_3_alg».proof.Proof.RefState
import proofs.«404182_j15599321219396_3_alg».proof.Proof.RefObvs
import proofs.«404182_j15599321219396_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference runs and leaves its arguments unchanged: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

open Cert.KernelIdeal Cert.KernelIdeal.Hand in
/-- From agreeing, finite arguments both programs end with the new state `Gstate` and the observables `Gobvs` of the
    specification. -/
theorem algebraic : Cert.algebraic_KernelIdeal_ReferenceIdeal := by
  intro m ρ m' ρ' hpre hagree
  refine ⟨fun c => Cert.Ising.Gstate (m ((c.tc : Thread nD τ).loc main_arg0)) (m ((c.tc : Thread nD τ).loc main_arg1)) (m ((c.tc : Thread nD τ).loc main_arg2)),
    fun c => Cert.Ising.Gobvs (m ((c.tc : Thread nD τ).loc main_arg0)), ?_, ?_⟩
  · -- the kernel program: every unscoped buffer read back at the end of the run
    refine (θ_run Cert.KernelIdeal.defs _ _).mono (fun r h c => ?_) (run_main (F := Ideal) m ρ)
    have hx : ∀ q, ∃ v : ℝ, (V0 m ρ c main_arg0 : Cert.Ising.ShX.Idx → EReal) q = (v : EReal) :=
      Cert.Ising.finite_of_pre _ _ _ (hpre c)
    refine ⟨?_, ?_, ?_, ?_, ?_⟩
    · exact (h c _ (mem_uc main_v0_0 (by decide))).trans ((W2_state m ρ c).trans (final_state (V0 m ρ) c hx))
    · refine (h c _ (mem_uc main_v16 (by decide))).trans ?_
      unfold W2
      rw [tail_obvs (W1 m ρ c), W1_part m ρ c, final_part (V0 m ρ) c hx]
      exact Cert.Ising.obvsOfPart_Gpart _
    · exact (h c _ (mem_uc main_arg0 (by decide))).trans (W2_arg m ρ c main_arg0 (.inl rfl))
    · exact (h c _ (mem_uc main_arg1 (by decide))).trans (W2_arg m ρ c main_arg1 (.inr (.inl rfl)))
    · exact (h c _ (mem_uc main_arg2 (by decide))).trans (W2_arg m ρ c main_arg2 (.inr (.inr rfl)))
  · -- the reference: its generated run, each result read through the specification
    refine (θ_run Cert.ReferenceIdeal.defs _ _).mono (fun r h c => ?_) (Cert.ReferenceIdeal.Value.run (F := Ideal) m' ρ')
    obtain ⟨h47, h27, ha0, ha1, ha2⟩ := h c
    refine ⟨?_, ?_, ha0, ha1, ha2⟩
    · rw [h47, Cert.ReferenceIdeal.Read.val_main_v47_eq, (hagree c).1, (hagree c).2.1, (hagree c).2.2]
      exact Cert.RefValue.ref_state _ _ _
    · rw [h27, Cert.ReferenceIdeal.Read.val_main_v27_eq, (hagree c).1]
      exact Cert.RefValue.ref_obvs _ (Cert.RefValue.ref_dE _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
